-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S512x1024 : Shape := ⟨2, ![512, 1024]⟩
abbrev S512x1 : Shape := ⟨2, ![512, 1]⟩
abbrev S1x1024 : Shape := ⟨2, ![1, 1024]⟩
abbrev S512 : Shape := ⟨1, ![512]⟩
abbrev S_ : Shape := ⟨0, ![]⟩

abbrev nBuf : Space → Nat
  | .hbm => 11
  | .vmem => 28
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1x1024, .i32⟩
  | .local _ .vmem, ⟨5, _⟩ => ⟨S1x1024, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1024, .f32⟩
  | .local _ .vmem, ⟨13, _⟩ => ⟨S512x1024, .f32⟩
  | .local _ .vmem, ⟨14, _⟩ => ⟨S512x1, .i32⟩
  | .local _ .vmem, ⟨15, _⟩ => ⟨S512x1, .i32⟩
  | .local _ .vmem, ⟨16, _⟩ => ⟨S1x1024, .i32⟩
  | .local _ .vmem, ⟨17, _⟩ => ⟨S1x1024, .i32⟩
  | .local _ .vmem, ⟨18, _⟩ => ⟨S512x1, .f32⟩
  | .local _ .vmem, ⟨19, _⟩ => ⟨S512x1, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc1_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_19 : BitVec 32 := 0#32
  let v35 : BitVec 1 := Scalar.cmpi .ne v34 c0_i32_19
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_39 : BitVec 32 := 0#32
  let v77 : BitVec 1 := Scalar.cmpi .ne v76 c0_i32_39
  v77

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  natLt_1_32 : 1 < 32
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x8192.size a
  hwx0_0 : ∀ i : grid0.Coords, EltTy.bits .f32 = 32 ∨ (Rect.block (s := S8192x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .i32 = 32 ∨ (Rect.block (s := S1x8192) S1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .f32 = 32 ∨ (Rect.block (s := S8192x8192) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .i32 = 32 ∨ (Rect.block (s := S8192x1) S512x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .i32 = 32 ∨ (Rect.block (s := S1x8192) S1x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S512x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S_, .f32⟩
  | .hbm, ⟨8, _⟩ => ⟨S8192x8192, .f32⟩
  | .hbm, ⟨9, _⟩ => ⟨S8192x8192, .i1⟩
  | .hbm, ⟨10, _⟩ => ⟨S8192x8192, .i1⟩
  | .hbm, ⟨11, _⟩ => ⟨S8192x8192, .i1⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x1, .f32⟩
  | .hbm, ⟨28, _⟩ => ⟨S8192x8192, .f32⟩
  | .hbm, ⟨29, _⟩ => ⟨S8192x8192, .i1⟩
  | .hbm, ⟨30, _⟩ => ⟨S8192x8192, .i1⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x1, .f32⟩
  | .hbm, ⟨35, _⟩ => ⟨S8192x8192, .f32⟩
  | .hbm, ⟨36, _⟩ => ⟨S8192x8192, .i1⟩
  | .hbm, ⟨37, _⟩ => ⟨S8192x8192, .i1⟩
  | .hbm, ⟨38, _⟩ => ⟨S_, .i1⟩
  | .hbm, ⟨39, _⟩ => ⟨S8192, .i1⟩
  | .hbm, ⟨40, _⟩ => ⟨S_, .i1⟩
  | .hbm, ⟨41, _⟩ => ⟨S8192, .i1⟩
  | .hbm, ⟨42, _⟩ => ⟨S8192, .i1⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_call2_v0 : Ref sig .tc := ⟨.hbm, 51, rfl⟩
abbrev main_call2_v1 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_cst_12 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_13 : Ref sig .tc := ⟨.hbm, 63, rfl⟩
abbrev main_call3_v0 : Ref sig .tc := ⟨.hbm, 64, rfl⟩
abbrev main_call3_v1 : Ref sig .tc := ⟨.hbm, 65, rfl⟩
abbrev main_v40 : Ref sig .tc := ⟨.hbm, 66, rfl⟩
abbrev main_cst_14 : Ref sig .tc := ⟨.hbm, 67, rfl⟩
abbrev main_v41 : Ref sig .tc := ⟨.hbm, 68, rfl⟩
abbrev main_v42 : Ref sig .tc := ⟨.hbm, 69, rfl⟩
abbrev main_cst_15 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_16 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_17 : Ref sig .tc := ⟨.hbm, 78, rfl⟩
abbrev main_call4_v0 : Ref sig .tc := ⟨.hbm, 79, rfl⟩
abbrev main_call4_v1 : Ref sig .tc := ⟨.hbm, 80, rfl⟩
abbrev main_v49 : Ref sig .tc := ⟨.hbm, 81, rfl⟩
abbrev main_cst_18 : Ref sig .tc := ⟨.hbm, 82, rfl⟩
abbrev main_v50 : Ref sig .tc := ⟨.hbm, 83, rfl⟩
abbrev main_cst_19 : Ref sig .tc := ⟨.hbm, 84, rfl⟩
abbrev main_v51 : Ref sig .tc := ⟨.hbm, 85, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.Kernel.Cases.lean ====
/-
  The grid of either call is 16 row blocks by 8 column blocks, walked row block by row block: point t is row block
  t / 8 and column block t % 8. Each body resets its running per-row accumulators at the first column block of a
  row block (t % 8 = 0) and hands them to its output blocks at the last one (t % 8 = 7); in between it only updates
  them. So a point is in one of three cases, decided here over the grid in closed form, together with where an output
  window is left alone (idle, and not written back) and the accumulators' buffers named as memrefs.
-/
import proofs.«174246_j52381421142559_1_alg».proof.Proof.Gen.Kernel.Launch
import proofs.«174246_j52381421142559_1_alg».proof.Proof.Gen.Kernel.Skeleton
import proofs.«174246_j52381421142559_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Pairs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first call: running minimum and maximum per row -/

/-- The reset test of the first call, as the body computes it from the column-block coordinate. -/
abbrev first0 (i : grid0.Coords) : Prop := (Scalar.cmpi .ne (Scalar.extui (Scalar.cmpi .eq (BitVec.ofNat 32 (i 1).val) 0#32)) 0#32) = 1#1
/-- It holds exactly at the first column block of a row block. -/
theorem first0_iff : ∀ t : Fin cfg0.N, first0 (grid0.coords t) ↔ t.val % 8 = 0 :=
  (by decide +kernel : ∀ t : Fin grid0.N, first0 (grid0.coords t) ↔ t.val % 8 = 0)

/-- The hand-over test of the first call. -/
abbrev last0 (i : grid0.Coords) : Prop := k0_cond2 i = 1#1
/-- It holds exactly at the last column block of a row block. -/
theorem last0_iff : ∀ t : Fin cfg0.N, last0 (grid0.coords t) ↔ t.val % 8 = 7 :=
  (by decide +kernel : ∀ t : Fin grid0.N, last0 (grid0.coords t) ↔ t.val % 8 = 7)

/-- The three input windows are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last column block the two output windows are idle and not written back; at it they are live. -/
theorem idle0_3 : ∀ t : Fin cfg0.N, ¬last0 (grid0.coords t) → cfg0.idle 3 (grid0.coords t) = true := by decide +kernel
theorem idle0_4 : ∀ t : Fin cfg0.N, ¬last0 (grid0.coords t) → cfg0.idle 4 (grid0.coords t) = true := by decide +kernel
theorem noFlush0_3 : ∀ t : Fin cfg0.N, ¬last0 (grid0.coords t) → (cfg0.win 3).flush t = false := by decide +kernel
theorem noFlush0_4 : ∀ t : Fin cfg0.N, ¬last0 (grid0.coords t) → (cfg0.win 4).flush t = false := by decide +kernel
theorem live0_3 : ∀ t : Fin cfg0.N, last0 (grid0.coords t) → cfg0.idle 3 (grid0.coords t) = false := by decide +kernel
theorem live0_4 : ∀ t : Fin cfg0.N, last0 (grid0.coords t) → cfg0.idle 4 (grid0.coords t) = false := by decide +kernel

/-- The current staging memref of each window at a point, as the pipeline passes it to the body. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The running minimum's and the running maximum's buffers. -/
abbrev accMin : Memref sig .tc .vmem S512x1 .f32 := Memref.whole cc0_scratch0
abbrev accMax : Memref sig .tc .vmem S512x1 .f32 := Memref.whole cc0_scratch1

/-! ## The second call: running sums and flags per row -/

abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem idle1_5 : ∀ t : Fin cfg1.N, ¬last1 (grid1.coords t) → cfg1.idle 5 (grid1.coords t) = true := by decide +kernel
theorem noFlush1_5 : ∀ t : Fin cfg1.N, ¬last1 (grid1.coords t) → (cfg1.win 5).flush t = false := by decide +kernel
theorem live1_5 : ∀ t : Fin cfg1.N, last1 (grid1.coords t) → cfg1.idle 5 (grid1.coords t) = false := by decide +kernel

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
/-- The buffers of the running positive sum, negative sum, positive flag and negative flag. -/
abbrev accPos : Memref sig .tc .vmem S512x1 .f32 := Memref.whole cc1_scratch0
abbrev accNeg : Memref sig .tc .vmem S512x1 .f32 := Memref.whole cc1_scratch1
abbrev flagPos : Memref sig .tc .vmem S512x1 .f32 := Memref.whole cc1_scratch2
abbrev flagNeg : Memref sig .tc .vmem S512x1 .f32 := Memref.whole cc1_scratch3

end Cert.Kernel.Pairs

end
-- ==== Proof.LibWholeStore.lean ====
/-
  A store through the rectangle that is the whole buffer, made last, decides what the buffer reads back as: its payload,
  whatever was stored before and whatever the buffer held. And a load through that rectangle reads the contents themselves.
-/
import Idealize.ShloMosaic.Lib.Pipeline.Value
import Idealize.ShloMosaic.Lib.Pipeline.FrameBody
import Idealize.ShloMosaic.Lib.Pipeline.Frame

noncomputable section

namespace Idealize.ShloMosaic.View

variable {Val : EltTy → Type} [∀ e, Nonempty (Val e)] {sig : RefSig} {κ : Kind} {sp : Space} {S : Shape} {e : EltTy}

/-- After the stores `⟨whole, w⟩ :: L` (last first) a view of the shape reads `w`. -/
theorem read_writes_whole_last (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [View.read_writes_eq_canon v f _ (fun y => ⟨_, List.mem_cons_self, by
    subst h; show y ∈ (Rect.whole S).set; rw [Rect.set_whole]; exact Finset.mem_univ y⟩)]
  exact View.canon_cons_unit_zero h inb w L

end Idealize.ShloMosaic.View

end
-- ==== Proof.Kernel.Run0.lean ====
/-
  One grid point of the first call, as a triple on whole staging buffers: from the three input blocks, the two output
  blocks and the two running accumulators at given contents, the body ends with the inputs as they were, the running
  minimum and maximum updated by the block (from their reset values at the first column block of a row block, from what
  they held otherwise), and the output blocks either untouched or, at the last column block, holding the updated values.
-/
import proofs.«174246_j52381421142559_1_alg».proof.Proof.Kernel.Cases
import proofs.«174246_j52381421142559_1_alg».proof.Proof.LibWholeStore

set_option maxRecDepth 16384

noncomputable section

namespace Cert.Kernel.Pairs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- The two accumulators after a point, from the blocks and what they held before it. -/
def upd0 (x0 : Vec F S512x1024 .f32) (x1 : Vec F S512x1 .i32) (x2 : Vec F S1x1024 .i32) (s : Vec F S512x1 .f32 × Vec F S512x1 .f32) :
    Vec F S512x1 .f32 × Vec F S512x1 .f32 :=
  (k0_pay4 x0 x1 x2 s.1, k0_pay5 x0 x1 x2 s.2)

/-- What a row block's accumulators are reset to: plus and minus infinity in every row. -/
def init0 : Vec F S512x1 .f32 × Vec F S512x1 .f32 := (k0_pay1, k0_pay2)

set_option maxHeartbeats 1000000 in
/-- A point that is neither the first nor the last column block of its row block: only the accumulators change. -/
theorem run0_mid (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : ¬first0 i) (hc1 : ¬last0 i)
    (x0 : Vec F S512x1024 .f32) (x1 : Vec F S512x1 .i32) (x2 : Vec F S1x1024 .i32) (y3 y4 s7 s8 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare (upd0 x0 x1 x2 (s7, s8)).1 ∗ owns (c : Thread nD τ) arg8 fullShare (upd0 x0 x1 x2 (s7, s8)).2) -∗ K ⟨⟩))
      ⊢ wp frame (wpE (defs₀ (F := F)) Variants.none c none) E (cc0__minmax_kernel i arg2 harg2 arg3 harg3 arg4 harg4 arg5 harg5 arg6 harg6 arg7 harg7 arg8 harg8) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H8
  ipureintro
  sl_unfold_words
  rw [View.read_writes_whole_last _ _ hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
  try rfl

set_option maxHeartbeats 1000000 in
/-- The first column block of a row block: the accumulators are reset, then updated by the block. -/
theorem run0_first (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : first0 i) (hc1 : ¬last0 i)
    (x0 : Vec F S512x1024 .f32) (x1 : Vec F S512x1 .i32) (x2 : Vec F S1x1024 .i32) (y3 y4 s7 s8 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare (upd0 x0 x1 x2 init0).1 ∗ owns (c : Thread nD τ) arg8 fullShare (upd0 x0 x1 x2 init0).2) -∗ K ⟨⟩))
      ⊢ wp frame (wpE (defs₀ (F := F)) Variants.none c none) E (cc0__minmax_kernel i arg2 harg2 arg3 harg3 arg4 harg4 arg5 harg5 arg6 harg6 arg7 harg7 arg8 harg8) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H8
  ipureintro
  sl_unfold_words
  rw [View.read_writes_whole_last _ _ hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
  try rfl

set_option maxHeartbeats 1000000 in
/-- The last column block of a row block: the accumulators are updated and copied to the two output blocks. -/
theorem run0_last (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : ¬first0 i) (hc1 : last0 i)
    (x0 : Vec F S512x1024 .f32) (x1 : Vec F S512x1 .i32) (x2 : Vec F S1x1024 .i32) (y3 y4 s7 s8 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2 ∗ owns (c : Thread nD τ) arg5 fullShare (upd0 x0 x1 x2 (s7, s8)).1 ∗ owns (c : Thread nD τ) arg6 fullShare (upd0 x0 x1 x2 (s7, s8)).2 ∗ owns (c : Thread nD τ) arg7 fullShare (upd0 x0 x1 x2 (s7, s8)).1 ∗ owns (c : Thread nD τ) arg8 fullShare (upd0 x0 x1 x2 (s7, s8)).2) -∗ K ⟨⟩))
      ⊢ wp frame (wpE (defs₀ (F := F)) Variants.none c none) E (cc0__minmax_kernel i arg2 harg2 arg3 harg3 arg4 harg4 arg5 harg5 arg6 harg6 arg7 harg7 arg8 harg8) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  isplitl [H4]
  · iexists _; isplitr; swap; · iexact H4
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  isplitl [H7]
  · iexists _; isplitr; swap; · iexact H7
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H8
  ipureintro
  sl_unfold_words
  rw [View.read_writes_whole_last _ _ hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
  try rfl

end Cert.Kernel.Pairs

end
-- ==== Proof.Kernel.Data0.lean ====
/-
  The proof data of the first call, at any contents `V` of the core's buffers when the call is entered. The running
  minimum and maximum after point n are a recursion over the points: reset at the first column block of each row block,
  otherwise continued from the point before, and in either case updated by the point's three input blocks. The region's
  invariant holds the two accumulator buffers at exactly these values between points; the two output blocks hold them at
  the last column block of a row block, where they are written back.
-/
import proofs.«174246_j52381421142559_1_alg».proof.Proof.Kernel.Run0

set_option maxRecDepth 16384

noncomputable section

namespace Cert.Kernel.Pairs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (when it is not fetched its
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators after each point -/

/-- The running minimum and maximum after point `n`. -/
def accAt0 (c : Dev nD) : (n : ℕ) → n < cfg0.N → Vec F S512x1 .f32 × Vec F S512x1 .f32
  | 0, hn => upd0 (iblk0 V c 0 ⟨0, hn⟩) (iblk0 V c 1 ⟨0, hn⟩) (iblk0 V c 2 ⟨0, hn⟩) init0
  | n + 1, hn => upd0 (iblk0 V c 0 ⟨n + 1, hn⟩) (iblk0 V c 1 ⟨n + 1, hn⟩) (iblk0 V c 2 ⟨n + 1, hn⟩)
      (if (n + 1) % 8 = 0 then init0 else accAt0 c n (Nat.lt_of_succ_lt hn))

/-- At the first column block of a row block they start from the reset values. -/
theorem accAt0_first (c : Dev nD) (t : Fin cfg0.N) (h : t.val % 8 = 0) :
    accAt0 V c t.val t.isLt = upd0 (iblk0 V c 0 t) (iblk0 V c 1 t) (iblk0 V c 2 t) init0 := by
  obtain ⟨n, hn⟩ := t
  cases n with
  | zero => rfl
  | succ n => exact congrArg (upd0 _ _ _) (if_pos h)

/-- Elsewhere they continue from the point before. -/
theorem accAt0_next (c : Dev nD) (t : Fin cfg0.N) (h : ¬t.val % 8 = 0) :
    accAt0 V c t.val t.isLt = upd0 (iblk0 V c 0 t) (iblk0 V c 1 t) (iblk0 V c 2 t)
      (accAt0 V c (t.val - 1) (Nat.lt_of_le_of_lt (Nat.sub_le _ _) t.isLt)) := by
  obtain ⟨n, hn⟩ := t
  cases n with
  | zero => exact absurd (Nat.zero_mod _) h
  | succ n => exact congrArg (upd0 _ _ _) (if_neg h)

/-! ## The invariant -/

/-- The core's scoped buffers other than this call's staging buffers and its two accumulators, at some contents. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two accumulators' buffers split out. -/
theorem PhiA0_eq (c : Dev nD) :
    (Pipeline.ΦA spec0 c : sProp 𝕄)
      = iprop((((∃ d, owns (c : Thread nD τ) accMin fullShare d) ∗ (∃ d, owns (c : Thread nD τ) accMax fullShare d)) ∗ rest0 c) ∗ (∃ r, prngReg c r)) := by
  unfold Pipeline.ΦA
  rw [Pipeline.scopedRest_split_of_list spec0 c [cc0_scratch0, cc0_scratch1] (by decide) (by decide)]
  simp only [accMin, accMax, owns_whole]; rfl

/-- The invariant before position `n`: before the first point what the launch hands over; afterwards the two accumulators
    at what the point before left, the other scoped buffers at anything, the generator register at some state. -/
def Phi0 (c : Dev nD) : (n : ℕ) → n ≤ cfg0.N → sProp 𝕄
  | 0, _ => Pipeline.ΦA spec0 c
  | n + 1, hn => iprop(((owns (c : Thread nD τ) accMin fullShare (accAt0 V c n hn).1 ∗ owns (c : Thread nD τ) accMax fullShare (accAt0 V c n hn).2) ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(((owns (c : Thread nD τ) accMin fullShare (accAt0 V c n hn).1 ∗ owns (c : Thread nD τ) accMax fullShare (accAt0 V c n hn).2) ∗ rest0 c) ∗ (∃ r, prngReg c r)) := rfl
theorem Phi0_pos (c : Dev nD) (n : ℕ) (h : n ≤ cfg0.N) (hz : n ≠ 0) :
    Phi0 V c n h = iprop(((owns (c : Thread nD τ) accMin fullShare (accAt0 V c (n - 1) (by omega)).1 ∗ owns (c : Thread nD τ) accMax fullShare (accAt0 V c (n - 1) (by omega)).2) ∗ rest0 c) ∗ (∃ r, prngReg c r)) := by
  cases n with
  | zero => exact absurd rfl hz
  | succ n => rfl

/-! ## The proof data -/

/-- The arrays as the call finds them; after the body each input's buffer at its block, each output's at the
    accumulator it receives; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accAt0 V c t.val t.isLt).1
    | ⟨4, _⟩ => (accAt0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (accAt0 V c t.val t.isLt).1 := by dsimp only [dat0]
theorem after0_4 (c : Dev nD) (t : Fin cfg0.N) : (dat0 V c).after 4 t = (accAt0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: which of the three cases the point is in is decided by its position in its row block; the
    invariant hands the body the accumulators at what the point before left (at anything before the first point, where
    they are reset anyway) and takes them back at this point's values; an output block is handed back untouched unless
    this is the last column block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h1 : t.val % 8 = 7
  · -- the last column block of a row block
    have h0 : ¬t.val % 8 = 0 := by omega
    have hz : t.val ≠ 0 := by omega
    have hl : last0 (grid0.coords t) := (last0_iff t).mpr h1
    have hf : ¬first0 (grid0.coords t) := fun h => h0 ((first0_iff t).mp h)
    rw [show (dat0 V c).leavesExact 3 t = owns (c : Thread nD τ) (ms0_3 t) fullShare ((dat0 V c).after 3 t) from by
      unfold Dat.leavesExact; rw [live0_3 t hl], after0_3]
    rw [show (dat0 V c).leavesExact 4 t = owns (c : Thread nD τ) (ms0_4 t) fullShare ((dat0 V c).after 4 t) from by
      unfold Dat.leavesExact; rw [live0_4 t hl], after0_4]
    rw [accAt0_next V c t h0, Phi0_castSucc V c t, Phi0_pos V c _ _ hz]
    iintro ⟨⟨⟨⟨HS7, HS8⟩, Hr⟩, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ _ _ hf hl (iblk0 V c 0 t) (iblk0 V c 1 t) (iblk0 V c 2 t) _ _ _ _ Set.univ _)
    isplitl [H0]; · iexact H0
    isplitl [H1]; · iexact H1
    isplitl [H2]; · iexact H2
    isplitl [H3]; · iexact H3
    isplitl [H4]; · iexact H4
    isplitl [HS7]; · iexact HS7
    isplitl [HS8]; · iexact HS8
    iintro ⟨H0, H1, H2, H3, H4, HS7, HS8⟩
    isplitl [HS7 HS8 Hr Hg]
    · isplitl [HS7 HS8 Hr]
      · isplitl [HS7 HS8]
        · isplitl [HS7]; · iexact HS7
          iexact HS8
        iexact Hr
      iexact Hg
    isplitl [Ho]; · iexact Ho
    isplitl [H0]; · iexact H0
    isplitl [H1]; · iexact H1
    isplitl [H2]; · iexact H2
    isplitl [H3]; · iexact H3
    iexact H4
  · have hl : ¬last0 (grid0.coords t) := fun h => h1 ((last0_iff t).mp h)
    rw [Dat.leavesExact_idle (dat0 V c) 3 t (idle0_3 t hl) (noFlush0_3 t hl)]
    rw [Dat.leavesExact_idle (dat0 V c) 4 t (idle0_4 t hl) (noFlush0_4 t hl)]
    by_cases h0 : t.val % 8 = 0
    · -- the first column block of a row block
      have hf : first0 (grid0.coords t) := (first0_iff t).mpr h0
      rw [accAt0_first V c t h0, Phi0_castSucc V c t]
      by_cases hz : t.val = 0
      · rw [Phi0_zero V c _ _ hz, PhiA0_eq]
        iintro ⟨⟨⟨⟨⟨%s7, HS7⟩, ⟨%s8, HS8⟩⟩, Hr⟩, Hg⟩, Ho, ⟨%d0, H0⟩, ⟨%d1, H1⟩, ⟨%d2, H2⟩, ⟨%d3, H3⟩, ⟨%d4, H4⟩⟩
        iapply (run0_first c (grid0.coords t) _ _ _ _ _ _ _ _ _ _ _ _ _ _ hf hl (iblk0 V c 0 t) (iblk0 V c 1 t) (iblk0 V c 2 t) _ _ s7 s8 Set.univ _)
        isplitl [H0]; · iexact H0
        isplitl [H1]; · iexact H1
        isplitl [H2]; · iexact H2
        isplitl [H3]; · iexact H3
        isplitl [H4]; · iexact H4
        isplitl [HS7]; · iexact HS7
        isplitl [HS8]; · iexact HS8
        iintro ⟨H0, H1, H2, H3, H4, HS7, HS8⟩
        isplitl [HS7 HS8 Hr Hg]
        · isplitl [HS7 HS8 Hr]
          · isplitl [HS7 HS8]
            · isplitl [HS7]; · iexact HS7
              iexact HS8
            iexact Hr
          iexact Hg
        isplitl [Ho]; · iexact Ho
        isplitl [H0]; · iexact H0
        isplitl [H1]; · iexact H1
        isplitl [H2]; · iexact H2
        isplitl [H3]; · iexists _; iexact H3
        iexists _; iexact H4
      · rw [Phi0_pos V c _ _ hz]
        iintro ⟨⟨⟨⟨HS7, HS8⟩, Hr⟩, Hg⟩, Ho, ⟨%d0, H0⟩, ⟨%d1, H1⟩, ⟨%d2, H2⟩, ⟨%d3, H3⟩, ⟨%d4, H4⟩⟩
        iapply (run0_first c (grid0.coords t) _ _ _ _ _ _ _ _ _ _ _ _ _ _ hf hl (iblk0 V c 0 t) (iblk0 V c 1 t) (iblk0 V c 2 t) _ _ _ _ Set.univ _)
        isplitl [H0]; · iexact H0
        isplitl [H1]; · iexact H1
        isplitl [H2]; · iexact H2
        isplitl [H3]; · iexact H3
        isplitl [H4]; · iexact H4
        isplitl [HS7]; · iexact HS7
        isplitl [HS8]; · iexact HS8
        iintro ⟨H0, H1, H2, H3, H4, HS7, HS8⟩
        isplitl [HS7 HS8 Hr Hg]
        · isplitl [HS7 HS8 Hr]
          · isplitl [HS7 HS8]
            · isplitl [HS7]; · iexact HS7
              iexact HS8
            iexact Hr
          iexact Hg
        isplitl [Ho]; · iexact Ho
        isplitl [H0]; · iexact H0
        isplitl [H1]; · iexact H1
        isplitl [H2]; · iexact H2
        isplitl [H3]; · iexists _; iexact H3
        iexists _; iexact H4
    · -- a column block in between
      have hf : ¬first0 (grid0.coords t) := fun h => h0 ((first0_iff t).mp h)
      have hz : t.val ≠ 0 := fun e => h0 (by rw [e])
      rw [accAt0_next V c t h0, Phi0_castSucc V c t, Phi0_pos V c _ _ hz]
      iintro ⟨⟨⟨⟨HS7, HS8⟩, Hr⟩, Hg⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ _ _ hf hl (iblk0 V c 0 t) (iblk0 V c 1 t) (iblk0 V c 2 t) _ _ _ _ Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, HS7, HS8⟩
      isplitl [HS7 HS8 Hr Hg]
      · isplitl [HS7 HS8 Hr]
        · isplitl [HS7 HS8]
          · isplitl [HS7]; · iexact HS7
            iexact HS8
          iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the same back, the accumulators' values forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega), PhiA0_eq]
  iintro ⟨⟨⟨HS7, HS8⟩, Hr⟩, Hg⟩
  isplitl [HS7 HS8 Hr]
  · isplitl [HS7 HS8]
    · isplitl [HS7]
      · iexists _; iexact HS7
      iexists _; iexact HS8
    iexact Hr
  iexact Hg

end Data

end Cert.Kernel.Pairs

end
-- ==== Proof.Kernel.Run1.lean ====
/-
  One grid point of the second call, as a triple on whole staging buffers: from the five input blocks (similarities, row
  labels, column labels, and the first call's per-row minimum and maximum), the output block and the four running
  accumulators (positive sum, negative sum, positive flag, negative flag) at given contents, the body ends with the inputs
  as they were, the accumulators updated by the block (from zero at the first column block of a row block), and the output
  block untouched or, at the last column block, holding the row losses computed from the updated accumulators.
-/
import proofs.«174246_j52381421142559_1_alg».proof.Proof.Kernel.Run0

set_option maxRecDepth 16384

noncomputable section

namespace Cert.Kernel.Pairs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four accumulators after a point, from the blocks and what they held before it. -/
def upd1 (x0 : Vec F S512x1024 .f32) (x1 : Vec F S512x1 .i32) (x2 : Vec F S1x1024 .i32) (x3 x4 : Vec F S512x1 .f32)
    (s : Vec F S512x1 .f32 × Vec F S512x1 .f32 × Vec F S512x1 .f32 × Vec F S512x1 .f32) :
    Vec F S512x1 .f32 × Vec F S512x1 .f32 × Vec F S512x1 .f32 × Vec F S512x1 .f32 :=
  (k1_pay11 (k1_pay10 x0 x1 x2 x4) s.1, k1_pay12 x0 (k1_pay8 x0 x1 x2 x3) s.2.1,
    k1_pay13 (k1_pay9 x0 x1 x2 x4) s.2.2.1, k1_pay1 (k1_pay14 (k1_pay8 x0 x1 x2 x3) s.2.2.2))

/-- What a row block's accumulators are reset to: zero in every row. -/
def init1 : Vec F S512x1 .f32 × Vec F S512x1 .f32 × Vec F S512x1 .f32 × Vec F S512x1 .f32 := (k1_pay3, k1_pay4, k1_pay5, k1_pay6)

/-- The row losses of a row block from its accumulators. -/
def loss1 (s : Vec F S512x1 .f32 × Vec F S512x1 .f32 × Vec F S512x1 .f32 × Vec F S512x1 .f32) : Vec F S512x1 .f32 :=
  k1_pay2 s.1 s.2.1 s.2.2.1 s.2.2.2

set_option maxHeartbeats 2000000 in
/-- A point that is neither the first nor the last column block of its row block: only the accumulators change. -/
theorem run1_mid (c : Dev nD) (i : grid1.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬first1 i) (hc1 : ¬last1 i)
    (x0 : Vec F S512x1024 .f32) (x1 : Vec F S512x1 .i32) (x2 : Vec F S1x1024 .i32) (x3 x4 y5 s8 s9 s10 s11 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s8 ∗ owns (c : Thread nD τ) arg9 fullShare s9 ∗ owns (c : Thread nD τ) arg10 fullShare s10 ∗ owns (c : Thread nD τ) arg11 fullShare s11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (upd1 x0 x1 x2 x3 x4 (s8, s9, s10, s11)).1 ∗ owns (c : Thread nD τ) arg9 fullShare (upd1 x0 x1 x2 x3 x4 (s8, s9, s10, s11)).2.1 ∗ owns (c : Thread nD τ) arg10 fullShare (upd1 x0 x1 x2 x3 x4 (s8, s9, s10, s11)).2.2.1 ∗ owns (c : Thread nD τ) arg11 fullShare (upd1 x0 x1 x2 x3 x4 (s8, s9, s10, s11)).2.2.2) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H9]
  · iexists _; isplitr; swap; · iexact H9
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H10]
  · iexists _; isplitr; swap; · iexact H10
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H11
  ipureintro
  sl_unfold_words
  rw [View.read_writes_whole_last _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
  try rfl

set_option maxHeartbeats 2000000 in
/-- The first column block of a row block: the accumulators are zeroed, then updated by the block. -/
theorem run1_first (c : Dev nD) (i : grid1.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : first1 i) (hc1 : ¬last1 i)
    (x0 : Vec F S512x1024 .f32) (x1 : Vec F S512x1 .i32) (x2 : Vec F S1x1024 .i32) (x3 x4 y5 s8 s9 s10 s11 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s8 ∗ owns (c : Thread nD τ) arg9 fullShare s9 ∗ owns (c : Thread nD τ) arg10 fullShare s10 ∗ owns (c : Thread nD τ) arg11 fullShare s11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (upd1 x0 x1 x2 x3 x4 init1).1 ∗ owns (c : Thread nD τ) arg9 fullShare (upd1 x0 x1 x2 x3 x4 init1).2.1 ∗ owns (c : Thread nD τ) arg10 fullShare (upd1 x0 x1 x2 x3 x4 init1).2.2.1 ∗ owns (c : Thread nD τ) arg11 fullShare (upd1 x0 x1 x2 x3 x4 init1).2.2.2) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H9]
  · iexists _; isplitr; swap; · iexact H9
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H10]
  · iexists _; isplitr; swap; · iexact H10
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H11
  ipureintro
  sl_unfold_words
  rw [View.read_writes_whole_last _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
  try rfl

set_option maxHeartbeats 2000000 in
/-- The last column block of a row block: the accumulators are updated and the row losses stored in the output block. -/
theorem run1_last (c : Dev nD) (i : grid1.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬first1 i) (hc1 : last1 i)
    (x0 : Vec F S512x1024 .f32) (x1 : Vec F S512x1 .i32) (x2 : Vec F S1x1024 .i32) (x3 x4 y5 s8 s9 s10 s11 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s8 ∗ owns (c : Thread nD τ) arg9 fullShare s9 ∗ owns (c : Thread nD τ) arg10 fullShare s10 ∗ owns (c : Thread nD τ) arg11 fullShare s11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (loss1 (upd1 x0 x1 x2 x3 x4 (s8, s9, s10, s11))) ∗ owns (c : Thread nD τ) arg8 fullShare (upd1 x0 x1 x2 x3 x4 (s8, s9, s10, s11)).1 ∗ owns (c : Thread nD τ) arg9 fullShare (upd1 x0 x1 x2 x3 x4 (s8, s9, s10, s11)).2.1 ∗ owns (c : Thread nD τ) arg10 fullShare (upd1 x0 x1 x2 x3 x4 (s8, s9, s10, s11)).2.2.1 ∗ owns (c : Thread nD τ) arg11 fullShare (upd1 x0 x1 x2 x3 x4 (s8, s9, s10, s11)).2.2.2) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H8]
  · iexists _; isplitr; swap; · iexact H8
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H9]
  · iexists _; isplitr; swap; · iexact H9
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H10]
  · iexists _; isplitr; swap; · iexact H10
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H11
  ipureintro
  sl_unfold_words
  rw [View.read_writes_whole_last _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
  try rfl

end Cert.Kernel.Pairs

end
-- ==== Proof.Kernel.Data1.lean ====
/-
  The proof data of the second call, at any contents `V` of the core's buffers when the call is entered. The four running
  accumulators (positive sum, negative sum, positive flag, negative flag) after point n are a recursion over the points:
  zeroed at the first column block of each row block, otherwise continued from the point before, and updated by the
  point's five input blocks. The invariant holds the four accumulator buffers at these values between points; the output
  block holds the row losses computed from them at the last column block of a row block, where it is written back.
-/
import proofs.«174246_j52381421142559_1_alg».proof.Proof.Kernel.Run1

set_option maxRecDepth 16384

noncomputable section

namespace Cert.Kernel.Pairs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (when it is not fetched its
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- The four running accumulators after point `n`. -/
def accAt1 (c : Dev nD) : (n : ℕ) → n < cfg1.N → Vec F S512x1 .f32 × Vec F S512x1 .f32 × Vec F S512x1 .f32 × Vec F S512x1 .f32
  | 0, hn => upd1 (iblk1 V c 0 ⟨0, hn⟩) (iblk1 V c 1 ⟨0, hn⟩) (iblk1 V c 2 ⟨0, hn⟩) (iblk1 V c 3 ⟨0, hn⟩) (iblk1 V c 4 ⟨0, hn⟩) init1
  | n + 1, hn => upd1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (if (n + 1) % 8 = 0 then init1 else accAt1 c n (Nat.lt_of_succ_lt hn))

/-- At the first column block of a row block they start from zero. -/
theorem accAt1_first (c : Dev nD) (t : Fin cfg1.N) (h : t.val % 8 = 0) :
    accAt1 V c t.val t.isLt = upd1 (iblk1 V c 0 t) (iblk1 V c 1 t) (iblk1 V c 2 t) (iblk1 V c 3 t) (iblk1 V c 4 t) init1 := by
  obtain ⟨n, hn⟩ := t
  cases n with
  | zero => rfl
  | succ n => exact congrArg (upd1 _ _ _ _ _) (if_pos h)

/-- Elsewhere they continue from the point before. -/
theorem accAt1_next (c : Dev nD) (t : Fin cfg1.N) (h : ¬t.val % 8 = 0) :
    accAt1 V c t.val t.isLt = upd1 (iblk1 V c 0 t) (iblk1 V c 1 t) (iblk1 V c 2 t) (iblk1 V c 3 t) (iblk1 V c 4 t)
      (accAt1 V c (t.val - 1) (Nat.lt_of_le_of_lt (Nat.sub_le _ _) t.isLt)) := by
  obtain ⟨n, hn⟩ := t
  cases n with
  | zero => exact absurd (Nat.zero_mod _) h
  | succ n => exact congrArg (upd1 _ _ _ _ _) (if_neg h)

/-! ## The invariant -/

/-- The core's scoped buffers other than this call's staging buffers and its four accumulators, at some contents. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3]

/-- What the launch hands the region, with the four accumulators' buffers split out. -/
theorem PhiA1_eq (c : Dev nD) :
    (Pipeline.ΦA spec1 c : sProp 𝕄)
      = iprop((((∃ d, owns (c : Thread nD τ) accPos fullShare d) ∗ (∃ d, owns (c : Thread nD τ) accNeg fullShare d) ∗ (∃ d, owns (c : Thread nD τ) flagPos fullShare d) ∗ (∃ d, owns (c : Thread nD τ) flagNeg fullShare d)) ∗ rest1 c) ∗ (∃ r, prngReg c r)) := by
  unfold Pipeline.ΦA
  rw [Pipeline.scopedRest_split_of_list spec1 c [cc1_scratch0, cc1_scratch1, cc1_scratch2, cc1_scratch3] (by decide) (by decide)]
  simp only [accPos, accNeg, flagPos, flagNeg, owns_whole]; rfl

/-- The invariant before position `n`: before the first point what the launch hands over; afterwards the four accumulators
    at what the point before left, the other scoped buffers at anything, the generator register at some state. -/
def Phi1 (c : Dev nD) : (n : ℕ) → n ≤ cfg1.N → sProp 𝕄
  | 0, _ => Pipeline.ΦA spec1 c
  | n + 1, hn => iprop(((owns (c : Thread nD τ) accPos fullShare (accAt1 V c n hn).1 ∗ owns (c : Thread nD τ) accNeg fullShare (accAt1 V c n hn).2.1 ∗ owns (c : Thread nD τ) flagPos fullShare (accAt1 V c n hn).2.2.1 ∗ owns (c : Thread nD τ) flagNeg fullShare (accAt1 V c n hn).2.2.2) ∗ rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(((owns (c : Thread nD τ) accPos fullShare (accAt1 V c n hn).1 ∗ owns (c : Thread nD τ) accNeg fullShare (accAt1 V c n hn).2.1 ∗ owns (c : Thread nD τ) flagPos fullShare (accAt1 V c n hn).2.2.1 ∗ owns (c : Thread nD τ) flagNeg fullShare (accAt1 V c n hn).2.2.2) ∗ rest1 c) ∗ (∃ r, prngReg c r)) := rfl
theorem Phi1_pos (c : Dev nD) (n : ℕ) (h : n ≤ cfg1.N) (hz : n ≠ 0) :
    Phi1 V c n h = iprop(((owns (c : Thread nD τ) accPos fullShare (accAt1 V c (n - 1) (by omega)).1 ∗ owns (c : Thread nD τ) accNeg fullShare (accAt1 V c (n - 1) (by omega)).2.1 ∗ owns (c : Thread nD τ) flagPos fullShare (accAt1 V c (n - 1) (by omega)).2.2.1 ∗ owns (c : Thread nD τ) flagNeg fullShare (accAt1 V c (n - 1) (by omega)).2.2.2) ∗ rest1 c) ∗ (∃ r, prngReg c r)) := by
  cases n with
  | zero => exact absurd rfl hz
  | succ n => rfl

/-! ## The proof data -/

/-- The arrays as the call finds them; after the body each input's buffer at its block, the output's at the row
    losses of the accumulators; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => loss1 (accAt1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = loss1 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: which of the three cases the point is in is decided by its position in its row block; the
    invariant hands the body the accumulators at what the point before left (at anything before the first point, where
    they are zeroed anyway) and takes them back at this point's values; the output block is handed back untouched unless
    this is the last column block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  have hN : t.val < 128 := lt_of_lt_of_eq t.isLt (show cfg1.N = 128 from N_1)
  by_cases h1 : t.val % 8 = 7
  · -- the last column block of a row block
    have h0 : ¬t.val % 8 = 0 := by omega
    have hz : t.val ≠ 0 := by omega
    have hl : last1 (grid1.coords t) := (last1_iff t).mpr h1
    have hf : ¬first1 (grid1.coords t) := fun h => h0 ((first1_iff t).mp h)
    rw [show (dat1 V c).leavesExact 5 t = owns (c : Thread nD τ) (ms1_5 t) fullShare ((dat1 V c).after 5 t) from by
      unfold Dat.leavesExact; rw [live1_5 t hl], after1_5]
    rw [accAt1_next V c t h0, Phi1_castSucc V c t, Phi1_pos V c _ _ hz]
    iintro ⟨⟨⟨⟨HS8, HS9, HS10, HS11⟩, Hr⟩, Hg⟩, Ho, ⟨%d0, H0⟩, ⟨%d1, H1⟩, ⟨%d2, H2⟩, ⟨%d3, H3⟩, ⟨%d4, H4⟩, ⟨%d5, H5⟩⟩
    iapply (run1_last c (grid1.coords t) _ _ _ _ _ _ _ _ _ _ _ _ _ _ _ _ _ _ _ _ hf hl (iblk1 V c 0 t) (iblk1 V c 1 t) (iblk1 V c 2 t) (iblk1 V c 3 t) (iblk1 V c 4 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS8]; · iexact HS8
    isplitl [HS9]; · iexact HS9
    isplitl [HS10]; · iexact HS10
    isplitl [HS11]; · iexact HS11
    iintro ⟨H0, H1, H2, H3, H4, H5, HS8, HS9, HS10, HS11⟩
    isplitl [HS8 HS9 HS10 HS11 Hr Hg]
    · isplitl [HS8 HS9 HS10 HS11 Hr]
      · isplitl [HS8 HS9 HS10 HS11]
        · isplitl [HS8]; · iexact HS8
          isplitl [HS9]; · iexact HS9
          isplitl [HS10]; · iexact HS10
          iexact HS11
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hl : ¬last1 (grid1.coords t) := fun h => h1 ((last1_iff t).mp h)
    rw [Dat.leavesExact_idle (dat1 V c) 5 t (idle1_5 t hl) (noFlush1_5 t hl)]
    by_cases h0 : t.val % 8 = 0
    · -- the first column block of a row block
      have hf : first1 (grid1.coords t) := (first1_iff t).mpr h0
      rw [accAt1_first V c t h0, Phi1_castSucc V c t]
      by_cases hz : t.val = 0
      · rw [Phi1_zero V c _ _ hz, PhiA1_eq]
        iintro ⟨⟨⟨⟨⟨%s8, HS8⟩, ⟨%s9, HS9⟩, ⟨%s10, HS10⟩, ⟨%s11, HS11⟩⟩, Hr⟩, Hg⟩, Ho, ⟨%d0, H0⟩, ⟨%d1, H1⟩, ⟨%d2, H2⟩, ⟨%d3, H3⟩, ⟨%d4, H4⟩, ⟨%d5, H5⟩⟩
        iapply (run1_first c (grid1.coords t) _ _ _ _ _ _ _ _ _ _ _ _ _ _ _ _ _ _ _ _ hf hl (iblk1 V c 0 t) (iblk1 V c 1 t) (iblk1 V c 2 t) (iblk1 V c 3 t) (iblk1 V c 4 t) _ s8 s9 s10 s11 Set.univ _)
        isplitl [H0]; · iexact H0
        isplitl [H1]; · iexact H1
        isplitl [H2]; · iexact H2
        isplitl [H3]; · iexact H3
        isplitl [H4]; · iexact H4
        isplitl [H5]; · iexact H5
        isplitl [HS8]; · iexact HS8
        isplitl [HS9]; · iexact HS9
        isplitl [HS10]; · iexact HS10
        isplitl [HS11]; · iexact HS11
        iintro ⟨H0, H1, H2, H3, H4, H5, HS8, HS9, HS10, HS11⟩
        isplitl [HS8 HS9 HS10 HS11 Hr Hg]
        · isplitl [HS8 HS9 HS10 HS11 Hr]
          · isplitl [HS8 HS9 HS10 HS11]
            · isplitl [HS8]; · iexact HS8
              isplitl [HS9]; · iexact HS9
              isplitl [HS10]; · iexact HS10
              iexact HS11
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi1_pos V c _ _ hz]
        iintro ⟨⟨⟨⟨HS8, HS9, HS10, HS11⟩, Hr⟩, Hg⟩, Ho, ⟨%d0, H0⟩, ⟨%d1, H1⟩, ⟨%d2, H2⟩, ⟨%d3, H3⟩, ⟨%d4, H4⟩, ⟨%d5, H5⟩⟩
        iapply (run1_first c (grid1.coords t) _ _ _ _ _ _ _ _ _ _ _ _ _ _ _ _ _ _ _ _ hf hl (iblk1 V c 0 t) (iblk1 V c 1 t) (iblk1 V c 2 t) (iblk1 V c 3 t) (iblk1 V c 4 t) _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS8]; · iexact HS8
        isplitl [HS9]; · iexact HS9
        isplitl [HS10]; · iexact HS10
        isplitl [HS11]; · iexact HS11
        iintro ⟨H0, H1, H2, H3, H4, H5, HS8, HS9, HS10, HS11⟩
        isplitl [HS8 HS9 HS10 HS11 Hr Hg]
        · isplitl [HS8 HS9 HS10 HS11 Hr]
          · isplitl [HS8 HS9 HS10 HS11]
            · isplitl [HS8]; · iexact HS8
              isplitl [HS9]; · iexact HS9
              isplitl [HS10]; · iexact HS10
              iexact HS11
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a column block in between
      have hf : ¬first1 (grid1.coords t) := fun h => h0 ((first1_iff t).mp h)
      have hz : t.val ≠ 0 := fun e => h0 (by rw [e])
      rw [accAt1_next V c t h0, Phi1_castSucc V c t, Phi1_pos V c _ _ hz]
      iintro ⟨⟨⟨⟨HS8, HS9, HS10, HS11⟩, Hr⟩, Hg⟩, Ho, ⟨%d0, H0⟩, ⟨%d1, H1⟩, ⟨%d2, H2⟩, ⟨%d3, H3⟩, ⟨%d4, H4⟩, ⟨%d5, H5⟩⟩
      iapply (run1_mid c (grid1.coords t) _ _ _ _ _ _ _ _ _ _ _ _ _ _ _ _ _ _ _ _ hf hl (iblk1 V c 0 t) (iblk1 V c 1 t) (iblk1 V c 2 t) (iblk1 V c 3 t) (iblk1 V c 4 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexact HS8
      isplitl [HS9]; · iexact HS9
      isplitl [HS10]; · iexact HS10
      isplitl [HS11]; · iexact HS11
      iintro ⟨H0, H1, H2, H3, H4, H5, HS8, HS9, HS10, HS11⟩
      isplitl [HS8 HS9 HS10 HS11 Hr Hg]
      · isplitl [HS8 HS9 HS10 HS11 Hr]
        · isplitl [HS8 HS9 HS10 HS11]
          · isplitl [HS8]; · iexact HS8
            isplitl [HS9]; · iexact HS9
            isplitl [HS10]; · iexact HS10
            iexact HS11
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the same back, the accumulators' values forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨⟨HS8, HS9, HS10, HS11⟩, Hr⟩, Hg⟩
  isplitl [HS8 HS9 HS10 HS11 Hr]
  · isplitl [HS8 HS9 HS10 HS11]
    · isplitl [HS8]; · iexists _; iexact HS8
      isplitl [HS9]; · iexists _; iexact HS9
      isplitl [HS10]; · iexists _; iexact HS10
      iexists _; iexact HS11
    iexact Hr
  iexact Hg

end Data

end Cert.Kernel.Pairs

end
-- ==== Proof.Kernel.Frame.lean ====
/-
  The run of @main: two reshapes of the labels, the two calls, the final sum and division. Between two items every
  unscoped buffer of the core is held at named contents: the launch memory, then what the reshapes write, then the first
  call's result arrays at what its write-backs leave, then the second call's, then what the closing operations write.
  From the launch the library's rule for a program of several calls gives a terminating, fault-free run whose final memory
  holds every unscoped buffer at the last of these contents.
-/
import proofs.«174246_j52381421142559_1_alg».proof.Proof.Kernel.Data0
import proofs.«174246_j52381421142559_1_alg».proof.Proof.Kernel.Data1
import proofs.«174246_j52381421142559_1_alg».proof.Proof.Gen.Kernel.Regions

set_option maxRecDepth 16384

noncomputable section

namespace Cert.Kernel.Pairs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the two reshapes of the labels (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing sum and division. -/
abbrev W4 : Dev nD → Valuation τ sig (Elt F) := fun c => StableHlo.after hostOps2 (W3 m c)

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- Call 0 as a segment of @main: entered with every unscoped buffer at the contents before it, left with its result
    arrays at what its write-backs leave and every other buffer as entered. Its arrays are split out of the unscoped buffers
    and put back; the generator register goes into the invariant and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at the contents before it, left with its result
    arrays at what its write-backs leave and every other buffer as entered. Its arrays are split out of the unscoped buffers
    and put back; the generator register goes into the invariant and comes out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and its final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last boundary holds -/

/-- No item writes the similarity matrix: both calls read it through an input window, the host operations write other buffers. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl

/-- No item writes the labels: the calls stage their reshaped copies, not the labels themselves. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

/-- The frame: @main runs to the end, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨(h c _ (mem_uc main_arg0 (by decide))).trans (W4_main_arg0 m c),
      (h c _ (mem_uc main_arg1 (by decide))).trans (W4_main_arg1 m c)⟩) (run_all m ρ)

/-- The same run with the result buffer named too. -/
theorem run_result : θ_run defs (onTc (τ := τ) (main (F := F))) ⟨m, fun _ => 0, ρ⟩ (fun r => ∀ c : Dev nD,
      r.2.mem ((c.tc : Thread nD τ).loc main_v5) = W4 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨h c _ (mem_uc main_v5 (by decide)),
      (h c _ (mem_uc main_arg0 (by decide))).trans (W4_main_arg0 m c),
      (h c _ (mem_uc main_arg1 (by decide))).trans (W4_main_arg1 m c)⟩) (run_all m ρ)

/-- The result is the closing operations applied to the second call's result array: its sum over all entries, from zero,
    divided by the constant. -/
theorem W4_main_v5 (c : Dev nD) :
    (W4 m c (Proc.devRef .tc main_v5) : S_.Idx → Elt F .f32)
      = Host.divf (Host.reduceAdd (W3 m c (Proc.devRef .tc main_v3) : S8192x1.Idx → Elt F .f32) (constant (F := F) S_ .f32 0x00000000#32) reducesTo_S8192x1_S_d0_1 h_S_)
          (constant (F := F) S_ .f32 0x46000000#32) := by
  show StableHlo.after hostOps2 (W3 m c) (Proc.devRef .tc main_v5) = _
  after_results <;> rfl

/-- The second call's result array at the last boundaries. -/
theorem W3_main_v3 (c : Dev nD) : W3 m c (Proc.devRef .tc main_v3) = (dat1 (V2 m) c).arrAt 5 cfg1.N := W3_arr m c 5
/-- What the second call finds in the buffers it stages. -/
theorem V2_main_arg0 (c : Dev nD) : V2 m c main_arg0 = m ((c : Thread nD τ).loc main_arg0) :=
  ((W2_arr m c 0).trans (((dat0 (V1 m) c).arrAt_in 0 rfl _).trans (A_eq0 (V1 m) c 0))).trans
    ((StableHlo.after_of_writes_sub hostOps0 _ hostOps0_writes (by decide : main_arg0 ∉ hostOps0_W)).trans rfl)
theorem V2_main_v0 (c : Dev nD) : V2 m c main_v0 = V1 m c main_v0 :=
  (W2_arr m c 1).trans (((dat0 (V1 m) c).arrAt_in 1 rfl _).trans (A_eq0 (V1 m) c 1))
theorem V2_main_v1 (c : Dev nD) : V2 m c main_v1 = V1 m c main_v1 :=
  (W2_arr m c 2).trans (((dat0 (V1 m) c).arrAt_in 2 rfl _).trans (A_eq0 (V1 m) c 2))
theorem V2_main_v2_0 (c : Dev nD) : V2 m c main_v2_0 = (dat0 (V1 m) c).arrAt 3 cfg0.N := W2_arr m c 3
theorem V2_main_v2_1 (c : Dev nD) : V2 m c main_v2_1 = (dat0 (V1 m) c).arrAt 4 cfg0.N := W2_arr m c 4
theorem V1_main_arg0 (c : Dev nD) : V1 m c main_arg0 = m ((c : Thread nD τ).loc main_arg0) :=
  (StableHlo.after_of_writes_sub hostOps0 _ hostOps0_writes (by decide : main_arg0 ∉ hostOps0_W)).trans rfl
/-- The two reshapes of the labels. -/
theorem V1_main_v0 (c : Dev nD) :
    (V1 m c main_v0 : S8192x1.Idx → Elt F .i32) = shapeCast S8192x1 (m ((c : Thread nD τ).loc main_arg1) : S8192.Idx → Elt F .i32) shapeCasts_S8192_S8192x1 := by
  show StableHlo.after hostOps0 (W0 m c) (Proc.devRef .tc main_v0) = _
  after_results <;> rfl
theorem V1_main_v1 (c : Dev nD) :
    (V1 m c main_v1 : S1x8192.Idx → Elt F .i32) = shapeCast S1x8192 (m ((c : Thread nD τ).loc main_arg1) : S8192.Idx → Elt F .i32) shapeCasts_S8192_S1x8192 := by
  show StableHlo.after hostOps0 (W0 m c) (Proc.devRef .tc main_v1) = _
  after_results <;> rfl

end Cert.Kernel.Pairs

end
-- ==== Proof.KernelIdeal.Cases.lean ====
/-
  The grid of either call is 16 row blocks by 8 column blocks, walked row block by row block: point t is row block
  t / 8 and column block t % 8. Each body resets its running per-row accumulators at the first column block of a
  row block (t % 8 = 0) and hands them to its output blocks at the last one (t % 8 = 7); in between it only updates
  them. So a point is in one of three cases, decided here over the grid in closed form, together with where an output
  window is left alone (idle, and not written back) and the accumulators' buffers named as memrefs.
-/
import proofs.«174246_j52381421142559_1_alg».proof.Proof.Gen.KernelIdeal.Launch
import proofs.«174246_j52381421142559_1_alg».proof.Proof.Gen.KernelIdeal.Skeleton
import proofs.«174246_j52381421142559_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first call: running minimum and maximum per row -/

/-- The reset test of the first call, as the body computes it from the column-block coordinate. -/
abbrev first0 (i : grid0.Coords) : Prop := (Scalar.cmpi .ne (Scalar.extui (Scalar.cmpi .eq (BitVec.ofNat 32 (i 1).val) 0#32)) 0#32) = 1#1
/-- It holds exactly at the first column block of a row block. -/
theorem first0_iff : ∀ t : Fin cfg0.N, first0 (grid0.coords t) ↔ t.val % 8 = 0 :=
  (by decide +kernel : ∀ t : Fin grid0.N, first0 (grid0.coords t) ↔ t.val % 8 = 0)

/-- The hand-over test of the first call. -/
abbrev last0 (i : grid0.Coords) : Prop := k0_cond2 i = 1#1
/-- It holds exactly at the last column block of a row block. -/
theorem last0_iff : ∀ t : Fin cfg0.N, last0 (grid0.coords t) ↔ t.val % 8 = 7 :=
  (by decide +kernel : ∀ t : Fin grid0.N, last0 (grid0.coords t) ↔ t.val % 8 = 7)

/-- The three input windows are live at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last column block the two output windows are idle and not written back; at it they are live. -/
theorem idle0_3 : ∀ t : Fin cfg0.N, ¬last0 (grid0.coords t) → cfg0.idle 3 (grid0.coords t) = true := by decide +kernel
theorem idle0_4 : ∀ t : Fin cfg0.N, ¬last0 (grid0.coords t) → cfg0.idle 4 (grid0.coords t) = true := by decide +kernel
theorem noFlush0_3 : ∀ t : Fin cfg0.N, ¬last0 (grid0.coords t) → (cfg0.win 3).flush t = false := by decide +kernel
theorem noFlush0_4 : ∀ t : Fin cfg0.N, ¬last0 (grid0.coords t) → (cfg0.win 4).flush t = false := by decide +kernel
theorem live0_3 : ∀ t : Fin cfg0.N, last0 (grid0.coords t) → cfg0.idle 3 (grid0.coords t) = false := by decide +kernel
theorem live0_4 : ∀ t : Fin cfg0.N, last0 (grid0.coords t) → cfg0.idle 4 (grid0.coords t) = false := by decide +kernel

/-- The current staging memref of each window at a point, as the pipeline passes it to the body. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
/-- The running minimum's and the running maximum's buffers. -/
abbrev accMin : Memref sig .tc .vmem S512x1 .f32 := Memref.whole cc0_scratch0
abbrev accMax : Memref sig .tc .vmem S512x1 .f32 := Memref.whole cc0_scratch1

/-! ## The second call: running sums and flags per row -/

abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem last1_iff : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem idle1_5 : ∀ t : Fin cfg1.N, ¬last1 (grid1.coords t) → cfg1.idle 5 (grid1.coords t) = true := by decide +kernel
theorem noFlush1_5 : ∀ t : Fin cfg1.N, ¬last1 (grid1.coords t) → (cfg1.win 5).flush t = false := by decide +kernel
theorem live1_5 : ∀ t : Fin cfg1.N, last1 (grid1.coords t) → cfg1.idle 5 (grid1.coords t) = false := by decide +kernel

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
/-- The buffers of the running positive sum, negative sum, positive flag and negative flag. -/
abbrev accPos : Memref sig .tc .vmem S512x1 .f32 := Memref.whole cc1_scratch0
abbrev accNeg : Memref sig .tc .vmem S512x1 .f32 := Memref.whole cc1_scratch1
abbrev flagPos : Memref sig .tc .vmem S512x1 .f32 := Memref.whole cc1_scratch2
abbrev flagNeg : Memref sig .tc .vmem S512x1 .f32 := Memref.whole cc1_scratch3

end Cert.KernelIdeal.Pairs

end
-- ==== Proof.KernelIdeal.Run0.lean ====
/-
  One grid point of the first call, as a triple on whole staging buffers: from the three input blocks, the two output
  blocks and the two running accumulators at given contents, the body ends with the inputs as they were, the running
  minimum and maximum updated by the block (from their reset values at the first column block of a row block, from what
  they held otherwise), and the output blocks either untouched or, at the last column block, holding the updated values.
-/
import proofs.«174246_j52381421142559_1_alg».proof.Proof.KernelIdeal.Cases
import proofs.«174246_j52381421142559_1_alg».proof.Proof.LibWholeStore

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- The two accumulators after a point, from the blocks and what they held before it. -/
def upd0 (x0 : Vec F S512x1024 .f32) (x1 : Vec F S512x1 .i32) (x2 : Vec F S1x1024 .i32) (s : Vec F S512x1 .f32 × Vec F S512x1 .f32) :
    Vec F S512x1 .f32 × Vec F S512x1 .f32 :=
  (k0_pay4 x0 x1 x2 s.1, k0_pay5 x0 x1 x2 s.2)

/-- What a row block's accumulators are reset to: plus and minus infinity in every row. -/
def init0 : Vec F S512x1 .f32 × Vec F S512x1 .f32 := (k0_pay1, k0_pay2)

set_option maxHeartbeats 1000000 in
/-- A point that is neither the first nor the last column block of its row block: only the accumulators change. -/
theorem run0_mid (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : ¬first0 i) (hc1 : ¬last0 i)
    (x0 : Vec F S512x1024 .f32) (x1 : Vec F S512x1 .i32) (x2 : Vec F S1x1024 .i32) (y3 y4 s7 s8 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare (upd0 x0 x1 x2 (s7, s8)).1 ∗ owns (c : Thread nD τ) arg8 fullShare (upd0 x0 x1 x2 (s7, s8)).2) -∗ K ⟨⟩))
      ⊢ wp frame (wpE (defs₀ (F := F)) Variants.none c none) E (cc0__minmax_kernel i arg2 harg2 arg3 harg3 arg4 harg4 arg5 harg5 arg6 harg6 arg7 harg7 arg8 harg8) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H8
  ipureintro
  sl_unfold_words
  rw [View.read_writes_whole_last _ _ hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
  try rfl

set_option maxHeartbeats 1000000 in
/-- The first column block of a row block: the accumulators are reset, then updated by the block. -/
theorem run0_first (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : first0 i) (hc1 : ¬last0 i)
    (x0 : Vec F S512x1024 .f32) (x1 : Vec F S512x1 .i32) (x2 : Vec F S1x1024 .i32) (y3 y4 s7 s8 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare (upd0 x0 x1 x2 init0).1 ∗ owns (c : Thread nD τ) arg8 fullShare (upd0 x0 x1 x2 init0).2) -∗ K ⟨⟩))
      ⊢ wp frame (wpE (defs₀ (F := F)) Variants.none c none) E (cc0__minmax_kernel i arg2 harg2 arg3 harg3 arg4 harg4 arg5 harg5 arg6 harg6 arg7 harg7 arg8 harg8) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H7]
  · iexists _; isplitr; swap; · iexact H7
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H8
  ipureintro
  sl_unfold_words
  rw [View.read_writes_whole_last _ _ hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
  try rfl

set_option maxHeartbeats 1000000 in
/-- The last column block of a row block: the accumulators are updated and copied to the two output blocks. -/
theorem run0_last (c : Dev nD) (i : grid0.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
    (hc0 : ¬first0 i) (hc1 : last0 i)
    (x0 : Vec F S512x1024 .f32) (x1 : Vec F S512x1 .i32) (x2 : Vec F S1x1024 .i32) (y3 y4 s7 s8 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare s7 ∗ owns (c : Thread nD τ) arg8 fullShare s8
        ∗ (iprop(owns (c : Thread nD τ) arg2 fullShare x0 ∗ owns (c : Thread nD τ) arg3 fullShare x1 ∗ owns (c : Thread nD τ) arg4 fullShare x2 ∗ owns (c : Thread nD τ) arg5 fullShare (upd0 x0 x1 x2 (s7, s8)).1 ∗ owns (c : Thread nD τ) arg6 fullShare (upd0 x0 x1 x2 (s7, s8)).2 ∗ owns (c : Thread nD τ) arg7 fullShare (upd0 x0 x1 x2 (s7, s8)).1 ∗ owns (c : Thread nD τ) arg8 fullShare (upd0 x0 x1 x2 (s7, s8)).2) -∗ K ⟨⟩))
      ⊢ wp frame (wpE (defs₀ (F := F)) Variants.none c none) E (cc0__minmax_kernel i arg2 harg2 arg3 harg3 arg4 harg4 arg5 harg5 arg6 harg6 arg7 harg7 arg8 harg8) K := by
  simp only [cc0__minmax_kernel_eq_skeleton]; unfold cc0__minmax_kernel_skel
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf7; obtain rfl := harg8.eq_unread hf8
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  isplitl [H4]
  · iexists _; isplitr; swap; · iexact H4
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  isplitl [H7]
  · iexists _; isplitr; swap; · iexact H7
    ipureintro
    sl_unfold_words
    rw [View.read_writes_whole_last _ _ hz2]
    simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H8
  ipureintro
  sl_unfold_words
  rw [View.read_writes_whole_last _ _ hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2, View.ld_unit_zero (S := S1x1024) hz2, View.readCov_unit_zero (S := S512x1) _ hz2]
  try rfl

end Cert.KernelIdeal.Pairs

end
-- ==== Proof.KernelIdeal.Data0.lean ====
/-
  The proof data of the first call, at any contents `V` of the core's buffers when the call is entered. The running
  minimum and maximum after point n are a recursion over the points: reset at the first column block of each row block,
  otherwise continued from the point before, and in either case updated by the point's three input blocks. The region's
  invariant holds the two accumulator buffers at exactly these values between points; the two output blocks hold them at
  the last column block of a row block, where they are written back.
-/
import proofs.«174246_j52381421142559_1_alg».proof.Proof.KernelIdeal.Run0

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (when it is not fetched its
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulators after each point -/

/-- The running minimum and maximum after point `n`. -/
def accAt0 (c : Dev nD) : (n : ℕ) → n < cfg0.N → Vec F S512x1 .f32 × Vec F S512x1 .f32
  | 0, hn => upd0 (iblk0 V c 0 ⟨0, hn⟩) (iblk0 V c 1 ⟨0, hn⟩) (iblk0 V c 2 ⟨0, hn⟩) init0
  | n + 1, hn => upd0 (iblk0 V c 0 ⟨n + 1, hn⟩) (iblk0 V c 1 ⟨n + 1, hn⟩) (iblk0 V c 2 ⟨n + 1, hn⟩)
      (if (n + 1) % 8 = 0 then init0 else accAt0 c n (Nat.lt_of_succ_lt hn))

/-- At the first column block of a row block they start from the reset values. -/
theorem accAt0_first (c : Dev nD) (t : Fin cfg0.N) (h : t.val % 8 = 0) :
    accAt0 V c t.val t.isLt = upd0 (iblk0 V c 0 t) (iblk0 V c 1 t) (iblk0 V c 2 t) init0 := by
  obtain ⟨n, hn⟩ := t
  cases n with
  | zero => rfl
  | succ n => exact congrArg (upd0 _ _ _) (if_pos h)

/-- Elsewhere they continue from the point before. -/
theorem accAt0_next (c : Dev nD) (t : Fin cfg0.N) (h : ¬t.val % 8 = 0) :
    accAt0 V c t.val t.isLt = upd0 (iblk0 V c 0 t) (iblk0 V c 1 t) (iblk0 V c 2 t)
      (accAt0 V c (t.val - 1) (Nat.lt_of_le_of_lt (Nat.sub_le _ _) t.isLt)) := by
  obtain ⟨n, hn⟩ := t
  cases n with
  | zero => exact absurd (Nat.zero_mod _) h
  | succ n => exact congrArg (upd0 _ _ _) (if_neg h)

/-! ## The invariant -/

/-- The core's scoped buffers other than this call's staging buffers and its two accumulators, at some contents. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two accumulators' buffers split out. -/
theorem PhiA0_eq (c : Dev nD) :
    (Pipeline.ΦA spec0 c : sProp 𝕄)
      = iprop((((∃ d, owns (c : Thread nD τ) accMin fullShare d) ∗ (∃ d, owns (c : Thread nD τ) accMax fullShare d)) ∗ rest0 c) ∗ (∃ r, prngReg c r)) := by
  unfold Pipeline.ΦA
  rw [Pipeline.scopedRest_split_of_list spec0 c [cc0_scratch0, cc0_scratch1] (by decide) (by decide)]
  simp only [accMin, accMax, owns_whole]; rfl

/-- The invariant before position `n`: before the first point what the launch hands over; afterwards the two accumulators
    at what the point before left, the other scoped buffers at anything, the generator register at some state. -/
def Phi0 (c : Dev nD) : (n : ℕ) → n ≤ cfg0.N → sProp 𝕄
  | 0, _ => Pipeline.ΦA spec0 c
  | n + 1, hn => iprop(((owns (c : Thread nD τ) accMin fullShare (accAt0 V c n hn).1 ∗ owns (c : Thread nD τ) accMax fullShare (accAt0 V c n hn).2) ∗ rest0 c) ∗ (∃ r, prngReg c r))

theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(((owns (c : Thread nD τ) accMin fullShare (accAt0 V c n hn).1 ∗ owns (c : Thread nD τ) accMax fullShare (accAt0 V c n hn).2) ∗ rest0 c) ∗ (∃ r, prngReg c r)) := rfl
theorem Phi0_pos (c : Dev nD) (n : ℕ) (h : n ≤ cfg0.N) (hz : n ≠ 0) :
    Phi0 V c n h = iprop(((owns (c : Thread nD τ) accMin fullShare (accAt0 V c (n - 1) (by omega)).1 ∗ owns (c : Thread nD τ) accMax fullShare (accAt0 V c (n - 1) (by omega)).2) ∗ rest0 c) ∗ (∃ r, prngReg c r)) := by
  cases n with
  | zero => exact absurd rfl hz
  | succ n => rfl

/-! ## The proof data -/

/-- The arrays as the call finds them; after the body each input's buffer at its block, each output's at the
    accumulator it receives; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (accAt0 V c t.val t.isLt).1
    | ⟨4, _⟩ => (accAt0 V c t.val t.isLt).2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (accAt0 V c t.val t.isLt).1 := by dsimp only [dat0]
theorem after0_4 (c : Dev nD) (t : Fin cfg0.N) : (dat0 V c).after 4 t = (accAt0 V c t.val t.isLt).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: which of the three cases the point is in is decided by its position in its row block; the
    invariant hands the body the accumulators at what the point before left (at anything before the first point, where
    they are reset anyway) and takes them back at this point's values; an output block is handed back untouched unless
    this is the last column block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 128 := lt_of_lt_of_eq t.isLt (show cfg0.N = 128 from N_0)
  by_cases h1 : t.val % 8 = 7
  · -- the last column block of a row block
    have h0 : ¬t.val % 8 = 0 := by omega
    have hz : t.val ≠ 0 := by omega
    have hl : last0 (grid0.coords t) := (last0_iff t).mpr h1
    have hf : ¬first0 (grid0.coords t) := fun h => h0 ((first0_iff t).mp h)
    rw [show (dat0 V c).leavesExact 3 t = owns (c : Thread nD τ) (ms0_3 t) fullShare ((dat0 V c).after 3 t) from by
      unfold Dat.leavesExact; rw [live0_3 t hl], after0_3]
    rw [show (dat0 V c).leavesExact 4 t = owns (c : Thread nD τ) (ms0_4 t) fullShare ((dat0 V c).after 4 t) from by
      unfold Dat.leavesExact; rw [live0_4 t hl], after0_4]
    rw [accAt0_next V c t h0, Phi0_castSucc V c t, Phi0_pos V c _ _ hz]
    iintro ⟨⟨⟨⟨HS7, HS8⟩, Hr⟩, Hg⟩, Ho, ⟨%d0, H0⟩, ⟨%d1, H1⟩, ⟨%d2, H2⟩, ⟨%d3, H3⟩, ⟨%d4, H4⟩⟩
    iapply (run0_last c (grid0.coords t) _ _ _ _ _ _ _ _ _ _ _ _ _ _ hf hl (iblk0 V c 0 t) (iblk0 V c 1 t) (iblk0 V c 2 t) _ _ _ _ Set.univ _)
    isplitl [H0]; · iexact H0
    isplitl [H1]; · iexact H1
    isplitl [H2]; · iexact H2
    isplitl [H3]; · iexact H3
    isplitl [H4]; · iexact H4
    isplitl [HS7]; · iexact HS7
    isplitl [HS8]; · iexact HS8
    iintro ⟨H0, H1, H2, H3, H4, HS7, HS8⟩
    isplitl [HS7 HS8 Hr Hg]
    · isplitl [HS7 HS8 Hr]
      · isplitl [HS7 HS8]
        · isplitl [HS7]; · iexact HS7
          iexact HS8
        iexact Hr
      iexact Hg
    isplitl [Ho]; · iexact Ho
    isplitl [H0]; · iexact H0
    isplitl [H1]; · iexact H1
    isplitl [H2]; · iexact H2
    isplitl [H3]; · iexact H3
    iexact H4
  · have hl : ¬last0 (grid0.coords t) := fun h => h1 ((last0_iff t).mp h)
    rw [Dat.leavesExact_idle (dat0 V c) 3 t (idle0_3 t hl) (noFlush0_3 t hl)]
    rw [Dat.leavesExact_idle (dat0 V c) 4 t (idle0_4 t hl) (noFlush0_4 t hl)]
    by_cases h0 : t.val % 8 = 0
    · -- the first column block of a row block
      have hf : first0 (grid0.coords t) := (first0_iff t).mpr h0
      rw [accAt0_first V c t h0, Phi0_castSucc V c t]
      by_cases hz : t.val = 0
      · rw [Phi0_zero V c _ _ hz, PhiA0_eq]
        iintro ⟨⟨⟨⟨⟨%s7, HS7⟩, ⟨%s8, HS8⟩⟩, Hr⟩, Hg⟩, Ho, ⟨%d0, H0⟩, ⟨%d1, H1⟩, ⟨%d2, H2⟩, ⟨%d3, H3⟩, ⟨%d4, H4⟩⟩
        iapply (run0_first c (grid0.coords t) _ _ _ _ _ _ _ _ _ _ _ _ _ _ hf hl (iblk0 V c 0 t) (iblk0 V c 1 t) (iblk0 V c 2 t) _ _ s7 s8 Set.univ _)
        isplitl [H0]; · iexact H0
        isplitl [H1]; · iexact H1
        isplitl [H2]; · iexact H2
        isplitl [H3]; · iexact H3
        isplitl [H4]; · iexact H4
        isplitl [HS7]; · iexact HS7
        isplitl [HS8]; · iexact HS8
        iintro ⟨H0, H1, H2, H3, H4, HS7, HS8⟩
        isplitl [HS7 HS8 Hr Hg]
        · isplitl [HS7 HS8 Hr]
          · isplitl [HS7 HS8]
            · isplitl [HS7]; · iexact HS7
              iexact HS8
            iexact Hr
          iexact Hg
        isplitl [Ho]; · iexact Ho
        isplitl [H0]; · iexact H0
        isplitl [H1]; · iexact H1
        isplitl [H2]; · iexact H2
        isplitl [H3]; · iexists _; iexact H3
        iexists _; iexact H4
      · rw [Phi0_pos V c _ _ hz]
        iintro ⟨⟨⟨⟨HS7, HS8⟩, Hr⟩, Hg⟩, Ho, ⟨%d0, H0⟩, ⟨%d1, H1⟩, ⟨%d2, H2⟩, ⟨%d3, H3⟩, ⟨%d4, H4⟩⟩
        iapply (run0_first c (grid0.coords t) _ _ _ _ _ _ _ _ _ _ _ _ _ _ hf hl (iblk0 V c 0 t) (iblk0 V c 1 t) (iblk0 V c 2 t) _ _ _ _ Set.univ _)
        isplitl [H0]; · iexact H0
        isplitl [H1]; · iexact H1
        isplitl [H2]; · iexact H2
        isplitl [H3]; · iexact H3
        isplitl [H4]; · iexact H4
        isplitl [HS7]; · iexact HS7
        isplitl [HS8]; · iexact HS8
        iintro ⟨H0, H1, H2, H3, H4, HS7, HS8⟩
        isplitl [HS7 HS8 Hr Hg]
        · isplitl [HS7 HS8 Hr]
          · isplitl [HS7 HS8]
            · isplitl [HS7]; · iexact HS7
              iexact HS8
            iexact Hr
          iexact Hg
        isplitl [Ho]; · iexact Ho
        isplitl [H0]; · iexact H0
        isplitl [H1]; · iexact H1
        isplitl [H2]; · iexact H2
        isplitl [H3]; · iexists _; iexact H3
        iexists _; iexact H4
    · -- a column block in between
      have hf : ¬first0 (grid0.coords t) := fun h => h0 ((first0_iff t).mp h)
      have hz : t.val ≠ 0 := fun e => h0 (by rw [e])
      rw [accAt0_next V c t h0, Phi0_castSucc V c t, Phi0_pos V c _ _ hz]
      iintro ⟨⟨⟨⟨HS7, HS8⟩, Hr⟩, Hg⟩, Ho, ⟨%d0, H0⟩, ⟨%d1, H1⟩, ⟨%d2, H2⟩, ⟨%d3, H3⟩, ⟨%d4, H4⟩⟩
      iapply (run0_mid c (grid0.coords t) _ _ _ _ _ _ _ _ _ _ _ _ _ _ hf hl (iblk0 V c 0 t) (iblk0 V c 1 t) (iblk0 V c 2 t) _ _ _ _ Set.univ _)
      isplitl [H0]; · iexact H0
      isplitl [H1]; · iexact H1
      isplitl [H2]; · iexact H2
      isplitl [H3]; · iexact H3
      isplitl [H4]; · iexact H4
      isplitl [HS7]; · iexact HS7
      isplitl [HS8]; · iexact HS8
      iintro ⟨H0, H1, H2, H3, H4, HS7, HS8⟩
      isplitl [HS7 HS8 Hr Hg]
      · isplitl [HS7 HS8 Hr]
        · isplitl [HS7 HS8]
          · isplitl [HS7]; · iexact HS7
            iexact HS8
          iexact Hr
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the same back, the accumulators' values forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega), PhiA0_eq]
  iintro ⟨⟨⟨HS7, HS8⟩, Hr⟩, Hg⟩
  isplitl [HS7 HS8 Hr]
  · isplitl [HS7 HS8]
    · isplitl [HS7]
      · iexists _; iexact HS7
      iexists _; iexact HS8
    iexact Hr
  iexact Hg

end Data

end Cert.KernelIdeal.Pairs

end
-- ==== Proof.KernelIdeal.Run1.lean ====
/-
  One grid point of the second call, as a triple on whole staging buffers: from the five input blocks (similarities, row
  labels, column labels, and the first call's per-row minimum and maximum), the output block and the four running
  accumulators (positive sum, negative sum, positive flag, negative flag) at given contents, the body ends with the inputs
  as they were, the accumulators updated by the block (from zero at the first column block of a row block), and the output
  block untouched or, at the last column block, holding the row losses computed from the updated accumulators.
-/
import proofs.«174246_j52381421142559_1_alg».proof.Proof.KernelIdeal.Run0

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four accumulators after a point, from the blocks and what they held before it. -/
def upd1 (x0 : Vec F S512x1024 .f32) (x1 : Vec F S512x1 .i32) (x2 : Vec F S1x1024 .i32) (x3 x4 : Vec F S512x1 .f32)
    (s : Vec F S512x1 .f32 × Vec F S512x1 .f32 × Vec F S512x1 .f32 × Vec F S512x1 .f32) :
    Vec F S512x1 .f32 × Vec F S512x1 .f32 × Vec F S512x1 .f32 × Vec F S512x1 .f32 :=
  (k1_pay11 (k1_pay10 x0 x1 x2 x4) s.1, k1_pay12 x0 (k1_pay8 x0 x1 x2 x3) s.2.1,
    k1_pay13 (k1_pay9 x0 x1 x2 x4) s.2.2.1, k1_pay1 (k1_pay14 (k1_pay8 x0 x1 x2 x3) s.2.2.2))

/-- What a row block's accumulators are reset to: zero in every row. -/
def init1 : Vec F S512x1 .f32 × Vec F S512x1 .f32 × Vec F S512x1 .f32 × Vec F S512x1 .f32 := (k1_pay3, k1_pay4, k1_pay5, k1_pay6)

/-- The row losses of a row block from its accumulators. -/
def loss1 (s : Vec F S512x1 .f32 × Vec F S512x1 .f32 × Vec F S512x1 .f32 × Vec F S512x1 .f32) : Vec F S512x1 .f32 :=
  k1_pay2 s.1 s.2.1 s.2.2.1 s.2.2.2

set_option maxHeartbeats 2000000 in
/-- A point that is neither the first nor the last column block of its row block: only the accumulators change. -/
theorem run1_mid (c : Dev nD) (i : grid1.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬first1 i) (hc1 : ¬last1 i)
    (x0 : Vec F S512x1024 .f32) (x1 : Vec F S512x1 .i32) (x2 : Vec F S1x1024 .i32) (x3 x4 y5 s8 s9 s10 s11 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s8 ∗ owns (c : Thread nD τ) arg9 fullShare s9 ∗ owns (c : Thread nD τ) arg10 fullShare s10 ∗ owns (c : Thread nD τ) arg11 fullShare s11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (upd1 x0 x1 x2 x3 x4 (s8, s9, s10, s11)).1 ∗ owns (c : Thread nD τ) arg9 fullShare (upd1 x0 x1 x2 x3 x4 (s8, s9, s10, s11)).2.1 ∗ owns (c : Thread nD τ) arg10 fullShare (upd1 x0 x1 x2 x3 x4 (s8, s9, s10, s11)).2.2.1 ∗ owns (c : Thread nD τ) arg11 fullShare (upd1 x0 x1 x2 x3 x4 (s8, s9, s10, s11)).2.2.2) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H9]
  · iexists _; isplitr; swap; · iexact H9
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H10]
  · iexists _; isplitr; swap; · iexact H10
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H11
  ipureintro
  sl_unfold_words
  rw [View.read_writes_whole_last _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
  try rfl

set_option maxHeartbeats 2000000 in
/-- The first column block of a row block: the accumulators are zeroed, then updated by the block. -/
theorem run1_first (c : Dev nD) (i : grid1.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : first1 i) (hc1 : ¬last1 i)
    (x0 : Vec F S512x1024 .f32) (x1 : Vec F S512x1 .i32) (x2 : Vec F S1x1024 .i32) (x3 x4 y5 s8 s9 s10 s11 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s8 ∗ owns (c : Thread nD τ) arg9 fullShare s9 ∗ owns (c : Thread nD τ) arg10 fullShare s10 ∗ owns (c : Thread nD τ) arg11 fullShare s11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (upd1 x0 x1 x2 x3 x4 init1).1 ∗ owns (c : Thread nD τ) arg9 fullShare (upd1 x0 x1 x2 x3 x4 init1).2.1 ∗ owns (c : Thread nD τ) arg10 fullShare (upd1 x0 x1 x2 x3 x4 init1).2.2.1 ∗ owns (c : Thread nD τ) arg11 fullShare (upd1 x0 x1 x2 x3 x4 init1).2.2.2) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H8]
  · iexists _; isplitr; swap; · iexact H8
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H9]
  · iexists _; isplitr; swap; · iexact H9
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H10]
  · iexists _; isplitr; swap; · iexact H10
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H11
  ipureintro
  sl_unfold_words
  rw [View.read_writes_whole_last _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
  try rfl

set_option maxHeartbeats 2000000 in
/-- The last column block of a row block: the accumulators are updated and the row losses stored in the output block. -/
theorem run1_last (c : Dev nD) (i : grid1.Coords) (arg2 : Memref sig .tc .vmem S512x1024 .f32) (harg2 : arg2.IsWhole) (arg3 : Memref sig .tc .vmem S512x1 .i32) (harg3 : arg3.IsWhole) (arg4 : Memref sig .tc .vmem S1x1024 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
    (hc0 : ¬first1 i) (hc1 : last1 i)
    (x0 : Vec F S512x1024 .f32) (x1 : Vec F S512x1 .i32) (x2 : Vec F S1x1024 .i32) (x3 x4 y5 s8 s9 s10 s11 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare s8 ∗ owns (c : Thread nD τ) arg9 fullShare s9 ∗ owns (c : Thread nD τ) arg10 fullShare s10 ∗ owns (c : Thread nD τ) arg11 fullShare s11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (loss1 (upd1 x0 x1 x2 x3 x4 (s8, s9, s10, s11))) ∗ owns (c : Thread nD τ) arg8 fullShare (upd1 x0 x1 x2 x3 x4 (s8, s9, s10, s11)).1 ∗ owns (c : Thread nD τ) arg9 fullShare (upd1 x0 x1 x2 x3 x4 (s8, s9, s10, s11)).2.1 ∗ owns (c : Thread nD τ) arg10 fullShare (upd1 x0 x1 x2 x3 x4 (s8, s9, s10, s11)).2.2.1 ∗ owns (c : Thread nD τ) arg11 fullShare (upd1 x0 x1 x2 x3 x4 (s8, s9, s10, s11)).2.2.2) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, ⟨%f10, %hf10, H10⟩, ⟨%f11, %hf11, H11⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf8; obtain rfl := harg9.eq_unread hf9
  obtain rfl := harg10.eq_unread hf10; obtain rfl := harg11.eq_unread hf11
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H8]
  · iexists _; isplitr; swap; · iexact H8
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H9]
  · iexists _; isplitr; swap; · iexact H9
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  isplitl [H10]
  · iexists _; isplitr; swap; · iexact H10
    ipureintro
    sl_unfold_words
    rw [View.read_writes_whole_last _ _ hz2]
    simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
    try rfl
  iexists _; isplitr; swap; · iexact H11
  ipureintro
  sl_unfold_words
  rw [View.read_writes_whole_last _ _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x1024) hz2, View.ld_unit_zero (S := S512x1) hz2, View.ld_unit_zero (S := S1x1024) hz2, View.readCov_unit_zero (S := S512x1) _ hz2]
  try rfl

end Cert.KernelIdeal.Pairs

end
-- ==== Proof.KernelIdeal.Data1.lean ====
/-
  The proof data of the second call, at any contents `V` of the core's buffers when the call is entered. The four running
  accumulators (positive sum, negative sum, positive flag, negative flag) after point n are a recursion over the points:
  zeroed at the first column block of each row block, otherwise continued from the point before, and updated by the
  point's five input blocks. The invariant holds the four accumulator buffers at these values between points; the output
  block holds the row losses computed from them at the last column block of a row block, where it is written back.
-/
import proofs.«174246_j52381421142559_1_alg».proof.Proof.KernelIdeal.Run1

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Data

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (when it is not fetched its
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- The four running accumulators after point `n`. -/
def accAt1 (c : Dev nD) : (n : ℕ) → n < cfg1.N → Vec F S512x1 .f32 × Vec F S512x1 .f32 × Vec F S512x1 .f32 × Vec F S512x1 .f32
  | 0, hn => upd1 (iblk1 V c 0 ⟨0, hn⟩) (iblk1 V c 1 ⟨0, hn⟩) (iblk1 V c 2 ⟨0, hn⟩) (iblk1 V c 3 ⟨0, hn⟩) (iblk1 V c 4 ⟨0, hn⟩) init1
  | n + 1, hn => upd1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
      (if (n + 1) % 8 = 0 then init1 else accAt1 c n (Nat.lt_of_succ_lt hn))

/-- At the first column block of a row block they start from zero. -/
theorem accAt1_first (c : Dev nD) (t : Fin cfg1.N) (h : t.val % 8 = 0) :
    accAt1 V c t.val t.isLt = upd1 (iblk1 V c 0 t) (iblk1 V c 1 t) (iblk1 V c 2 t) (iblk1 V c 3 t) (iblk1 V c 4 t) init1 := by
  obtain ⟨n, hn⟩ := t
  cases n with
  | zero => rfl
  | succ n => exact congrArg (upd1 _ _ _ _ _) (if_pos h)

/-- Elsewhere they continue from the point before. -/
theorem accAt1_next (c : Dev nD) (t : Fin cfg1.N) (h : ¬t.val % 8 = 0) :
    accAt1 V c t.val t.isLt = upd1 (iblk1 V c 0 t) (iblk1 V c 1 t) (iblk1 V c 2 t) (iblk1 V c 3 t) (iblk1 V c 4 t)
      (accAt1 V c (t.val - 1) (Nat.lt_of_le_of_lt (Nat.sub_le _ _) t.isLt)) := by
  obtain ⟨n, hn⟩ := t
  cases n with
  | zero => exact absurd (Nat.zero_mod _) h
  | succ n => exact congrArg (upd1 _ _ _ _ _) (if_neg h)

/-! ## The invariant -/

/-- The core's scoped buffers other than this call's staging buffers and its four accumulators, at some contents. -/
abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2, cc1_scratch3]

/-- What the launch hands the region, with the four accumulators' buffers split out. -/
theorem PhiA1_eq (c : Dev nD) :
    (Pipeline.ΦA spec1 c : sProp 𝕄)
      = iprop((((∃ d, owns (c : Thread nD τ) accPos fullShare d) ∗ (∃ d, owns (c : Thread nD τ) accNeg fullShare d) ∗ (∃ d, owns (c : Thread nD τ) flagPos fullShare d) ∗ (∃ d, owns (c : Thread nD τ) flagNeg fullShare d)) ∗ rest1 c) ∗ (∃ r, prngReg c r)) := by
  unfold Pipeline.ΦA
  rw [Pipeline.scopedRest_split_of_list spec1 c [cc1_scratch0, cc1_scratch1, cc1_scratch2, cc1_scratch3] (by decide) (by decide)]
  simp only [accPos, accNeg, flagPos, flagNeg, owns_whole]; rfl

/-- The invariant before position `n`: before the first point what the launch hands over; afterwards the four accumulators
    at what the point before left, the other scoped buffers at anything, the generator register at some state. -/
def Phi1 (c : Dev nD) : (n : ℕ) → n ≤ cfg1.N → sProp 𝕄
  | 0, _ => Pipeline.ΦA spec1 c
  | n + 1, hn => iprop(((owns (c : Thread nD τ) accPos fullShare (accAt1 V c n hn).1 ∗ owns (c : Thread nD τ) accNeg fullShare (accAt1 V c n hn).2.1 ∗ owns (c : Thread nD τ) flagPos fullShare (accAt1 V c n hn).2.2.1 ∗ owns (c : Thread nD τ) flagNeg fullShare (accAt1 V c n hn).2.2.2) ∗ rest1 c) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(((owns (c : Thread nD τ) accPos fullShare (accAt1 V c n hn).1 ∗ owns (c : Thread nD τ) accNeg fullShare (accAt1 V c n hn).2.1 ∗ owns (c : Thread nD τ) flagPos fullShare (accAt1 V c n hn).2.2.1 ∗ owns (c : Thread nD τ) flagNeg fullShare (accAt1 V c n hn).2.2.2) ∗ rest1 c) ∗ (∃ r, prngReg c r)) := rfl
theorem Phi1_pos (c : Dev nD) (n : ℕ) (h : n ≤ cfg1.N) (hz : n ≠ 0) :
    Phi1 V c n h = iprop(((owns (c : Thread nD τ) accPos fullShare (accAt1 V c (n - 1) (by omega)).1 ∗ owns (c : Thread nD τ) accNeg fullShare (accAt1 V c (n - 1) (by omega)).2.1 ∗ owns (c : Thread nD τ) flagPos fullShare (accAt1 V c (n - 1) (by omega)).2.2.1 ∗ owns (c : Thread nD τ) flagNeg fullShare (accAt1 V c (n - 1) (by omega)).2.2.2) ∗ rest1 c) ∗ (∃ r, prngReg c r)) := by
  cases n with
  | zero => exact absurd rfl hz
  | succ n => rfl

/-! ## The proof data -/

/-- The arrays as the call finds them; after the body each input's buffer at its block, the output's at the row
    losses of the accumulators; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => loss1 (accAt1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = loss1 (accAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: which of the three cases the point is in is decided by its position in its row block; the
    invariant hands the body the accumulators at what the point before left (at anything before the first point, where
    they are zeroed anyway) and takes them back at this point's values; the output block is handed back untouched unless
    this is the last column block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  have hN : t.val < 128 := lt_of_lt_of_eq t.isLt (show cfg1.N = 128 from N_1)
  by_cases h1 : t.val % 8 = 7
  · -- the last column block of a row block
    have h0 : ¬t.val % 8 = 0 := by omega
    have hz : t.val ≠ 0 := by omega
    have hl : last1 (grid1.coords t) := (last1_iff t).mpr h1
    have hf : ¬first1 (grid1.coords t) := fun h => h0 ((first1_iff t).mp h)
    rw [show (dat1 V c).leavesExact 5 t = owns (c : Thread nD τ) (ms1_5 t) fullShare ((dat1 V c).after 5 t) from by
      unfold Dat.leavesExact; rw [live1_5 t hl], after1_5]
    rw [accAt1_next V c t h0, Phi1_castSucc V c t, Phi1_pos V c _ _ hz]
    iintro ⟨⟨⟨⟨HS8, HS9, HS10, HS11⟩, Hr⟩, Hg⟩, Ho, ⟨%d0, H0⟩, ⟨%d1, H1⟩, ⟨%d2, H2⟩, ⟨%d3, H3⟩, ⟨%d4, H4⟩, ⟨%d5, H5⟩⟩
    iapply (run1_last c (grid1.coords t) _ _ _ _ _ _ _ _ _ _ _ _ _ _ _ _ _ _ _ _ hf hl (iblk1 V c 0 t) (iblk1 V c 1 t) (iblk1 V c 2 t) (iblk1 V c 3 t) (iblk1 V c 4 t) _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS8]; · iexact HS8
    isplitl [HS9]; · iexact HS9
    isplitl [HS10]; · iexact HS10
    isplitl [HS11]; · iexact HS11
    iintro ⟨H0, H1, H2, H3, H4, H5, HS8, HS9, HS10, HS11⟩
    isplitl [HS8 HS9 HS10 HS11 Hr Hg]
    · isplitl [HS8 HS9 HS10 HS11 Hr]
      · isplitl [HS8 HS9 HS10 HS11]
        · isplitl [HS8]; · iexact HS8
          isplitl [HS9]; · iexact HS9
          isplitl [HS10]; · iexact HS10
          iexact HS11
        iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hl : ¬last1 (grid1.coords t) := fun h => h1 ((last1_iff t).mp h)
    rw [Dat.leavesExact_idle (dat1 V c) 5 t (idle1_5 t hl) (noFlush1_5 t hl)]
    by_cases h0 : t.val % 8 = 0
    · -- the first column block of a row block
      have hf : first1 (grid1.coords t) := (first1_iff t).mpr h0
      rw [accAt1_first V c t h0, Phi1_castSucc V c t]
      by_cases hz : t.val = 0
      · rw [Phi1_zero V c _ _ hz, PhiA1_eq]
        iintro ⟨⟨⟨⟨⟨%s8, HS8⟩, ⟨%s9, HS9⟩, ⟨%s10, HS10⟩, ⟨%s11, HS11⟩⟩, Hr⟩, Hg⟩, Ho, ⟨%d0, H0⟩, ⟨%d1, H1⟩, ⟨%d2, H2⟩, ⟨%d3, H3⟩, ⟨%d4, H4⟩, ⟨%d5, H5⟩⟩
        iapply (run1_first c (grid1.coords t) _ _ _ _ _ _ _ _ _ _ _ _ _ _ _ _ _ _ _ _ hf hl (iblk1 V c 0 t) (iblk1 V c 1 t) (iblk1 V c 2 t) (iblk1 V c 3 t) (iblk1 V c 4 t) _ s8 s9 s10 s11 Set.univ _)
        isplitl [H0]; · iexact H0
        isplitl [H1]; · iexact H1
        isplitl [H2]; · iexact H2
        isplitl [H3]; · iexact H3
        isplitl [H4]; · iexact H4
        isplitl [H5]; · iexact H5
        isplitl [HS8]; · iexact HS8
        isplitl [HS9]; · iexact HS9
        isplitl [HS10]; · iexact HS10
        isplitl [HS11]; · iexact HS11
        iintro ⟨H0, H1, H2, H3, H4, H5, HS8, HS9, HS10, HS11⟩
        isplitl [HS8 HS9 HS10 HS11 Hr Hg]
        · isplitl [HS8 HS9 HS10 HS11 Hr]
          · isplitl [HS8 HS9 HS10 HS11]
            · isplitl [HS8]; · iexact HS8
              isplitl [HS9]; · iexact HS9
              isplitl [HS10]; · iexact HS10
              iexact HS11
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi1_pos V c _ _ hz]
        iintro ⟨⟨⟨⟨HS8, HS9, HS10, HS11⟩, Hr⟩, Hg⟩, Ho, ⟨%d0, H0⟩, ⟨%d1, H1⟩, ⟨%d2, H2⟩, ⟨%d3, H3⟩, ⟨%d4, H4⟩, ⟨%d5, H5⟩⟩
        iapply (run1_first c (grid1.coords t) _ _ _ _ _ _ _ _ _ _ _ _ _ _ _ _ _ _ _ _ hf hl (iblk1 V c 0 t) (iblk1 V c 1 t) (iblk1 V c 2 t) (iblk1 V c 3 t) (iblk1 V c 4 t) _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS8]; · iexact HS8
        isplitl [HS9]; · iexact HS9
        isplitl [HS10]; · iexact HS10
        isplitl [HS11]; · iexact HS11
        iintro ⟨H0, H1, H2, H3, H4, H5, HS8, HS9, HS10, HS11⟩
        isplitl [HS8 HS9 HS10 HS11 Hr Hg]
        · isplitl [HS8 HS9 HS10 HS11 Hr]
          · isplitl [HS8 HS9 HS10 HS11]
            · isplitl [HS8]; · iexact HS8
              isplitl [HS9]; · iexact HS9
              isplitl [HS10]; · iexact HS10
              iexact HS11
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
    · -- a column block in between
      have hf : ¬first1 (grid1.coords t) := fun h => h0 ((first1_iff t).mp h)
      have hz : t.val ≠ 0 := fun e => h0 (by rw [e])
      rw [accAt1_next V c t h0, Phi1_castSucc V c t, Phi1_pos V c _ _ hz]
      iintro ⟨⟨⟨⟨HS8, HS9, HS10, HS11⟩, Hr⟩, Hg⟩, Ho, ⟨%d0, H0⟩, ⟨%d1, H1⟩, ⟨%d2, H2⟩, ⟨%d3, H3⟩, ⟨%d4, H4⟩, ⟨%d5, H5⟩⟩
      iapply (run1_mid c (grid1.coords t) _ _ _ _ _ _ _ _ _ _ _ _ _ _ _ _ _ _ _ _ hf hl (iblk1 V c 0 t) (iblk1 V c 1 t) (iblk1 V c 2 t) (iblk1 V c 3 t) (iblk1 V c 4 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS8]; · iexact HS8
      isplitl [HS9]; · iexact HS9
      isplitl [HS10]; · iexact HS10
      isplitl [HS11]; · iexact HS11
      iintro ⟨H0, H1, H2, H3, H4, H5, HS8, HS9, HS10, HS11⟩
      isplitl [HS8 HS9 HS10 HS11 Hr Hg]
      · isplitl [HS8 HS9 HS10 HS11 Hr]
        · isplitl [HS8 HS9 HS10 HS11]
          · isplitl [HS8]; · iexact HS8
            isplitl [HS9]; · iexact HS9
            isplitl [HS10]; · iexact HS10
            iexact HS11
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the same back, the accumulators' values forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 128 := N_1; omega), PhiA1_eq]
  iintro ⟨⟨⟨HS8, HS9, HS10, HS11⟩, Hr⟩, Hg⟩
  isplitl [HS8 HS9 HS10 HS11 Hr]
  · isplitl [HS8 HS9 HS10 HS11]
    · isplitl [HS8]; · iexists _; iexact HS8
      isplitl [HS9]; · iexists _; iexact HS9
      isplitl [HS10]; · iexists _; iexact HS10
      iexists _; iexact HS11
    iexact Hr
  iexact Hg

end Data

end Cert.KernelIdeal.Pairs

end
-- ==== Proof.KernelIdeal.Frame.lean ====
/-
  The run of @main: two reshapes of the labels, the two calls, the final sum and division. Between two items every
  unscoped buffer of the core is held at named contents: the launch memory, then what the reshapes write, then the first
  call's result arrays at what its write-backs leave, then the second call's, then what the closing operations write.
  From the launch the library's rule for a program of several calls gives a terminating, fault-free run whose final memory
  holds every unscoped buffer at the last of these contents.
-/
import proofs.«174246_j52381421142559_1_alg».proof.Proof.KernelIdeal.Data0
import proofs.«174246_j52381421142559_1_alg».proof.Proof.KernelIdeal.Data1
import proofs.«174246_j52381421142559_1_alg».proof.Proof.Gen.KernelIdeal.Regions

set_option maxRecDepth 16384

noncomputable section

namespace Cert.KernelIdeal.Pairs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the two reshapes of the labels (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second call. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing sum and division. -/
abbrev W4 : Dev nD → Valuation τ sig (Elt F) := fun c => StableHlo.after hostOps2 (W3 m c)

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The two calls as segments -/

set_option backward.isDefEq.respectTransparency.types false in
/-- Call 0 as a segment of @main: entered with every unscoped buffer at the contents before it, left with its result
    arrays at what its write-backs leave and every other buffer as entered. Its arrays are split out of the unscoped buffers
    and put back; the generator register goes into the invariant and comes out; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment of @main: entered with every unscoped buffer at the contents before it, left with its result
    arrays at what its write-backs leave and every other buffer as entered. Its arrays are split out of the unscoped buffers
    and put back; the generator register goes into the invariant and comes out; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and its final
    memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the last boundary holds -/

/-- No item writes the similarity matrix: both calls read it through an input window, the host operations write other buffers. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide : main_arg0 ∉ hostOps2_W)
    _ = W2 m c (Proc.devRef .tc main_arg0) := (W3_arr m c 0).trans (((dat1 (V2 m) c).arrAt_in 0 rfl _).trans (A_eq1 (V2 m) c 0))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide : main_arg0 ∉ hostOps0_W)
    _ = m ((c : Thread nD τ).loc main_arg0) := rfl

/-- No item writes the labels: the calls stage their reshaped copies, not the labels themselves. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide : main_arg1 ∉ hostOps2_W)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

/-- The frame: @main runs to the end, nothing faulting, and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨(h c _ (mem_uc main_arg0 (by decide))).trans (W4_main_arg0 m c),
      (h c _ (mem_uc main_arg1 (by decide))).trans (W4_main_arg1 m c)⟩) (run_all m ρ)

/-- The same run with the result buffer named too. -/
theorem run_result : θ_run defs (onTc (τ := τ) (main (F := F))) ⟨m, fun _ => 0, ρ⟩ (fun r => ∀ c : Dev nD,
      r.2.mem ((c.tc : Thread nD τ).loc main_v5) = W4 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun s h c =>
    ⟨h c _ (mem_uc main_v5 (by decide)),
      (h c _ (mem_uc main_arg0 (by decide))).trans (W4_main_arg0 m c),
      (h c _ (mem_uc main_arg1 (by decide))).trans (W4_main_arg1 m c)⟩) (run_all m ρ)

/-- The result is the closing operations applied to the second call's result array: its sum over all entries, from zero,
    divided by the constant. -/
theorem W4_main_v5 (c : Dev nD) :
    (W4 m c (Proc.devRef .tc main_v5) : S_.Idx → Elt F .f32)
      = Host.divf (Host.reduceAdd (W3 m c (Proc.devRef .tc main_v3) : S8192x1.Idx → Elt F .f32) (constant (F := F) S_ .f32 0x00000000#32) reducesTo_S8192x1_S_d0_1 h_S_)
          (constant (F := F) S_ .f32 0x46000000#32) := by
  show StableHlo.after hostOps2 (W3 m c) (Proc.devRef .tc main_v5) = _
  after_results <;> rfl

/-- The second call's result array at the last boundaries. -/
theorem W3_main_v3 (c : Dev nD) : W3 m c (Proc.devRef .tc main_v3) = (dat1 (V2 m) c).arrAt 5 cfg1.N := W3_arr m c 5
/-- What the second call finds in the buffers it stages. -/
theorem V2_main_arg0 (c : Dev nD) : V2 m c main_arg0 = m ((c : Thread nD τ).loc main_arg0) :=
  ((W2_arr m c 0).trans (((dat0 (V1 m) c).arrAt_in 0 rfl _).trans (A_eq0 (V1 m) c 0))).trans
    ((StableHlo.after_of_writes_sub hostOps0 _ hostOps0_writes (by decide : main_arg0 ∉ hostOps0_W)).trans rfl)
theorem V2_main_v0 (c : Dev nD) : V2 m c main_v0 = V1 m c main_v0 :=
  (W2_arr m c 1).trans (((dat0 (V1 m) c).arrAt_in 1 rfl _).trans (A_eq0 (V1 m) c 1))
theorem V2_main_v1 (c : Dev nD) : V2 m c main_v1 = V1 m c main_v1 :=
  (W2_arr m c 2).trans (((dat0 (V1 m) c).arrAt_in 2 rfl _).trans (A_eq0 (V1 m) c 2))
theorem V2_main_v2_0 (c : Dev nD) : V2 m c main_v2_0 = (dat0 (V1 m) c).arrAt 3 cfg0.N := W2_arr m c 3
theorem V2_main_v2_1 (c : Dev nD) : V2 m c main_v2_1 = (dat0 (V1 m) c).arrAt 4 cfg0.N := W2_arr m c 4
theorem V1_main_arg0 (c : Dev nD) : V1 m c main_arg0 = m ((c : Thread nD τ).loc main_arg0) :=
  (StableHlo.after_of_writes_sub hostOps0 _ hostOps0_writes (by decide : main_arg0 ∉ hostOps0_W)).trans rfl
/-- The two reshapes of the labels. -/
theorem V1_main_v0 (c : Dev nD) :
    (V1 m c main_v0 : S8192x1.Idx → Elt F .i32) = shapeCast S8192x1 (m ((c : Thread nD τ).loc main_arg1) : S8192.Idx → Elt F .i32) shapeCasts_S8192_S8192x1 := by
  show StableHlo.after hostOps0 (W0 m c) (Proc.devRef .tc main_v0) = _
  after_results <;> rfl
theorem V1_main_v1 (c : Dev nD) :
    (V1 m c main_v1 : S1x8192.Idx → Elt F .i32) = shapeCast S1x8192 (m ((c : Thread nD τ).loc main_arg1) : S8192.Idx → Elt F .i32) shapeCasts_S8192_S1x8192 := by
  show StableHlo.after hostOps0 (W0 m c) (Proc.devRef .tc main_v1) = _
  after_results <;> rfl

end Cert.KernelIdeal.Pairs

end
-- ==== Proof.LibExtremum.lean ====
/-
  Extremes through reductions, on the extended reals.

  A minimum-reduction over some axes of an array, started from +∞, leaves at each reduced index the
  minimum of the entries that drop to it. Taking the infimum of THAT over every reduced index gives
  the infimum of every entry of the source: each entry drops to exactly one reduced index. A shape
  cast only renames indices along a bijection, so it keeps the infimum of all entries as well. A chain
  of reductions and shape casts that ends in an array with a single index therefore holds, at that
  index, the infimum of every entry of the array the chain began with — whatever the order in which
  the axes were reduced. The same holds with maximum, −∞ and supremum.

  For a reduction over ONE axis by the host the reduced entry is read directly as the infimum (or
  supremum) over that axis's coordinates.
-/
import Idealize.ShloMosaic.PureOps.Ideal.Laws

noncomputable section

namespace Cert.Extremum

open Idealize.ShloMosaic

variable {φ : FTy}

/-! ## Folds of `min` and `max` as infimum and supremum -/

/-- Folding `min` from +∞ over a finite set of indices gives the infimum over the set. -/
theorem fold_min_top {ι : Type} (S : Finset ι) (f : ι → EReal) : S.fold min (⊤ : EReal) f = ⨅ k ∈ S, f k :=
  eq_of_forall_le_iff fun z => by
    rw [Finset.le_fold_min]
    simp only [le_top, true_and, le_iInf_iff]

/-- Folding `max` from −∞ over a finite set of indices gives the supremum over the set. -/
theorem fold_max_bot {ι : Type} (S : Finset ι) (f : ι → EReal) : S.fold max (⊥ : EReal) f = ⨆ k ∈ S, f k :=
  eq_of_forall_ge_iff fun z => by
    rw [Finset.fold_max_le]
    simp only [bot_le, true_and, iSup_le_iff]

/-- Over every index of a finite type: the fold of `min` from +∞ is the infimum. -/
theorem fold_min_top_univ {ι : Type} [Fintype ι] (f : ι → EReal) : Finset.univ.fold min (⊤ : EReal) f = ⨅ k, f k := by
  rw [fold_min_top]; simp only [Finset.mem_univ, iInf_pos]

/-- Over every index of a finite type: the fold of `max` from −∞ is the supremum. -/
theorem fold_max_bot_univ {ι : Type} [Fintype ι] (f : ι → EReal) : Finset.univ.fold max (⊥ : EReal) f = ⨆ k, f k := by
  rw [fold_max_bot]; simp only [Finset.mem_univ, iSup_pos]

/-! ## An index type with one element -/

/-- Over an index type with at most one element the infimum is the value at any index. -/
theorem iInf_of_subsingleton {ι : Type} [Subsingleton ι] (g : ι → EReal) (j : ι) : (⨅ j', g j') = g j :=
  le_antisymm (iInf_le _ j) (le_iInf fun j' => by rw [Subsingleton.elim j' j])

/-- Over an index type with at most one element the supremum is the value at any index. -/
theorem iSup_of_subsingleton {ι : Type} [Subsingleton ι] (g : ι → EReal) (j : ι) : (⨆ j', g j') = g j :=
  le_antisymm (iSup_le fun j' => by rw [Subsingleton.elim j' j]) (le_iSup _ j)

/-! ## A shape cast keeps the extremes of all entries -/

/-- A shape cast reads its operand along a bijection of indices: the infimum of all entries is unchanged. -/
theorem iInf_shapeCast {s t : Shape} (v : s.Idx → EReal) (h : s.ShapeCasts t) :
    (⨅ j : t.Idx, shapeCast t v h j) = ⨅ i : s.Idx, v i :=
  (Shape.reshapeEquiv h).iInf_comp (g := v)

/-- And so is the supremum. -/
theorem iSup_shapeCast {s t : Shape} (v : s.Idx → EReal) (h : s.ShapeCasts t) :
    (⨆ j : t.Idx, shapeCast t v h j) = ⨆ i : s.Idx, v i :=
  (Shape.reshapeEquiv h).iSup_comp (g := v)

/-! ## A reduction, then the extreme over what is left -/

/-- A minimum-reduction from +∞ over any axes, followed by the infimum over the reduced indices, is the infimum of
    every entry of the source: the entry at `i` is among those folded at the index `i` drops to, and every entry folded
    at a reduced index is an entry of the source. -/
theorem iInf_multiReduction_min {s t : Shape} {axes : List (Fin s.rank)} (src : FVec Ideal s φ) (acc : BitVec φ.bits)
    (h : s.Reduces axes t) (hφ : FKind.Formats φ) (hacc : acc = FKind.minimumf.neutral φ hφ)
    (htop : (FloatOps.ofBits φ acc : Ideal φ) = (⊤ : EReal)) :
    (⨅ j : t.Idx, (multiReduction .minimumf axes t src acc h hφ hacc j : EReal)) = ⨅ i : s.Idx, (src i : EReal) := by
  have hf : ∀ j : t.Idx, (multiReduction .minimumf axes t src acc h hφ hacc j : EReal)
      = (Finset.univ.filter fun i => h.drop i = j).fold min (⊤ : EReal) src := fun j => by
    rw [multiReduction_minimumf_eq_fold, htop]; rfl
  apply le_antisymm
  · refine le_iInf fun i => (iInf_le _ (h.drop i)).trans ?_
    rw [hf]
    exact (Finset.fold_min_le _).2 (Or.inr ⟨i, Finset.mem_filter.2 ⟨Finset.mem_univ _, rfl⟩, le_rfl⟩)
  · refine le_iInf fun j => ?_
    rw [hf, Finset.le_fold_min]
    exact ⟨le_top, fun i _ => iInf_le _ i⟩

/-- A maximum-reduction from −∞ over any axes, followed by the supremum over the reduced indices, is the supremum of
    every entry of the source. -/
theorem iSup_multiReduction_max {s t : Shape} {axes : List (Fin s.rank)} (src : FVec Ideal s φ) (acc : BitVec φ.bits)
    (h : s.Reduces axes t) (hφ : FKind.Formats φ) (hacc : acc = FKind.maximumf.neutral φ hφ)
    (hbot : (FloatOps.ofBits φ acc : Ideal φ) = (⊥ : EReal)) :
    (⨆ j : t.Idx, (multiReduction .maximumf axes t src acc h hφ hacc j : EReal)) = ⨆ i : s.Idx, (src i : EReal) := by
  have hf : ∀ j : t.Idx, (multiReduction .maximumf axes t src acc h hφ hacc j : EReal)
      = (Finset.univ.filter fun i => h.drop i = j).fold max (⊥ : EReal) src := fun j => by
    rw [multiReduction_maximumf_eq_fold, hbot]; rfl
  apply le_antisymm
  · refine iSup_le fun j => ?_
    rw [hf, Finset.fold_max_le]
    exact ⟨bot_le, fun i _ => le_iSup _ i⟩
  · refine iSup_le fun i => le_trans ?_ (le_iSup _ (h.drop i))
    rw [hf]
    exact (Finset.le_fold_max _).2 (Or.inr ⟨i, Finset.mem_filter.2 ⟨Finset.mem_univ _, rfl⟩, le_rfl⟩)

/-! ## The host's reduction over one axis -/

/-- The host's reduce with a minimum body over ONE axis, from an initial value that is +∞: at a reduced index, the
    infimum of the operand over that axis's coordinates (the reduced index with the coordinate put back). -/
theorem hostReduce_min_single {s t u : Shape} {a : Fin s.rank} (x : s.Idx → Ideal φ) (init : u.Idx → Ideal φ)
    (h' : s.ReducesTo [a] t) (h : s.Reduces [a] t) (hu : 0 < u.numel) (hinit : init (Shape.Idx.first hu) = (⊤ : EReal))
    (j : t.Idx) :
    (Host.reduce (FloatOps.minimumf (F := Ideal) (φ := φ)) x init h' hu j : EReal) = ⨅ k : Fin (s.size a), (x (h.lift j k) : EReal) := by
  rw [Host.reduce_eq_fold_single (FloatOps.minimumf (F := Ideal) (φ := φ)) x init h' h hu j, hinit]
  exact fold_min_top_univ (fun k => x (h.lift j k))

/-- The same with a maximum body from −∞: the supremum over that axis's coordinates. -/
theorem hostReduce_max_single {s t u : Shape} {a : Fin s.rank} (x : s.Idx → Ideal φ) (init : u.Idx → Ideal φ)
    (h' : s.ReducesTo [a] t) (h : s.Reduces [a] t) (hu : 0 < u.numel) (hinit : init (Shape.Idx.first hu) = (⊥ : EReal))
    (j : t.Idx) :
    (Host.reduce (FloatOps.maximumf (F := Ideal) (φ := φ)) x init h' hu j : EReal) = ⨆ k : Fin (s.size a), (x (h.lift j k) : EReal) := by
  rw [Host.reduce_eq_fold_single (FloatOps.maximumf (F := Ideal) (φ := φ)) x init h' h hu j, hinit]
  exact fold_max_bot_univ (fun k => x (h.lift j k))

/-! ## The two infinite words -/

/-- The f32 word of +∞ is the top of the extended reals. -/
theorem ofBits_posInf_f32 : (FloatOps.ofBits (F := Ideal) .f32 0x7F800000#32 : EReal) = ⊤ := by
  show Ideal.ofBits .f32 0x7F800000#32 = ⊤
  simp [Ideal.ofBits, Ideal.ieee]

/-- The f32 word of −∞ is the bottom of the extended reals. -/
theorem ofBits_negInf_f32 : (FloatOps.ofBits (F := Ideal) .f32 0xFF800000#32 : EReal) = ⊥ := by
  show Ideal.ofBits .f32 0xFF800000#32 = ⊥
  simp [Ideal.ofBits, Ideal.ieee]

end Cert.Extremum

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnVector.lean ====
/-
  A column read as a vector: an array of shape [a, 1] cast to [a] reads, at i, the column's entry of row i. Both have
  row-major position i. (The converse, [a] cast to [a, 1], and the same two for a leading unit axis, are read the same way.)
-/
import Idealize.ShloMosaic.Lib.Pipeline.Value
import Idealize.ShloMosaic.Lib.ValueIdx

namespace Idealize.ShloMosaic.ValueIdx

open Idealize.ShloMosaic

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibBroadcastInDim.lean ====
/-
  The host's `broadcast_in_dim` read at an index given by coordinates, for the four forms a bias row and a per-row scale
  take on their way to a matrix: a column `[a, 1]` spread along its unit axis to `[a, b]`; a row `[1, b]` spread along
  its unit axis to `[a, b]`; a vector `[b]` laid as the row `[1, b]`; and a scalar spread to any shape. The index is
  written with the literal-size constructors `ix1`, `ix2`, so that each lemma applies to a printed operation by
  unification.
-/
import Idealize.ShloMosaic.Lib.Pipeline.Value
import Idealize.ShloMosaic.Lib.ValueIdx

namespace Idealize.ShloMosaic.ValueIdx

open Idealize.ShloMosaic

variable {α : Type}

/-- A column `[a, 1]` spread to `[a, b]` (axes kept in place) reads, at `(p, q)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply _ h x (ix2 p q) (ix2 p (0 : Fin 1)) (fun ax => match ax with
    | ⟨0, _⟩ => by
      show p.val = if a = 1 then 0 else p.val
      split
      · have := p.isLt; omega
      · rfl
    | ⟨1, _⟩ => by show 0 = if (1 : Nat) = 1 then 0 else q.val; rw [if_pos rfl])

/-- A row `[1, b]` spread to `[a, b]` (axes kept in place) reads, at `(p, q)`, the row's entry of column `q`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply _ h x (ix2 p q) (ix2 (0 : Fin 1) q) (fun ax => match ax with
    | ⟨0, _⟩ => by show 0 = if (1 : Nat) = 1 then 0 else p.val; rw [if_pos rfl]
    | ⟨1, _⟩ => by
      show q.val = if b = 1 then 0 else q.val
      split
      · have := q.isLt; omega
      · rfl)

/-- A vector `[b]` laid as the row `[1, b]` reads, at `(u, q)`, the vector's entry `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x (ix2 u q) (ix1 q) (fun ax => match ax with
    | ⟨0, _⟩ => by
      show q.val = if b = 1 then 0 else q.val
      split
      · have := q.isLt; omega
      · rfl)

/-- A scalar spread to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 (fun ax => ax.elim0)

end Idealize.ShloMosaic.ValueIdx
-- ==== Proof.Value0.lean ====
/-
  What the first call leaves in its two result arrays: per row, the smallest similarity over that row's positive pairs
  and the largest over its negative pairs, each as a column. The grid walks a row block's eight column blocks in turn
  and the running minimum (maximum) after the last of them is the minimum (maximum) over all 8192 columns, which is
  the reference's row reduction.
-/
import proofs.«174246_j52381421142559_1_alg».proof.Proof.KernelIdeal.Data0
import proofs.«174246_j52381421142559_1_alg».proof.Proof.Gen.ReferenceIdeal.Read
import proofs.«174246_j52381421142559_1_alg».proof.Proof.LibExtremum
import proofs.«174246_j52381421142559_1_alg».proof.Proof.LibKeepdims
import proofs.«174246_j52381421142559_1_alg».proof.Proof.LibColumnVector
import proofs.«174246_j52381421142559_1_alg».proof.Proof.LibBroadcastInDim
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pairs

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

/-! ## Rows and columns of the array from a block's -/

/-- Row `p` of row block `ri`, as a row of the whole array. -/
def rowAt (ri : Fin 16) (p : Fin 512) : Fin 8192 := ⟨512 * ri.val + p.val, by have := ri.isLt; have := p.isLt; omega⟩

/-- Column `q` of column block `n`, as a column of the whole array. -/
def colAt (n : ℕ) (hn : n < 8) (q : Fin 1024) : Fin 8192 := ⟨1024 * n + q.val, by have := q.isLt; omega⟩

/-! ## Extremes over the first column blocks of a row -/

/-- The infimum of a row's entries over its first `n` column blocks of 1024 columns. -/
def headInf (f : Fin 8192 → EReal) (n : ℕ) : EReal := ⨅ k : Fin 8192, ⨅ (_ : k.val < 1024 * n), f k

/-- The supremum of a row's entries over its first `n` column blocks of 1024 columns. -/
def headSup (f : Fin 8192 → EReal) (n : ℕ) : EReal := ⨆ k : Fin 8192, ⨆ (_ : k.val < 1024 * n), f k

/-- Over no column block the infimum is +∞. -/
theorem headInf_zero (f : Fin 8192 → EReal) : headInf f 0 = ⊤ := by
  unfold headInf
  refine le_antisymm le_top (le_iInf fun k => le_iInf fun hk => ?_)
  exact absurd hk (by omega)

/-- Over no column block the supremum is −∞. -/
theorem headSup_zero (f : Fin 8192 → EReal) : headSup f 0 = ⊥ := by
  unfold headSup
  refine le_antisymm (iSup_le fun k => iSup_le fun hk => ?_) bot_le
  exact absurd hk (by omega)

/-- One more column block: the smaller of the infimum so far and the block's own infimum. -/
theorem headInf_succ (f : Fin 8192 → EReal) (n : ℕ) (hn : n < 8) :
    headInf f (n + 1) = min (headInf f n) (⨅ q : Fin 1024, f (colAt n hn q)) := by
  unfold headInf colAt
  apply le_antisymm
  · refine le_min (le_iInf fun k => le_iInf fun hk => ?_) (le_iInf fun q => ?_)
    · exact iInf₂_le k (by omega)
    · exact iInf₂_le (⟨1024 * n + q.val, by have := q.isLt; omega⟩ : Fin 8192) (by have := q.isLt; show 1024 * n + q.val < 1024 * (n + 1); omega)
  · refine le_iInf fun k => le_iInf fun hk => ?_
    by_cases h : k.val < 1024 * n
    · exact (min_le_left _ _).trans (iInf₂_le k h)
    · refine (min_le_right _ _).trans ((iInf_le _ (⟨k.val - 1024 * n, by omega⟩ : Fin 1024)).trans (le_of_eq ?_))
      exact congrArg f (Fin.ext (by show 1024 * n + (k.val - 1024 * n) = k.val; omega))

/-- One more column block: the larger of the supremum so far and the block's own supremum. -/
theorem headSup_succ (f : Fin 8192 → EReal) (n : ℕ) (hn : n < 8) :
    headSup f (n + 1) = max (headSup f n) (⨆ q : Fin 1024, f (colAt n hn q)) := by
  unfold headSup colAt
  apply le_antisymm
  · refine iSup_le fun k => iSup_le fun hk => ?_
    by_cases h : k.val < 1024 * n
    · exact (le_iSup₂ (f := fun (k : Fin 8192) (_ : k.val < 1024 * n) => f k) k h).trans (le_max_left _ _)
    · refine le_trans (le_trans (le_of_eq ?_) (le_iSup _ (⟨k.val - 1024 * n, by omega⟩ : Fin 1024))) (le_max_right _ _)
      exact congrArg f (Fin.ext (by show k.val = 1024 * n + (k.val - 1024 * n); omega))
  · refine max_le (iSup_le fun k => iSup_le fun hk => ?_) (iSup_le fun q => ?_)
    · exact le_iSup₂ (f := fun (k : Fin 8192) (_ : k.val < 1024 * (n + 1)) => f k) k (by omega)
    · exact le_iSup₂ (f := fun (k : Fin 8192) (_ : k.val < 1024 * (n + 1)) => f k) (⟨1024 * n + q.val, by have := q.isLt; omega⟩ : Fin 8192)
        (by have := q.isLt; show 1024 * n + q.val < 1024 * (n + 1); omega)

/-- Over all eight column blocks: the infimum of the whole row. -/
theorem headInf_eight (f : Fin 8192 → EReal) : headInf f 8 = ⨅ k, f k := by
  unfold headInf
  exact iInf_congr fun k => iInf_pos (by have := k.isLt; omega)

/-- Over all eight column blocks: the supremum of the whole row. -/
theorem headSup_eight (f : Fin 8192 → EReal) : headSup f 8 = ⨆ k, f k := by
  unfold headSup
  exact iSup_congr fun k => iSup_pos (by have := k.isLt; omega)

/-! ## The two payloads at a row -/

/-- A pair's entry in the minimum: the similarity where the labels agree and it is below the threshold, +∞ elsewhere. -/
def posEntry (x : Ideal .f32) (a b : BitVec 32) : Ideal .f32 :=
  Scalar.select (IntOp.andi (IntOp.cmpi .eq a b) (FloatOps.cmpf .olt x (FloatOps.ofBits .f32 0x3F7FFF58#32))) x
    (FloatOps.ofBits .f32 0x7F800000#32)

/-- A pair's entry in the maximum: the similarity where the labels differ, −∞ elsewhere. -/
def negEntry (x : Ideal .f32) (a b : BitVec 32) : Ideal .f32 :=
  Scalar.select (~~~(IntOp.cmpi .eq a b)) x (FloatOps.ofBits .f32 0xFF800000#32)

/-- Flipping a one-bit word with the word `1` is its complement. -/
theorem xori_one_eq_not (b : BitVec 1) : IntOp.xori b 1#1 = ~~~b := by
  rcases BitVec.eq_zero_or_eq_one b with h | h <;> subst h <;> decide

/-- The index over lane `q` of row `p` of a 512 × 1024 block. -/
theorem lane_row_index (h : S512x1024.Reduces [1] S512) (p : Fin 512) (q : Fin 1024) : h.lift (ix1 p) q = ix2 p q := by
  funext c
  match c with
  | ⟨0, _⟩ => rfl
  | ⟨1, _⟩ => rfl

/-- A lane minimum from +∞ of a 512 × 1024 block is, at row `p`, the infimum over the row's 1024 lanes. -/
theorem laneMin_row (src : FVec Ideal S512x1024 .f32) (h : S512x1024.Reduces [1] S512) (hφ : FKind.Formats .f32)
    (hacc : (0x7F800000#32 : BitVec 32) = FKind.minimumf.neutral .f32 hφ) (p : Fin 512) :
    (multiReduction .minimumf [1] S512 src 0x7F800000#32 h hφ hacc (ix1 p) : EReal) = ⨅ q : Fin 1024, (src (ix2 p q) : EReal) := by
  have e : (multiReduction .minimumf [1] S512 src 0x7F800000#32 h hφ hacc (ix1 p) : EReal)
      = (Finset.univ.filter fun i => h.drop i = ix1 p).fold min (⊤ : EReal) src := by
    rw [multiReduction_minimumf_eq_fold, Cert.Extremum.ofBits_posInf_f32]; rfl
  rw [e, h.fold_filter_drop_single min ⊤ src (ix1 p)]
  refine (Cert.Extremum.fold_min_top_univ _).trans ?_
  show (⨅ q : Fin 1024, src (h.lift (ix1 p) q)) = _
  exact iInf_congr fun q => congrArg src (lane_row_index h p q)

/-- A lane maximum from −∞ of a 512 × 1024 block is, at row `p`, the supremum over the row's 1024 lanes. -/
theorem laneMax_row (src : FVec Ideal S512x1024 .f32) (h : S512x1024.Reduces [1] S512) (hφ : FKind.Formats .f32)
    (hacc : (0xFF800000#32 : BitVec 32) = FKind.maximumf.neutral .f32 hφ) (p : Fin 512) :
    (multiReduction .maximumf [1] S512 src 0xFF800000#32 h hφ hacc (ix1 p) : EReal) = ⨆ q : Fin 1024, (src (ix2 p q) : EReal) := by
  have e : (multiReduction .maximumf [1] S512 src 0xFF800000#32 h hφ hacc (ix1 p) : EReal)
      = (Finset.univ.filter fun i => h.drop i = ix1 p).fold max (⊥ : EReal) src := by
    rw [multiReduction_maximumf_eq_fold, Cert.Extremum.ofBits_negInf_f32]; rfl
  rw [e, h.fold_filter_drop_single max ⊥ src (ix1 p)]
  refine (Cert.Extremum.fold_max_bot_univ _).trans ?_
  show (⨆ q : Fin 1024, src (h.lift (ix1 p) q)) = _
  exact iSup_congr fun q => congrArg src (lane_row_index h p q)

/-- The label mask at a pair: the row's label against the column's. -/
theorem pay3_at (x1 : Vec Ideal S512x1 .i32) (x2 : Vec Ideal S1x1024 .i32) (p : Fin 512) (q : Fin 1024) :
    k0_pay3 (F := Ideal) x1 x2 (ix2 p q) = IntOp.cmpi .eq (x1 (ix2 p (0 : Fin 1))) (x2 (ix2 (0 : Fin 1) q)) := by
  unfold k0_pay3
  show IntOp.cmpi .eq (broadcastTo S512x1024 (shapeCast S512x1 x1 shapeCasts_S512x1_S512x1) broadcasts_S512x1_S512x1024 (ix2 p q))
      (broadcastTo S512x1024 (shapeCast S1x1024 x2 shapeCasts_S1x1024_S1x1024) broadcasts_S1x1024_S512x1024 (ix2 p q)) = _
  rw [broadcastTo_a1_ab_apply, broadcastTo_1b_ab_apply, shapeCast_self, shapeCast_self]

/-- The running minimum after a block, at a row: the smaller of what it held and the infimum of the row's entries in
    the block. -/
theorem pay4_row (x0 : Vec Ideal S512x1024 .f32) (x1 : Vec Ideal S512x1 .i32) (x2 : Vec Ideal S1x1024 .i32)
    (s : Vec Ideal S512x1 .f32) (p : Fin 512) (u : Fin 1) :
    (k0_pay4 (F := Ideal) x0 x1 x2 s (ix2 p u) : EReal)
      = min (s (ix2 p u) : EReal) (⨅ q : Fin 1024, (posEntry (x0 (ix2 p q)) (x1 (ix2 p (0 : Fin 1))) (x2 (ix2 (0 : Fin 1) q)) : EReal)) := by
  unfold k0_pay4
  rw [shapeCast_self]
  rw [minimumf_apply, shapeCast_a_a1_apply]
  refine congrArg (min (s (ix2 p u) : EReal)) ((laneMin_row _ _ _ _ p).trans (iInf_congr fun q => ?_))
  rw [select_apply]
  show Scalar.select (IntOp.andi (k0_pay3 (F := Ideal) x1 x2 (ix2 p q))
      (FloatOps.cmpf (F := Ideal) .olt (x0 (ix2 p q)) (FloatOps.ofBits (F := Ideal) .f32 0x3F7FFF58#32)))
    (x0 (ix2 p q)) (FloatOps.ofBits (F := Ideal) .f32 0x7F800000#32) = _
  rw [pay3_at]
  rfl

/-- The running maximum after a block, at a row: the larger of what it held and the supremum of the row's entries in
    the block. -/
theorem pay5_row (x0 : Vec Ideal S512x1024 .f32) (x1 : Vec Ideal S512x1 .i32) (x2 : Vec Ideal S1x1024 .i32)
    (s : Vec Ideal S512x1 .f32) (p : Fin 512) (u : Fin 1) :
    (k0_pay5 (F := Ideal) x0 x1 x2 s (ix2 p u) : EReal)
      = max (s (ix2 p u) : EReal) (⨆ q : Fin 1024, (negEntry (x0 (ix2 p q)) (x1 (ix2 p (0 : Fin 1))) (x2 (ix2 (0 : Fin 1) q)) : EReal)) := by
  unfold k0_pay5
  rw [shapeCast_self]
  rw [maximumf_apply, shapeCast_a_a1_apply]
  refine congrArg (max (s (ix2 p u) : EReal)) ((laneMax_row _ _ _ _ p).trans (iSup_congr fun q => ?_))
  rw [select_apply]
  show Scalar.select (IntOp.xori (k0_pay3 (F := Ideal) x1 x2 (ix2 p q)) 1#1) (x0 (ix2 p q)) (FloatOps.ofBits (F := Ideal) .f32 0xFF800000#32) = _
  rw [pay3_at, xori_one_eq_not]
  rfl

/-- What the running minimum is reset to, at a row: +∞. -/
theorem pay1_row (p : Fin 512) (u : Fin 1) : (k0_pay1 (F := Ideal) (ix2 p u) : EReal) = ⊤ := by
  unfold k0_pay1
  rw [shapeCast_self]
  exact Cert.Extremum.ofBits_posInf_f32

/-- What the running maximum is reset to, at a row: −∞. -/
theorem pay2_row (p : Fin 512) (u : Fin 1) : (k0_pay2 (F := Ideal) (ix2 p u) : EReal) = ⊥ := by
  unfold k0_pay2
  rw [shapeCast_self]
  exact Cert.Extremum.ofBits_negInf_f32

/-! ## The blocks a point reads, in the arrays' own coordinates -/

variable (V : (c : Dev nD) → (b : Ref sig .tc) → Buf (Elt Ideal) ((c : Thread nD τ).loc b))

/-- The printed index maps over the grid: point `t` is column block `t % 8` of row block `t / 8`. -/
theorem idx_facts0 : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

/-- The similarity block at a point reads the array at the block's rows and columns. -/
theorem simBlk_at (c : Dev nD) (sim : (⟨S8192x8192, .f32⟩ : BufTy).Contents (Elt Ideal)) (hsim : V c main_arg0 = sim)
    (t : Fin cfg0.N) (ri : Fin 16) (ci : Fin 8) (ht : t.val = 8 * ri.val + ci.val) (p : Fin 512) (q : Fin 1024) :
    (iblk0 (F := Ideal) V c 0 t : Vec Ideal S512x1024 .f32) (ix2 p q) = sim (ix2 (rowAt ri p) (colAt ci.val ci.isLt q)) := by
  obtain ⟨e0, e1, -⟩ := idx_facts0 t
  have hci := ci.isLt
  unfold iblk0
  rw [View.read_apply]
  show V c main_arg0 (((cfg0.win 0).blk t).view.emb (ix2 p q)) = _
  rw [hsim]
  refine congrArg sim (funext fun a => Fin.ext ?_)
  match a with
  | ⟨0, _⟩ => show win0_0.index t (0 : Fin 2) * 512 + 1 * p.val = 512 * ri.val + p.val; rw [e0]; omega
  | ⟨1, _⟩ => show win0_0.index t (1 : Fin 2) * 1024 + 1 * q.val = 1024 * ci.val + q.val; rw [e1]; omega

/-- The row labels' block at a point reads the labels of the block's rows. -/
theorem rowLab_at (c : Dev nD) (lab : (⟨S8192, .i32⟩ : BufTy).Contents (Elt Ideal))
    (hrow : V c main_v0 = Cert.ReferenceIdeal.Read.val_main_v0 (F := Ideal) lab)
    (t : Fin cfg0.N) (ri : Fin 16) (ci : Fin 8) (ht : t.val = 8 * ri.val + ci.val) (p : Fin 512) :
    (iblk0 (F := Ideal) V c 1 t : Vec Ideal S512x1 .i32) (ix2 p (0 : Fin 1)) = lab (ix1 (rowAt ri p)) := by
  obtain ⟨-, -, e0, e1, -⟩ := idx_facts0 t
  have hci := ci.isLt
  unfold iblk0
  rw [View.read_apply]
  show V c main_v0 (((cfg0.win 1).blk t).view.emb (ix2 p (0 : Fin 1))) = _
  rw [hrow, Cert.ReferenceIdeal.Read.val_main_v0_apply]
  refine congrArg lab (funext fun a => Fin.ext ?_)
  match a with
  | ⟨0, _⟩ => show win0_1.index t (0 : Fin 2) * 512 + 1 * p.val = 512 * ri.val + p.val; rw [e0]; omega

/-- The column labels' block at a point reads the labels of the block's columns. -/
theorem colLab_at (c : Dev nD) (lab : (⟨S8192, .i32⟩ : BufTy).Contents (Elt Ideal))
    (hcol : V c main_v1 = Cert.ReferenceIdeal.Read.val_main_v1 (F := Ideal) lab)
    (t : Fin cfg0.N) (ri : Fin 16) (ci : Fin 8) (ht : t.val = 8 * ri.val + ci.val) (q : Fin 1024) :
    (iblk0 (F := Ideal) V c 2 t : Vec Ideal S1x1024 .i32) (ix2 (0 : Fin 1) q) = lab (ix1 (colAt ci.val ci.isLt q)) := by
  obtain ⟨-, -, -, -, e0, e1, -⟩ := idx_facts0 t
  have hci := ci.isLt
  unfold iblk0
  rw [View.read_apply]
  show V c main_v1 (((cfg0.win 2).blk t).view.emb (ix2 (0 : Fin 1) q)) = _
  rw [hcol, Cert.ReferenceIdeal.Read.val_main_v1_apply]
  refine congrArg lab (funext fun a => Fin.ext ?_)
  match a with
  | ⟨0, _⟩ => show win0_2.index t (1 : Fin 2) * 1024 + 1 * q.val = 1024 * ci.val + q.val; rw [e1]; omega

/-! ## The running extremes after each point -/

/-- Row `r`'s entries in the minimum, column by column. -/
def posRow (sim : (⟨S8192x8192, .f32⟩ : BufTy).Contents (Elt Ideal)) (lab : (⟨S8192, .i32⟩ : BufTy).Contents (Elt Ideal))
    (r : Fin 8192) : Fin 8192 → EReal :=
  fun k => posEntry (sim (ix2 r k)) (lab (ix1 r)) (lab (ix1 k))

/-- Row `r`'s entries in the maximum, column by column. -/
def negRow (sim : (⟨S8192x8192, .f32⟩ : BufTy).Contents (Elt Ideal)) (lab : (⟨S8192, .i32⟩ : BufTy).Contents (Elt Ideal))
    (r : Fin 8192) : Fin 8192 → EReal :=
  fun k => negEntry (sim (ix2 r k)) (lab (ix1 r)) (lab (ix1 k))

/-- One point's update of the running minimum, at a row: from the infimum over the column blocks before `ci` to the
    infimum over those up to `ci`. -/
theorem runMin_step (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab)
    (t : Fin cfg0.N) (ri : Fin 16) (ci : Fin 8) (ht : t.val = 8 * ri.val + ci.val) (p : Fin 512)
    (S : Vec Ideal S512x1 .f32 × Vec Ideal S512x1 .f32)
    (hS : (S.1 (ix2 p (0 : Fin 1)) : EReal) = headInf (posRow sim lab (rowAt ri p)) ci.val) :
    ((upd0 (F := Ideal) (iblk0 V c 0 t) (iblk0 V c 1 t) (iblk0 V c 2 t) S).1 (ix2 p (0 : Fin 1)) : EReal)
      = headInf (posRow sim lab (rowAt ri p)) (ci.val + 1) := by
  show (k0_pay4 (F := Ideal) (iblk0 V c 0 t) (iblk0 V c 1 t) (iblk0 V c 2 t) S.1 (ix2 p (0 : Fin 1)) : EReal) = _
  refine (pay4_row (iblk0 V c 0 t) (iblk0 V c 1 t) (iblk0 V c 2 t) S.1 p (0 : Fin 1)).trans ?_
  rw [headInf_succ _ ci.val ci.isLt, hS]
  refine congrArg (min _) (iInf_congr fun q => ?_)
  rw [simBlk_at V c sim hsim t ri ci ht p q, rowLab_at V c lab hrow t ri ci ht p, colLab_at V c lab hcol t ri ci ht q]
  rfl

/-- After column block `ci` of row block `ri` the running minimum of a row is the infimum of the row's entries over
    the column blocks up to `ci`. -/
theorem runMin_eq (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab) :
    ∀ (n : ℕ) (hn : n < cfg0.N) (ri : Fin 16) (ci : Fin 8) (ht : n = 8 * ri.val + ci.val) (p : Fin 512),
      ((accAt0 (F := Ideal) V c n hn).1 (ix2 p (0 : Fin 1)) : EReal) = headInf (posRow sim lab (rowAt ri p)) (ci.val + 1) := by
  have first : ∀ (t : Fin cfg0.N) (h0 : t.val % 8 = 0) (ri : Fin 16) (ci : Fin 8) (ht : t.val = 8 * ri.val + ci.val) (p : Fin 512),
      ((accAt0 (F := Ideal) V c t.val t.isLt).1 (ix2 p (0 : Fin 1)) : EReal) = headInf (posRow sim lab (rowAt ri p)) (ci.val + 1) := by
    intro t h0 ri ci ht p
    have hci : ci.val = 0 := by have := ci.isLt; omega
    rw [accAt0_first V c t h0]
    refine runMin_step V c sim lab hsim hrow hcol t ri ci ht p init0 ?_
    rw [hci, headInf_zero]
    exact pay1_row p (0 : Fin 1)
  intro n
  induction n with
  | zero => intro hn ri ci ht p; exact first ⟨0, hn⟩ rfl ri ci ht p
  | succ n ih =>
    intro hn ri ci ht p
    by_cases h0 : (n + 1) % 8 = 0
    · exact first ⟨n + 1, hn⟩ h0 ri ci ht p
    · have hci := ci.isLt
      have hc1 : 1 ≤ ci.val := by omega
      rw [accAt0_next V c ⟨n + 1, hn⟩ h0]
      refine runMin_step V c sim lab hsim hrow hcol ⟨n + 1, hn⟩ ri ci ht p _ ?_
      have := ih (Nat.lt_of_succ_lt hn) ri ⟨ci.val - 1, by omega⟩ (by show n = 8 * ri.val + (ci.val - 1); omega) p
      rw [show ci.val = (ci.val - 1) + 1 from by omega]
      exact this

/-! ## The reference's two row reductions at a row -/

/-- The reference's column of row minima reads, at row `r`, the infimum of the row's entries over all columns. -/
theorem refMin_at (sim : (⟨S8192x8192, .f32⟩ : BufTy).Contents (Elt Ideal)) (lab : (⟨S8192, .i32⟩ : BufTy).Contents (Elt Ideal))
    (r : Fin 8192) (u : Fin 1) :
    (Cert.ReferenceIdeal.Read.val_main_v15 (F := Ideal) sim lab (ix2 r u) : EReal) = ⨅ k : Fin 8192, posRow sim lab r k := by
  have h : Cert.ReferenceIdeal.S8192x8192.Reduces [1] Cert.ReferenceIdeal.S8192 := by decide
  rw [Cert.ReferenceIdeal.Read.val_main_v15_apply]
  unfold Cert.ReferenceIdeal.Read.val_main_v10
  refine (Cert.Extremum.hostReduce_min_single _ _ _ h _ Cert.Extremum.ofBits_posInf_f32 _).trans ?_
  show (⨅ k : Fin 8192, (Cert.ReferenceIdeal.Read.val_main_v9 (F := Ideal) sim lab (h.lift (Cert.ReferenceIdeal.Read.idx_main_v15 (ix2 r u)) k) : EReal)) = _
  refine iInf_congr fun k => ?_
  have e : h.lift (Cert.ReferenceIdeal.Read.idx_main_v15 (ix2 r u)) k = ix2 r k := by
    funext a
    match a with
    | ⟨0, _⟩ => rfl
    | ⟨1, _⟩ => rfl
  have i0 : Cert.ReferenceIdeal.Read.idx_main_v0 (Cert.ReferenceIdeal.Read.idx_main_v2 (ix2 r k)) = ix1 r := by
    funext a
    match a with
    | ⟨0, _⟩ => rfl
  have i1 : Cert.ReferenceIdeal.Read.idx_main_v1 (Cert.ReferenceIdeal.Read.idx_main_v3 (ix2 r k)) = ix1 k := by
    funext a
    match a with
    | ⟨0, _⟩ => rfl
  rw [e, Cert.ReferenceIdeal.Read.val_main_v9_apply, Cert.ReferenceIdeal.Read.val_main_v7_apply,
    Cert.ReferenceIdeal.Read.val_main_v4_apply, Cert.ReferenceIdeal.Read.val_main_v6_apply,
    Cert.ReferenceIdeal.Read.val_main_v2_apply, Cert.ReferenceIdeal.Read.val_main_v3_apply,
    Cert.ReferenceIdeal.Read.val_main_v0_apply, Cert.ReferenceIdeal.Read.val_main_v1_apply,
    Cert.ReferenceIdeal.Read.val_main_v5_apply, Cert.ReferenceIdeal.Read.val_main_cst_apply,
    Cert.ReferenceIdeal.Read.val_main_call0_v1_apply, Cert.ReferenceIdeal.Read.val_main_call0_v0_apply,
    Cert.ReferenceIdeal.Read.val_main_cst_0_apply, i0, i1]
  rfl

/-! ## From the flushed blocks to the two result arrays -/

/-- A point of the grid as a row block and a column block. -/
theorem point_split (t : Fin cfg0.N) : ∃ (ri : Fin 16) (ci : Fin 8), t.val = 8 * ri.val + ci.val := by
  have hN : t.val < 128 := lt_of_lt_of_eq t.isLt N_0
  exact ⟨⟨t.val / 8, by omega⟩, ⟨t.val % 8, by omega⟩, by show t.val = 8 * (t.val / 8) + t.val % 8; omega⟩

/-- What a last column block writes back to the first result array is its block of the reference's column of minima. -/
theorem flushedMin_eq (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab)
    (t : Fin cfg0.N) (h7 : t.val % 8 = 7) :
    (dat0 (F := Ideal) V c).flushed 3 t
      = ((cfg0.win 3).blk t).view.read (Elt Ideal) (Cert.ReferenceIdeal.Read.val_main_v15 (F := Ideal) sim lab) := by
  obtain ⟨ri, ci, ht⟩ := point_split t
  have hci : ci.val + 1 = 8 := by have := ci.isLt; omega
  obtain ⟨-, -, -, -, -, -, e0, e1, -⟩ := idx_facts0 t
  show (cfg0.win 3).cut (grid0.coords t) ((dat0 V c).after 3 t) = _
  rw [after0_3]
  funext y
  obtain ⟨p, u, rfl⟩ : ∃ (p : Fin 512) (u : Fin 1), y = ix2 p u := ⟨y 0, y 1, eq_ix2 y⟩
  obtain rfl : u = 0 := Subsingleton.elim _ _
  rw [View.read_apply]
  have hx : (cfg0.win 3).xinj (grid0.coords t) (ix2 p (0 : Fin 1)) = ix2 p (0 : Fin 1) :=
    funext fun a => Fin.ext (by match a with | ⟨0, _⟩ => rfl | ⟨1, _⟩ => rfl)
  have he : ((cfg0.win 3).blk t).view.emb (ix2 p (0 : Fin 1)) = ix2 (rowAt ri p) (0 : Fin 1) := funext fun a => Fin.ext (by
    match a with
    | ⟨0, _⟩ => show win0_3.index t (0 : Fin 2) * 512 + 1 * p.val = 512 * ri.val + p.val; rw [e0]; omega
    | ⟨1, _⟩ => show win0_3.index t (1 : Fin 2) * 1 + 1 * 0 = 0; rw [e1])
  rw [he]
  refine Eq.trans (congrArg (accAt0 (F := Ideal) V c t.val t.isLt).1 hx) (Eq.trans ?_ (cast_eq _ _).symm)
  rw [refMin_at, runMin_eq V c sim lab hsim hrow hcol t.val t.isLt ri ci ht p, hci, headInf_eight]

/-- Every row of the first result array lies in the block its row block's last column block writes back. -/
theorem cover3 (i : S8192x1.Idx) : ∃ t : Fin cfg0.N, (cfg0.win 3).flush t = true ∧ i ∈ ((cfg0.win 3).blk t).view.set := by
  have hi0 : (i 0).val < 8192 := idx2_lt0 i
  have hi1 : (i 1).val < 1 := idx2_lt1 i
  have hN : cfg0.N = 128 := N_0
  obtain ⟨t, tv⟩ : ∃ t : Fin cfg0.N, t.val = 8 * ((i 0).val / 512) + 7 := ⟨⟨8 * ((i 0).val / 512) + 7, by rw [hN]; omega⟩, rfl⟩
  obtain ⟨-, -, -, -, -, -, e0, e1, -⟩ := idx_facts0 t
  refine ⟨t, (flush0_3 t).mpr (by rw [tv]; omega), ?_⟩
  show i ∈ ((View.whole main_v2_0).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [e0, tv]; omega
  | ⟨1, _⟩ =>
    show win0_3.index t (1 : Fin 2) * 1 ≤ (i 1).val ∧ (i 1).val < win0_3.index t (1 : Fin 2) * 1 + 1
    rw [e1]; omega

/-- The first result array after the call: the per-row minimum over positive pairs, as a column. -/
theorem minPos_col (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab) :
    (dat0 (F := Ideal) V c).arrAt 3 cfg0.N = Cert.ReferenceIdeal.Read.val_main_v15 (F := Ideal) sim lab :=
  Dat.arrAt_eq_of_cover (dat0 (F := Ideal) V c) 3 (Cert.ReferenceIdeal.Read.val_main_v15 (F := Ideal) sim lab)
    (fun t hf => flushedMin_eq V c sim lab hsim hrow hcol t ((flush0_3 t).mp hf)) cover3

/-! ## The maximum side: the same steps with supremum, −∞ and the second accumulator -/

/-- One point's update of the running maximum, at a row: from the supremum over the column blocks before `ci` to the
    supremum over those up to `ci`. -/
theorem runMax_step (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab)
    (t : Fin cfg0.N) (ri : Fin 16) (ci : Fin 8) (ht : t.val = 8 * ri.val + ci.val) (p : Fin 512)
    (S : Vec Ideal S512x1 .f32 × Vec Ideal S512x1 .f32)
    (hS : (S.2 (ix2 p (0 : Fin 1)) : EReal) = headSup (negRow sim lab (rowAt ri p)) ci.val) :
    ((upd0 (F := Ideal) (iblk0 V c 0 t) (iblk0 V c 1 t) (iblk0 V c 2 t) S).2 (ix2 p (0 : Fin 1)) : EReal)
      = headSup (negRow sim lab (rowAt ri p)) (ci.val + 1) := by
  show (k0_pay5 (F := Ideal) (iblk0 V c 0 t) (iblk0 V c 1 t) (iblk0 V c 2 t) S.2 (ix2 p (0 : Fin 1)) : EReal) = _
  refine (pay5_row (iblk0 V c 0 t) (iblk0 V c 1 t) (iblk0 V c 2 t) S.2 p (0 : Fin 1)).trans ?_
  rw [headSup_succ _ ci.val ci.isLt, hS]
  refine congrArg (max _) (iSup_congr fun q => ?_)
  rw [simBlk_at V c sim hsim t ri ci ht p q, rowLab_at V c lab hrow t ri ci ht p, colLab_at V c lab hcol t ri ci ht q]
  rfl

/-- After column block `ci` of row block `ri` the running maximum of a row is the supremum of the row's entries over
    the column blocks up to `ci`. -/
theorem runMax_eq (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab) :
    ∀ (n : ℕ) (hn : n < cfg0.N) (ri : Fin 16) (ci : Fin 8) (ht : n = 8 * ri.val + ci.val) (p : Fin 512),
      ((accAt0 (F := Ideal) V c n hn).2 (ix2 p (0 : Fin 1)) : EReal) = headSup (negRow sim lab (rowAt ri p)) (ci.val + 1) := by
  have first : ∀ (t : Fin cfg0.N) (h0 : t.val % 8 = 0) (ri : Fin 16) (ci : Fin 8) (ht : t.val = 8 * ri.val + ci.val) (p : Fin 512),
      ((accAt0 (F := Ideal) V c t.val t.isLt).2 (ix2 p (0 : Fin 1)) : EReal) = headSup (negRow sim lab (rowAt ri p)) (ci.val + 1) := by
    intro t h0 ri ci ht p
    have hci : ci.val = 0 := by have := ci.isLt; omega
    rw [accAt0_first V c t h0]
    refine runMax_step V c sim lab hsim hrow hcol t ri ci ht p init0 ?_
    rw [hci, headSup_zero]
    exact pay2_row p (0 : Fin 1)
  intro n
  induction n with
  | zero => intro hn ri ci ht p; exact first ⟨0, hn⟩ rfl ri ci ht p
  | succ n ih =>
    intro hn ri ci ht p
    by_cases h0 : (n + 1) % 8 = 0
    · exact first ⟨n + 1, hn⟩ h0 ri ci ht p
    · have hci := ci.isLt
      have hc1 : 1 ≤ ci.val := by omega
      rw [accAt0_next V c ⟨n + 1, hn⟩ h0]
      refine runMax_step V c sim lab hsim hrow hcol ⟨n + 1, hn⟩ ri ci ht p _ ?_
      have := ih (Nat.lt_of_succ_lt hn) ri ⟨ci.val - 1, by omega⟩ (by show n = 8 * ri.val + (ci.val - 1); omega) p
      rw [show ci.val = (ci.val - 1) + 1 from by omega]
      exact this

/-- The reference's column of row maxima reads, at row `r`, the supremum of the row's entries over all columns. -/
theorem refMax_at (sim : (⟨S8192x8192, .f32⟩ : BufTy).Contents (Elt Ideal)) (lab : (⟨S8192, .i32⟩ : BufTy).Contents (Elt Ideal))
    (r : Fin 8192) (u : Fin 1) :
    (Cert.ReferenceIdeal.Read.val_main_v21 (F := Ideal) sim lab (ix2 r u) : EReal) = ⨆ k : Fin 8192, negRow sim lab r k := by
  have h : Cert.ReferenceIdeal.S8192x8192.Reduces [1] Cert.ReferenceIdeal.S8192 := by decide
  rw [Cert.ReferenceIdeal.Read.val_main_v21_apply]
  unfold Cert.ReferenceIdeal.Read.val_main_v12
  refine (Cert.Extremum.hostReduce_max_single _ _ _ h _ Cert.Extremum.ofBits_negInf_f32 _).trans ?_
  show (⨆ k : Fin 8192, (Cert.ReferenceIdeal.Read.val_main_v11 (F := Ideal) sim lab (h.lift (Cert.ReferenceIdeal.Read.idx_main_v21 (ix2 r u)) k) : EReal)) = _
  refine iSup_congr fun k => ?_
  have e : h.lift (Cert.ReferenceIdeal.Read.idx_main_v21 (ix2 r u)) k = ix2 r k := by
    funext a
    match a with
    | ⟨0, _⟩ => rfl
    | ⟨1, _⟩ => rfl
  have i0 : Cert.ReferenceIdeal.Read.idx_main_v0 (Cert.ReferenceIdeal.Read.idx_main_v2 (ix2 r k)) = ix1 r := by
    funext a
    match a with
    | ⟨0, _⟩ => rfl
  have i1 : Cert.ReferenceIdeal.Read.idx_main_v1 (Cert.ReferenceIdeal.Read.idx_main_v3 (ix2 r k)) = ix1 k := by
    funext a
    match a with
    | ⟨0, _⟩ => rfl
  rw [e, Cert.ReferenceIdeal.Read.val_main_v11_apply, Cert.ReferenceIdeal.Read.val_main_v8_apply,
    Cert.ReferenceIdeal.Read.val_main_v4_apply,
    Cert.ReferenceIdeal.Read.val_main_v2_apply, Cert.ReferenceIdeal.Read.val_main_v3_apply,
    Cert.ReferenceIdeal.Read.val_main_v0_apply, Cert.ReferenceIdeal.Read.val_main_v1_apply,
    Cert.ReferenceIdeal.Read.val_main_call1_v1_apply, Cert.ReferenceIdeal.Read.val_main_call1_v0_apply,
    Cert.ReferenceIdeal.Read.val_main_cst_2_apply, i0, i1]
  rfl

/-- What a last column block writes back to the second result array is its block of the reference's column of maxima. -/
theorem flushedMax_eq (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab)
    (t : Fin cfg0.N) (h7 : t.val % 8 = 7) :
    (dat0 (F := Ideal) V c).flushed 4 t
      = ((cfg0.win 4).blk t).view.read (Elt Ideal) (Cert.ReferenceIdeal.Read.val_main_v21 (F := Ideal) sim lab) := by
  obtain ⟨ri, ci, ht⟩ := point_split t
  have hci : ci.val + 1 = 8 := by have := ci.isLt; omega
  obtain ⟨-, -, -, -, -, -, -, -, e0, e1⟩ := idx_facts0 t
  show (cfg0.win 4).cut (grid0.coords t) ((dat0 V c).after 4 t) = _
  rw [after0_4]
  funext y
  obtain ⟨p, u, rfl⟩ : ∃ (p : Fin 512) (u : Fin 1), y = ix2 p u := ⟨y 0, y 1, eq_ix2 y⟩
  obtain rfl : u = 0 := Subsingleton.elim _ _
  rw [View.read_apply]
  have hx : (cfg0.win 4).xinj (grid0.coords t) (ix2 p (0 : Fin 1)) = ix2 p (0 : Fin 1) :=
    funext fun a => Fin.ext (by match a with | ⟨0, _⟩ => rfl | ⟨1, _⟩ => rfl)
  have he : ((cfg0.win 4).blk t).view.emb (ix2 p (0 : Fin 1)) = ix2 (rowAt ri p) (0 : Fin 1) := funext fun a => Fin.ext (by
    match a with
    | ⟨0, _⟩ => show win0_4.index t (0 : Fin 2) * 512 + 1 * p.val = 512 * ri.val + p.val; rw [e0]; omega
    | ⟨1, _⟩ => show win0_4.index t (1 : Fin 2) * 1 + 1 * 0 = 0; rw [e1])
  rw [he]
  refine Eq.trans (congrArg (accAt0 (F := Ideal) V c t.val t.isLt).2 hx) (Eq.trans ?_ (cast_eq _ _).symm)
  rw [refMax_at, runMax_eq V c sim lab hsim hrow hcol t.val t.isLt ri ci ht p, hci, headSup_eight]

/-- Every row of the second result array lies in the block its row block's last column block writes back. -/
theorem cover4 (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  have hN : cfg0.N = 128 := N_0
  obtain ⟨t, tv⟩ : ∃ t : Fin cfg0.N, t.val = 8 * ((i 0).val / 512) + 7 := ⟨⟨8 * ((i 0).val / 512) + 7, by rw [hN]; omega⟩, rfl⟩
  obtain ⟨-, -, -, -, -, -, -, -, e0, e1⟩ := idx_facts0 t
  refine ⟨t, (flush0_4 t).mpr (by rw [tv]; omega), ?_⟩
  show i ∈ ((View.whole main_v2_1).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [e0, tv]; omega
  | ⟨1, _⟩ =>
    show win0_4.index t (1 : Fin 2) * 1 ≤ (i 1).val ∧ (i 1).val < win0_4.index t (1 : Fin 2) * 1 + 1
    rw [e1]; omega

/-- The second result array after the call: the per-row maximum over negative pairs, as a column. -/
theorem maxNeg_col (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab) :
    (dat0 (F := Ideal) V c).arrAt 4 cfg0.N = Cert.ReferenceIdeal.Read.val_main_v21 (F := Ideal) sim lab :=
  Dat.arrAt_eq_of_cover (dat0 (F := Ideal) V c) 4 (Cert.ReferenceIdeal.Read.val_main_v21 (F := Ideal) sim lab)
    (fun t hf => flushedMax_eq V c sim lab hsim hrow hcol t ((flush0_4 t).mp hf)) cover4

end Cert.KernelIdeal.Pairs

end
-- ==== Proof.PairTerms.lean ====
/-
  The pairs of a row, one entry at a time. A pair (row, column) of the similarity matrix is a selected positive pair when
  the two labels agree, the similarity is below the cut-off just under one, and the similarity less the margin is below
  the row's largest negative similarity; it is a selected negative pair when the labels differ and the similarity plus
  the margin is above the row's smallest positive similarity. A selected positive pair contributes exp(-2 (s - 1/2)) to
  the row's positive sum, a selected negative pair exp(40 (s - 1/2)) to its negative sum; any other pair contributes zero.
  The row's loss is log(1 + positive sum) / 2 + log(1 + negative sum) / 40 when the row has both a selected positive and a
  selected negative pair, and zero otherwise. Every constant is kept as its 32-bit word.
-/
import Idealize.ShloMosaic.PureOps.Ideal.Laws
import Idealize.ShloMosaic.Lib.ValueIdx

noncomputable section

namespace Cert.KernelIdeal.Pairs

open Idealize.ShloMosaic

/-- Whether a pair is a selected positive pair: equal labels, similarity below the cut-off, similarity less the margin
    below the row's largest negative similarity `mx`. -/
def selPos (a : Ideal .f32) (rl cl : BitVec 32) (mx : Ideal .f32) : BitVec 1 :=
  IntOp.andi (IntOp.andi (IntOp.cmpi .eq rl cl) (FloatOps.cmpf .olt a (FloatOps.ofBits .f32 0x3F7FFF58#32)))
    (FloatOps.cmpf .olt (FloatOps.subf a (FloatOps.ofBits .f32 0x3DCCCCCD#32)) mx)

/-- Whether a pair is a selected negative pair: different labels, similarity plus the margin above the row's smallest
    positive similarity `mn`. -/
def selNeg (a : Ideal .f32) (rl cl : BitVec 32) (mn : Ideal .f32) : BitVec 1 :=
  IntOp.andi (IntOp.xori (IntOp.cmpi .eq rl cl) 1#1)
    (FloatOps.cmpf .ogt (FloatOps.addf a (FloatOps.ofBits .f32 0x3DCCCCCD#32)) mn)

/-- What a pair adds to its row's positive sum: exp(-2 (s - 1/2)) when selected (bit `b`), else zero. -/
def posTerm (a : Ideal .f32) (b : BitVec 1) : Ideal .f32 :=
  Scalar.select b
    (FloatOps.exp (FloatOps.mulf (FloatOps.ofBits .f32 0xC0000000#32) (FloatOps.subf a (FloatOps.ofBits .f32 0x3F000000#32))))
    (FloatOps.ofBits .f32 0x00000000#32)

/-- What a pair adds to its row's negative sum: exp(40 (s - 1/2)) when selected (bit `b`), else zero. -/
def negTerm (a : Ideal .f32) (b : BitVec 1) : Ideal .f32 :=
  Scalar.select b
    (FloatOps.exp (FloatOps.mulf (FloatOps.ofBits .f32 0x42200000#32) (FloatOps.subf a (FloatOps.ofBits .f32 0x3F000000#32))))
    (FloatOps.ofBits .f32 0x00000000#32)

/-- The row's loss from its two sums and the bit saying whether it counts. -/
def rowLoss (P N : Ideal .f32) (valid : BitVec 1) : Ideal .f32 :=
  Scalar.select valid
    (FloatOps.addf (FloatOps.divf (FloatOps.log1p P) (FloatOps.ofBits .f32 0x40000000#32))
      (FloatOps.divf (FloatOps.log1p N) (FloatOps.ofBits .f32 0x42200000#32)))
    (FloatOps.ofBits .f32 0x00000000#32)

/-- Negating a bit is flipping it against the set bit. -/
theorem not_eq_xor_one (b : BitVec 1) : ~~~b = IntOp.xori b 1#1 := by
  rcases BitVec.eq_zero_or_eq_one b with h | h <;> subst h <;> decide

/-- The conjunction of two bits does not depend on their order. -/
theorem andi_comm1 (a b : BitVec 1) : IntOp.andi a b = IntOp.andi b a := BitVec.and_comm a b

end Cert.KernelIdeal.Pairs

end
-- ==== Proof.BlockStep.lean ====
/-
  One column block's contribution to a row of the second call, read one row at a time. From a block of similarities, the
  row labels, the block's column labels and the per-row minimum and maximum, the body's masks at (row, lane) are the
  selected-negative and selected-positive bits of that pair; its two lane sums are the sums over the block's 1024 lanes of
  what each pair contributes; and the running sums after the block are the sums before it plus those.
-/
import proofs.«174246_j52381421142559_1_alg».proof.Proof.KernelIdeal.Run1
import proofs.«174246_j52381421142559_1_alg».proof.Proof.PairTerms
import proofs.«174246_j52381421142559_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pairs

open Cert.KernelIdeal Cert.KernelIdeal.Gen
open Idealize.ShloMosaic Idealize.ShloMosaic.TcCoe
open Idealize.ShloMosaic.ValueIdx

/-- Putting lane `l` back into the reduced index `p` of a row reduction of a `[512, 1024]` block gives `(p, l)`. -/
theorem rowLift (p : Fin 512) (l : Fin 1024) : (reduces_S512x1024_S512).lift (ix1 p) l = ix2 p l := by
  funext a
  match a with
  | ⟨0, _⟩ => exact Fin.ext rfl
  | ⟨1, _⟩ => exact Fin.ext rfl

/-- The label-equality mask at (row, lane): the row's label against the lane's. -/
theorem k1_pay7_apply (x1 : Vec Ideal S512x1 .i32) (x2 : Vec Ideal S1x1024 .i32) (p : Fin 512) (l : Fin 1024) :
    k1_pay7 (F := Ideal) x1 x2 (ix2 p l) = IntOp.cmpi .eq (x1 (ix2 p (0 : Fin 1))) (x2 (ix2 (0 : Fin 1) l)) := by
  unfold k1_pay7
  exact congrArg₂ (IntOp.cmpi .eq)
    ((broadcastTo_a1_ab_apply _ _ p l).trans (congrFun (shapeCast_self x1 _) _))
    ((broadcastTo_1b_ab_apply _ _ p l).trans (congrFun (shapeCast_self x2 _) _))

/-- The selected-negative mask at (row, lane). -/
theorem k1_pay8_apply (x0 : Vec Ideal S512x1024 .f32) (x1 : Vec Ideal S512x1 .i32) (x2 : Vec Ideal S1x1024 .i32)
    (x3 : Vec Ideal S512x1 .f32) (p : Fin 512) (l : Fin 1024) :
    k1_pay8 (F := Ideal) x0 x1 x2 x3 (ix2 p l)
      = selNeg (x0 (ix2 p l)) (x1 (ix2 p (0 : Fin 1))) (x2 (ix2 (0 : Fin 1) l)) (x3 (ix2 p (0 : Fin 1))) := by
  unfold k1_pay8 selNeg
  exact congrArg₂ IntOp.andi (congrArg₂ IntOp.xori (k1_pay7_apply x1 x2 p l) rfl)
    (congrArg₂ (FloatOps.cmpf .ogt) rfl ((broadcastTo_a1_ab_apply _ _ p l).trans (congrFun (shapeCast_self x3 _) _)))

/-- The selected-positive mask at (row, lane). -/
theorem k1_pay9_apply (x0 : Vec Ideal S512x1024 .f32) (x1 : Vec Ideal S512x1 .i32) (x2 : Vec Ideal S1x1024 .i32)
    (x4 : Vec Ideal S512x1 .f32) (p : Fin 512) (l : Fin 1024) :
    k1_pay9 (F := Ideal) x0 x1 x2 x4 (ix2 p l)
      = selPos (x0 (ix2 p l)) (x1 (ix2 p (0 : Fin 1))) (x2 (ix2 (0 : Fin 1) l)) (x4 (ix2 p (0 : Fin 1))) := by
  unfold k1_pay9 selPos
  exact congrArg₂ IntOp.andi (congrArg₂ IntOp.andi (k1_pay7_apply x1 x2 p l) rfl)
    (congrArg₂ (FloatOps.cmpf .olt) rfl ((broadcastTo_a1_ab_apply _ _ p l).trans (congrFun (shapeCast_self x4 _) _)))

/-- The block's positive lane sum at a row: the sum over the lanes of what each pair adds. -/
theorem k1_pay10_apply (x0 : Vec Ideal S512x1024 .f32) (x1 : Vec Ideal S512x1 .i32) (x2 : Vec Ideal S1x1024 .i32)
    (x4 : Vec Ideal S512x1 .f32) (p : Fin 512) :
    k1_pay10 (F := Ideal) x0 x1 x2 x4 (ix1 p)
      = ∑ l : Fin 1024, posTerm (x0 (ix2 p l))
          (selPos (x0 (ix2 p l)) (x1 (ix2 p (0 : Fin 1))) (x2 (ix2 (0 : Fin 1) l)) (x4 (ix2 p (0 : Fin 1)))) := by
  unfold k1_pay10
  refine (Ideal.multiReduction_add_single (φ := .f32) _ 0x00000000#32 reduces_S512x1024_S512 (.inl rfl) rfl (ix1 p)).trans ?_
  refine Finset.sum_congr rfl fun (l : Fin 1024) _ => ?_
  rw [rowLift p l]
  exact congrArg (fun b => posTerm (x0 (ix2 p l)) b) (k1_pay9_apply x0 x1 x2 x4 p l)

/-- The positive running sum after a block, at a row: the sum before it plus the block's lane sum. -/
theorem k1_pay11_apply (v : FVec Ideal S512 .f32) (s : Vec Ideal S512x1 .f32) (p : Fin 512) :
    k1_pay11 (F := Ideal) v s (ix2 p (0 : Fin 1)) = s (ix2 p (0 : Fin 1)) + v (ix1 p) := by
  unfold k1_pay11
  rw [shapeCast_self]
  exact congrArg (s (ix2 p (0 : Fin 1)) + ·) (shapeCast_a_a1_apply v _ p 0)

/-- The negative running sum after a block, at a row: the sum before it plus the sum over the lanes of what each pair adds. -/
theorem k1_pay12_apply (x0 : Vec Ideal S512x1024 .f32) (m : IVec S512x1024 1) (s : Vec Ideal S512x1 .f32) (p : Fin 512) :
    k1_pay12 (F := Ideal) x0 m s (ix2 p (0 : Fin 1))
      = s (ix2 p (0 : Fin 1)) + ∑ l : Fin 1024, negTerm (x0 (ix2 p l)) (m (ix2 p l)) := by
  unfold k1_pay12
  rw [shapeCast_self]
  refine congrArg (s (ix2 p (0 : Fin 1)) + ·) ((shapeCast_a_a1_apply _ _ p 0).trans ?_)
  refine (Ideal.multiReduction_add_single (φ := .f32) _ 0x00000000#32 reduces_S512x1024_S512 (.inl rfl) rfl (ix1 p)).trans ?_
  refine Finset.sum_congr rfl fun (l : Fin 1024) _ => ?_
  rw [rowLift p l]
  rfl

/-- The two running sums after a block, at a row. -/
theorem upd1_pos_apply (x0 : Vec Ideal S512x1024 .f32) (x1 : Vec Ideal S512x1 .i32) (x2 : Vec Ideal S1x1024 .i32)
    (x3 x4 : Vec Ideal S512x1 .f32)
    (s : Vec Ideal S512x1 .f32 × Vec Ideal S512x1 .f32 × Vec Ideal S512x1 .f32 × Vec Ideal S512x1 .f32) (p : Fin 512) :
    (upd1 (F := Ideal) x0 x1 x2 x3 x4 s).1 (ix2 p (0 : Fin 1))
      = s.1 (ix2 p (0 : Fin 1)) + ∑ l : Fin 1024, posTerm (x0 (ix2 p l))
          (selPos (x0 (ix2 p l)) (x1 (ix2 p (0 : Fin 1))) (x2 (ix2 (0 : Fin 1) l)) (x4 (ix2 p (0 : Fin 1)))) := by
  unfold upd1
  exact (k1_pay11_apply _ _ p).trans (congrArg (s.1 (ix2 p (0 : Fin 1)) + ·) (k1_pay10_apply x0 x1 x2 x4 p))

theorem upd1_neg_apply (x0 : Vec Ideal S512x1024 .f32) (x1 : Vec Ideal S512x1 .i32) (x2 : Vec Ideal S1x1024 .i32)
    (x3 x4 : Vec Ideal S512x1 .f32)
    (s : Vec Ideal S512x1 .f32 × Vec Ideal S512x1 .f32 × Vec Ideal S512x1 .f32 × Vec Ideal S512x1 .f32) (p : Fin 512) :
    (upd1 (F := Ideal) x0 x1 x2 x3 x4 s).2.1 (ix2 p (0 : Fin 1))
      = s.2.1 (ix2 p (0 : Fin 1)) + ∑ l : Fin 1024, negTerm (x0 (ix2 p l))
          (selNeg (x0 (ix2 p l)) (x1 (ix2 p (0 : Fin 1))) (x2 (ix2 (0 : Fin 1) l)) (x3 (ix2 p (0 : Fin 1)))) := by
  unfold upd1
  refine (k1_pay12_apply x0 _ _ p).trans (congrArg (s.2.1 (ix2 p (0 : Fin 1)) + ·) (Finset.sum_congr rfl fun l _ => ?_))
  exact congrArg (fun b => negTerm (x0 (ix2 p l)) b) (k1_pay8_apply x0 x1 x2 x3 p l)

/-- The accumulators a row block starts from are zero in every row. -/
theorem init1_apply (p : Fin 512) :
    (init1 (F := Ideal)).1 (ix2 p (0 : Fin 1)) = 0 ∧ (init1 (F := Ideal)).2.1 (ix2 p (0 : Fin 1)) = 0
      ∧ (init1 (F := Ideal)).2.2.1 (ix2 p (0 : Fin 1)) = 0 ∧ (init1 (F := Ideal)).2.2.2 (ix2 p (0 : Fin 1)) = 0 := by
  unfold init1 k1_pay3 k1_pay4 k1_pay5 k1_pay6
  simp only [shapeCast_self]
  exact ⟨Ideal.ofBits_zero_f32, Ideal.ofBits_zero_f32, Ideal.ofBits_zero_f32, Ideal.ofBits_zero_f32⟩

end Cert.KernelIdeal.Pairs

end
-- ==== Proof.BlockRead.lean ====
/-
  The blocks of the second call, read off the arrays the call finds. Point t = 8 ri + ci of the grid stages rows
  512 ri … 512 ri + 511 and columns 1024 ci … 1024 ci + 1023: its block of similarities at (p, l) is the matrix at
  (512 ri + p, 1024 ci + l); its row-label block, its per-row minimum and its per-row maximum at row p are those columns at
  row 512 ri + p; its column-label block at lane l is the row of labels at column 1024 ci + l. When the label arrays are the
  labels laid out as a column and as a row, the two label reads are the labels of that row and of that column.
-/
import proofs.«174246_j52381421142559_1_alg».proof.Proof.KernelIdeal.Data1
import proofs.«174246_j52381421142559_1_alg».proof.Proof.Gen.ReferenceIdeal.Read
import Idealize.ShloMosaic.Lib.ValueIdx
import Idealize.ShloMosaic.Lib.Pipeline.Value

set_option maxRecDepth 16384

noncomputable section

namespace Cert.KernelIdeal.Pairs

open Cert.KernelIdeal Cert.KernelIdeal.Gen
open Idealize.ShloMosaic Idealize.ShloMosaic.TcCoe
open Idealize.ShloMosaic.ValueIdx
open Idealize.SL Idealize.SL.Sem
open Idealize.ShloMosaic.Pipeline (Dat Cfg Window)

/-- The array row of row `p` of row block `ri`. -/
def blockRow (ri : Fin 16) (p : Fin 512) : Fin 8192 := ⟨512 * ri.val + p.val, by have := ri.isLt; have := p.isLt; omega⟩

/-- The array column of lane `l` of column block `ci`. -/
def laneCol (ci : Fin 8) (l : Fin 1024) : Fin 8192 := ⟨1024 * ci.val + l.val, by have := ci.isLt; have := l.isLt; omega⟩

/-- The block index maps over the grid: windows 0, 1, 3, 4, 5 follow the row block, windows 0 and 2 the column block. -/
theorem blockIdx1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = 0
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

variable (V : (c : Dev nD) → (b : Ref sig .tc) → Buf (Elt Ideal) ((c : Thread nD τ).loc b))

/-- The five input blocks of a point, at their literal types. -/
abbrev simBlk (c : Dev nD) (t : Fin cfg1.N) : Vec Ideal S512x1024 .f32 := iblk1 V c 0 t
abbrev rowLabBlk (c : Dev nD) (t : Fin cfg1.N) : Vec Ideal S512x1 .i32 := iblk1 V c 1 t
abbrev colLabBlk (c : Dev nD) (t : Fin cfg1.N) : Vec Ideal S1x1024 .i32 := iblk1 V c 2 t
abbrev minBlk (c : Dev nD) (t : Fin cfg1.N) : Vec Ideal S512x1 .f32 := iblk1 V c 3 t
abbrev maxBlk (c : Dev nD) (t : Fin cfg1.N) : Vec Ideal S512x1 .f32 := iblk1 V c 4 t

section Reads

variable (c : Dev nD) (t : Fin cfg1.N) (ri : Fin 16) (ci : Fin 8) (hr : t.val / 8 = ri.val) (hc : t.val % 8 = ci.val)

include hr hc in
/-- The similarity block at (p, l). -/
theorem simBlk_apply (p : Fin 512) (l : Fin 1024) :
    simBlk V c t (ix2 p l) = (V c main_arg0 : S8192x8192.Idx → Ideal .f32) (ix2 (blockRow ri p) (laneCol ci l)) := by
  obtain ⟨e0, e1, -⟩ := blockIdx1 t
  show (V c main_arg0 : S8192x8192.Idx → Ideal .f32) (((cfg1.win 0).blk t).view.emb (ix2 p l)) = _
  refine congrArg (V c main_arg0 : S8192x8192.Idx → Ideal .f32) ?_
  funext a; apply Fin.ext
  match a with
  | ⟨0, _⟩ => show win1_0.index t (0 : Fin 2) * 512 + 1 * p.val = 512 * ri.val + p.val; rw [e0, hr]; omega
  | ⟨1, _⟩ => show win1_0.index t (1 : Fin 2) * 1024 + 1 * l.val = 1024 * ci.val + l.val; rw [e1, hc]; omega

include hr in
/-- The row-label block at row p. -/
theorem rowLabBlk_apply (p : Fin 512) :
    rowLabBlk V c t (ix2 p (0 : Fin 1)) = (V c main_v0 : S8192x1.Idx → BitVec 32) (ix2 (blockRow ri p) (0 : Fin 1)) := by
  obtain ⟨-, -, e0, e1, -⟩ := blockIdx1 t
  show (V c main_v0 : S8192x1.Idx → BitVec 32) (((cfg1.win 1).blk t).view.emb (ix2 p (0 : Fin 1))) = _
  refine congrArg (V c main_v0 : S8192x1.Idx → BitVec 32) ?_
  funext a; apply Fin.ext
  match a with
  | ⟨0, _⟩ => show win1_1.index t (0 : Fin 2) * 512 + 1 * p.val = 512 * ri.val + p.val; rw [e0, hr]; omega
  | ⟨1, _⟩ => show win1_1.index t (1 : Fin 2) * 1 + 1 * 0 = 0; rw [e1]

include hc in
/-- The column-label block at lane l. -/
theorem colLabBlk_apply (l : Fin 1024) :
    colLabBlk V c t (ix2 (0 : Fin 1) l) = (V c main_v1 : S1x8192.Idx → BitVec 32) (ix2 (0 : Fin 1) (laneCol ci l)) := by
  obtain ⟨-, -, -, -, e0, e1, -⟩ := blockIdx1 t
  show (V c main_v1 : S1x8192.Idx → BitVec 32) (((cfg1.win 2).blk t).view.emb (ix2 (0 : Fin 1) l)) = _
  refine congrArg (V c main_v1 : S1x8192.Idx → BitVec 32) ?_
  funext a; apply Fin.ext
  match a with
  | ⟨0, _⟩ => show win1_2.index t (0 : Fin 2) * 1 + 1 * 0 = 0; rw [e0]
  | ⟨1, _⟩ => show win1_2.index t (1 : Fin 2) * 1024 + 1 * l.val = 1024 * ci.val + l.val; rw [e1, hc]; omega

include hr in
/-- The per-row minimum block at row p. -/
theorem minBlk_apply (p : Fin 512) :
    minBlk V c t (ix2 p (0 : Fin 1)) = (V c main_v2_0 : S8192x1.Idx → Ideal .f32) (ix2 (blockRow ri p) (0 : Fin 1)) := by
  obtain ⟨-, -, -, -, -, -, e0, e1, -⟩ := blockIdx1 t
  show (V c main_v2_0 : S8192x1.Idx → Ideal .f32) (((cfg1.win 3).blk t).view.emb (ix2 p (0 : Fin 1))) = _
  refine congrArg (V c main_v2_0 : S8192x1.Idx → Ideal .f32) ?_
  funext a; apply Fin.ext
  match a with
  | ⟨0, _⟩ => show win1_3.index t (0 : Fin 2) * 512 + 1 * p.val = 512 * ri.val + p.val; rw [e0, hr]; omega
  | ⟨1, _⟩ => show win1_3.index t (1 : Fin 2) * 1 + 1 * 0 = 0; rw [e1]

include hr in
/-- The per-row maximum block at row p. -/
theorem maxBlk_apply (p : Fin 512) :
    maxBlk V c t (ix2 p (0 : Fin 1)) = (V c main_v2_1 : S8192x1.Idx → Ideal .f32) (ix2 (blockRow ri p) (0 : Fin 1)) := by
  obtain ⟨-, -, -, -, -, -, -, -, e0, e1, -⟩ := blockIdx1 t
  show (V c main_v2_1 : S8192x1.Idx → Ideal .f32) (((cfg1.win 4).blk t).view.emb (ix2 p (0 : Fin 1))) = _
  refine congrArg (V c main_v2_1 : S8192x1.Idx → Ideal .f32) ?_
  funext a; apply Fin.ext
  match a with
  | ⟨0, _⟩ => show win1_4.index t (0 : Fin 2) * 512 + 1 * p.val = 512 * ri.val + p.val; rw [e0, hr]; omega
  | ⟨1, _⟩ => show win1_4.index t (1 : Fin 2) * 1 + 1 * 0 = 0; rw [e1]

include hr in
/-- Where row p of the output block sits in the result array: at row 512 ri + p. -/
theorem outBlk_emb (p : Fin 512) :
    Cert.ReferenceIdeal.Read.idx_main_v15 (((cfg1.win 5).blk t).view.emb (ix2 p (0 : Fin 1))) = ix1 (blockRow ri p) := by
  obtain ⟨-, -, -, -, -, -, -, -, -, -, e0, e1⟩ := blockIdx1 t
  funext a
  match a with
  | ⟨0, _⟩ =>
    apply Fin.ext
    show win1_5.index t (0 : Fin 2) * 512 + 1 * p.val = 512 * ri.val + p.val
    rw [e0, hr]; omega

end Reads

/-- The labels laid out as a column, at row r. -/
theorem labelCol_apply (lab : (⟨S8192, .i32⟩ : BufTy).Contents (Elt Ideal)) (r : Fin 8192) :
    Cert.ReferenceIdeal.Read.val_main_v0 (F := Ideal) lab (ix2 r (0 : Fin 1)) = lab (ix1 r) := by
  rw [Cert.ReferenceIdeal.Read.val_main_v0_apply]
  refine congrArg lab ?_
  funext a; match a with | ⟨0, _⟩ => rfl

/-- The labels laid out as a row, at column k. -/
theorem labelRow_apply (lab : (⟨S8192, .i32⟩ : BufTy).Contents (Elt Ideal)) (k : Fin 8192) :
    Cert.ReferenceIdeal.Read.val_main_v1 (F := Ideal) lab (ix2 (0 : Fin 1) k) = lab (ix1 k) := by
  rw [Cert.ReferenceIdeal.Read.val_main_v1_apply]
  refine congrArg lab ?_
  funext a; match a with | ⟨0, _⟩ => rfl

end Cert.KernelIdeal.Pairs

end
-- ==== Proof.Flags.lean ====
/-
  The flag side of the second call, as pure facts on the extended reals.

  Per row the kernel keeps two running flags, one for the selected positive pairs and one for the selected negative
  pairs. A flag starts at 0 at the first of a row block's eight column blocks and each block replaces it by the larger of
  itself and the lane maximum, over the block's 1024 columns, of the block's mask bits cast to floats (a set bit to 1, a
  clear bit to 0; the lane maximum starts from −∞). So after any number of blocks the flag is 1 if some mask bit seen so
  far in the row was set and 0 if none was, and the final test "flag > 1/2" is the bit "some mask bit of the row was
  set" — the reference's or-reduction of the mask over the row's 8192 columns.
-/
import proofs.«174246_j52381421142559_1_alg».proof.Proof.KernelIdeal.Run1
import proofs.«174246_j52381421142559_1_alg».proof.Proof.Gen.ReferenceIdeal.Read
import proofs.«174246_j52381421142559_1_alg».proof.Proof.LibExtremum
import proofs.«174246_j52381421142559_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pairs

open Cert.KernelIdeal Cert.KernelIdeal.Gen
open Idealize.ShloMosaic Idealize.ShloMosaic.TcCoe
open Idealize.ShloMosaic.ValueIdx

/-! ## A mask bit as an extended real -/

/-- A mask bit as the extended real it is cast to: 1 for a set bit, 0 for a clear one. -/
def bitE (b : BitVec 1) : EReal := if b = 1#1 then 1 else 0

theorem bitE_one : bitE 1#1 = 1 := if_pos rfl
theorem bitE_zero : bitE 0#1 = 0 := if_neg (by decide)

/-- Widening a bit to 32 bits without sign and converting the signed word to a float gives 1 for a set bit and 0 for a
    clear one. -/
theorem sitofp_setWidth_bit (b : BitVec 1) :
    (FloatOps.sitofp (F := Ideal) .f32 (b.setWidth 32) : EReal) = bitE b := by
  rcases BitVec.eq_zero_or_eq_one b with h | h
  · subst h
    show (((BitVec.setWidth 32 0#1).toInt : ℝ) : EReal) = bitE 0#1
    rw [bitE_zero]; norm_num
  · subst h
    show (((BitVec.setWidth 32 1#1).toInt : ℝ) : EReal) = bitE 1#1
    rw [bitE_one]
    have : (BitVec.setWidth 32 1#1).toInt = 1 := by decide
    rw [this]; norm_num

/-- The reduced index `p` of a row reduction of a `[512, 1024]` block with the column `k` put back is `(p, k)`. -/
theorem lift_row (p : Fin 512) (k : Fin 1024) :
    (reduces_S512x1024_S512).lift (ix1 p) k = ix2 p k := by
  funext a
  match a with
  | ⟨0, _⟩ => exact Fin.ext rfl
  | ⟨1, _⟩ => exact Fin.ext rfl

/-- The lane maximum of the cast bits of a block, at row `p`: the supremum over the row's 1024 columns. -/
theorem laneMax_bits (v : IVec S512x1024 1) (p : Fin 512) :
    (multiReduction (F := Ideal) .maximumf [1] S512 (sitofp .f32 (extui 32 v natLt_1_32)) 0xFF800000#32
        reduces_S512x1024_S512 (.inl rfl) rfl (ix1 p) : EReal)
      = ⨆ k : Fin 1024, bitE (v (ix2 p k)) := by
  refine (Ideal.multiReduction_maximumf_single (φ := .f32) (sitofp .f32 (extui 32 v natLt_1_32)) 0xFF800000#32
    reduces_S512x1024_S512 (.inl rfl) rfl (ix1 p)).trans ?_
  rw [Cert.Extremum.ofBits_negInf_f32, Cert.Extremum.fold_max_bot_univ]
  show (⨆ k : Fin 1024, (sitofp (F := Ideal) .f32 (extui 32 v natLt_1_32) ((reduces_S512x1024_S512).lift (ix1 p) k) : EReal)) = _
  refine iSup_congr fun k => ?_
  rw [lift_row, sitofp_apply, extui_apply, sitofp_setWidth_bit]

/-- The positive flag after a block, at row `p`: the larger of the flag before it and the row's lane maximum. -/
theorem k1_pay13_apply (v28 : IVec S512x1024 1) (s : Vec Ideal S512x1 .f32) (p : Fin 512) :
    (k1_pay13 (F := Ideal) v28 s (ix2 p (0 : Fin 1)) : EReal)
      = max (s (ix2 p (0 : Fin 1)) : EReal) (⨆ k : Fin 1024, bitE (v28 (ix2 p k))) := by
  unfold k1_pay13
  rw [shapeCast_self, maximumf_apply, shapeCast_a_a1_apply, laneMax_bits]

/-- The negative flag after a block, at row `p`, likewise. -/
theorem k1_pay14_apply (v23 : IVec S512x1024 1) (s : Vec Ideal S512x1 .f32) (p : Fin 512) :
    (k1_pay14 (F := Ideal) v23 s (ix2 p (0 : Fin 1)) : EReal)
      = max (s (ix2 p (0 : Fin 1)) : EReal) (⨆ k : Fin 1024, bitE (v23 (ix2 p k))) := by
  unfold k1_pay14
  rw [maximumf_apply, shapeCast_a_a1_apply, laneMax_bits]

/-- A shape cast to the same shape changes nothing. -/
theorem k1_pay1_eq (v : FVec Ideal S512x1 .f32) : k1_pay1 (F := Ideal) v = v := by
  unfold k1_pay1
  rw [shapeCast_self]

/-! ## The running flag after any number of blocks -/

open Classical in
/-- A proposition as an extended real: 1 if it holds, 0 if not. -/
def indE (P : Prop) : EReal := if P then 1 else 0

theorem indE_true {P : Prop} (h : P) : indE P = 1 := if_pos h
theorem indE_false {P : Prop} (h : ¬P) : indE P = 0 := if_neg h
theorem indE_False : indE False = 0 := indE_false id
theorem indE_congr {P Q : Prop} (h : P ↔ Q) : indE P = indE Q := by
  by_cases hP : P
  · rw [indE_true hP, indE_true (h.1 hP)]
  · rw [indE_false hP, indE_false (fun hQ => hP (h.2 hQ))]
theorem bitE_eq_indE (b : BitVec 1) : bitE b = indE (b = 1#1) := by
  by_cases hb : b = 1#1
  · rw [indE_true hb, hb, bitE_one]
  · rw [indE_false hb, eq_zero_of_ne_one hb, bitE_zero]
theorem indE_eq_one_iff {P : Prop} : indE P = 1 ↔ P := by
  by_cases hP : P
  · rw [indE_true hP]; exact ⟨fun _ => hP, fun _ => rfl⟩
  · rw [indE_false hP]; exact ⟨fun h => absurd h zero_ne_one, fun h => absurd h hP⟩

theorem bitE_le_one (b : BitVec 1) : bitE b ≤ 1 := by
  unfold bitE; split
  · exact le_rfl
  · exact zero_le_one

/-- The supremum of the cast bits of a nonempty family: 1 if some bit is set, 0 if none is. -/
theorem iSup_bitE {ι : Type} [Nonempty ι] (h : ι → BitVec 1) :
    (⨆ k, bitE (h k)) = indE (∃ k, h k = 1#1) := by
  by_cases hex : ∃ k, h k = 1#1
  · rw [indE_true hex]
    obtain ⟨k0, hk0⟩ := hex
    exact le_antisymm (iSup_le fun k => bitE_le_one _) (le_iSup_of_le k0 (by rw [hk0, bitE_one]))
  · rw [indE_false hex]
    have h0 : ∀ k, bitE (h k) = 0 := fun k => by
      have : h k = 0#1 := eq_zero_of_ne_one fun h1 => hex ⟨k, h1⟩
      rw [this, bitE_zero]
    simp only [h0]
    exact iSup_const

/-- The larger of two such values is the value of the disjunction. -/
theorem max_indE (P Q : Prop) : max (indE P) (indE Q) = indE (P ∨ Q) := by
  by_cases hP : P <;> by_cases hQ : Q
  · rw [indE_true hP, indE_true hQ, indE_true (Or.inl hP), max_self]
  · rw [indE_true hP, indE_false hQ, indE_true (Or.inl hP)]; exact max_eq_left zero_le_one
  · rw [indE_false hP, indE_true hQ, indE_true (Or.inr hQ)]; exact max_eq_right zero_le_one
  · rw [indE_false hP, indE_false hQ, indE_false (fun h => h.elim hP hQ), max_self]

/-- ONE BLOCK'S UPDATE: a flag that says whether `P` holds, after a block, says whether `P` holds or some bit of the
    block's row is set. -/
theorem flag_step {ι : Type} [Nonempty ι] (P : Prop) (h : ι → BitVec 1) :
    max (indE P) (⨆ k, bitE (h k)) = indE (P ∨ ∃ k, h k = 1#1) := by
  rw [iSup_bitE, max_indE]

/-- The flag a row block starts from, the value `0`, says "no bit seen". -/
theorem flag_start : (0 : EReal) = indE False := indE_False.symm

/-- The word `0x3F000000` denotes one half. -/
theorem ofBits_half_f32 : Ideal.ofBits .f32 0x3F000000#32 = (((1 : ℝ) / 2 : ℝ) : EReal) := by
  simp [Ideal.ofBits, Ideal.ieee, -EReal.coe_mul]; norm_num

/-- The word `0x00000000` denotes zero. -/
theorem ofBits_zero_f32 : Ideal.ofBits .f32 0x00000000#32 = 0 := by
  simp [Ideal.ofBits, Ideal.ieee]

/-- THE FINAL TEST: comparing such a flag with one half, "greater than", gives the bit of the proposition. -/
theorem cmp_ogt_half_indE (P : Prop) [Decidable P] :
    Ideal.cmp .ogt (indE P) (Ideal.ofBits .f32 0x3F000000#32) = if P then 1#1 else 0#1 := by
  rw [ofBits_half_f32]
  by_cases hP : P
  · rw [indE_true hP, if_pos hP]
    show BitVec.ofBool (decide ((((1 : ℝ) / 2 : ℝ) : EReal) < 1)) = 1#1
    rw [decide_eq_true (by rw [← EReal.coe_one, EReal.coe_lt_coe_iff]; norm_num)]; rfl
  · rw [indE_false hP, if_neg hP]
    show BitVec.ofBool (decide ((((1 : ℝ) / 2 : ℝ) : EReal) < 0)) = 0#1
    rw [decide_eq_false (by rw [← EReal.coe_zero, EReal.coe_lt_coe_iff]; norm_num)]; rfl

/-- The same as a condition: the test gives the bit 1 exactly when the proposition holds. -/
theorem cmp_ogt_half_indE_eq_one (P : Prop) :
    Ideal.cmp .ogt (indE P) (Ideal.ofBits .f32 0x3F000000#32) = 1#1 ↔ P := by
  classical
  rw [cmp_ogt_half_indE]
  by_cases hP : P
  · rw [if_pos hP]; exact ⟨fun _ => hP, fun _ => rfl⟩
  · rw [if_neg hP]; exact ⟨fun h => absurd h (by decide), fun h => absurd h hP⟩

/-- The same read in a vector compared with the splat of one half, as the kernel spells the test. -/
theorem cmpf_ogt_half_apply {s : Shape} (v : FVec Ideal s .f32) (j : s.Idx) (P : Prop) [Decidable P] (hv : (v j : EReal) = indE P) :
    cmpf .ogt v (broadcast s (Scalar.ofBits (F := Ideal) .f32 0x3F000000#32)) j = if P then 1#1 else 0#1 := by
  rw [← cmp_ogt_half_indE P, ← hv]; rfl

/-- EIGHT BLOCKS: the flag started at 0 and updated by eight blocks' rows of bits says whether some bit of some block
    is set. -/
theorem flag8 (g : Fin 8 → Fin 1024 → BitVec 1) :
    max (max (max (max (max (max (max (max (0 : EReal) (⨆ k, bitE (g 0 k))) (⨆ k, bitE (g 1 k))) (⨆ k, bitE (g 2 k)))
      (⨆ k, bitE (g 3 k))) (⨆ k, bitE (g 4 k))) (⨆ k, bitE (g 5 k))) (⨆ k, bitE (g 6 k))) (⨆ k, bitE (g 7 k))
      = indE (∃ cb : Fin 8, ∃ k : Fin 1024, g cb k = 1#1) := by
  rw [flag_start, flag_step, flag_step, flag_step, flag_step, flag_step, flag_step, flag_step, flag_step]
  refine indE_congr ⟨fun h => ?_, fun ⟨cb, k, hk⟩ => ?_⟩
  · rcases h with ((((((((h | ⟨k, hk⟩) | ⟨k, hk⟩) | ⟨k, hk⟩) | ⟨k, hk⟩) | ⟨k, hk⟩) | ⟨k, hk⟩) | ⟨k, hk⟩) | ⟨k, hk⟩)
    · exact h.elim
    all_goals exact ⟨_, k, hk⟩
  · fin_cases cb
    · exact Or.inl (Or.inl (Or.inl (Or.inl (Or.inl (Or.inl (Or.inl (Or.inr ⟨k, hk⟩)))))))
    · exact Or.inl (Or.inl (Or.inl (Or.inl (Or.inl (Or.inl (Or.inr ⟨k, hk⟩))))))
    · exact Or.inl (Or.inl (Or.inl (Or.inl (Or.inl (Or.inr ⟨k, hk⟩)))))
    · exact Or.inl (Or.inl (Or.inl (Or.inl (Or.inr ⟨k, hk⟩))))
    · exact Or.inl (Or.inl (Or.inl (Or.inr ⟨k, hk⟩)))
    · exact Or.inl (Or.inl (Or.inr ⟨k, hk⟩))
    · exact Or.inl (Or.inr ⟨k, hk⟩)
    · exact Or.inr ⟨k, hk⟩

/-- … and so the kernel's test of it against one half is the bit "some bit of some block is set". -/
theorem flag8_test (g : Fin 8 → Fin 1024 → BitVec 1) [Decidable (∃ cb : Fin 8, ∃ k : Fin 1024, g cb k = 1#1)] :
    Ideal.cmp .ogt
      (max (max (max (max (max (max (max (max (0 : EReal) (⨆ k, bitE (g 0 k))) (⨆ k, bitE (g 1 k))) (⨆ k, bitE (g 2 k)))
        (⨆ k, bitE (g 3 k))) (⨆ k, bitE (g 4 k))) (⨆ k, bitE (g 5 k))) (⨆ k, bitE (g 6 k))) (⨆ k, bitE (g 7 k)))
      (Ideal.ofBits .f32 0x3F000000#32)
      = if ∃ cb : Fin 8, ∃ k : Fin 1024, g cb k = 1#1 then 1#1 else 0#1 := by
  rw [flag8, cmp_ogt_half_indE]

/-! ## The reference's or-reduction over a row -/

/-- On one-bit words "or" gives 1 exactly when one of its operands is 1. -/
theorem ori_eq_one (a b : BitVec 1) : IntOp.ori a b = 1#1 ↔ a = 1#1 ∨ b = 1#1 := by
  revert a b; decide

/-- Folding "or" from 0 over a finite set of one-bit words gives 1 exactly when one of them is 1. -/
theorem fold_ori_eq_one {ι : Type} [DecidableEq ι] (S : Finset ι) (f : ι → BitVec 1) :
    S.fold IntOp.ori 0#1 f = 1#1 ↔ ∃ k ∈ S, f k = 1#1 := by
  refine Finset.induction_on S ?_ ?_
  · simp
  · intro a S ha ih
    rw [Finset.fold_insert ha, ori_eq_one, ih]
    constructor
    · rintro (h | ⟨k, hk, h⟩)
      · exact ⟨a, Finset.mem_insert_self a S, h⟩
      · exact ⟨k, Finset.mem_insert_of_mem hk, h⟩
    · rintro ⟨k, hk, h⟩
      rcases Finset.mem_insert.1 hk with rfl | hk'
      · exact Or.inl h
      · exact Or.inr ⟨k, hk', h⟩

/-- The reduced index `i` of the reference's row reduction with the column `k` put back is the index with row `i` and
    column `k`. -/
theorem lift_refRow (h : Cert.ReferenceIdeal.S8192x8192.Reduces [1] Cert.ReferenceIdeal.S8192)
    (i : Cert.ReferenceIdeal.S8192.Idx) (k : Fin 8192) :
    h.lift i k = Cert.ReferenceIdeal.Read.idx_main_v34 i k :=
  funext fun a => Fin.ext (by match a with | ⟨0, _⟩ => rfl | ⟨1, _⟩ => rfl)

/-- THE REFERENCE'S OR-REDUCTION AT A ROW: reducing a mask with "or" from the bit 0 over its columns gives, at row `i`,
    the bit 1 exactly when some column of the row holds the bit 1. -/
theorem hostReduce_ori_row (x : (⟨Cert.ReferenceIdeal.S8192x8192, .i1⟩ : BufTy).Contents (Elt Ideal))
    (i : Cert.ReferenceIdeal.S8192.Idx) :
    Host.reduce IntOp.ori x (constantI Cert.ReferenceIdeal.S_ 1 0#1)
        Cert.ReferenceIdeal.Gen.reducesTo_S8192x8192_S8192_d1 Cert.ReferenceIdeal.Gen.h_S_ i = 1#1
      ↔ ∃ k : Fin 8192, x (Cert.ReferenceIdeal.Read.idx_main_v34 i k) = 1#1 := by
  have h : Cert.ReferenceIdeal.S8192x8192.Reduces [1] Cert.ReferenceIdeal.S8192 := by decide
  have hf : Host.reduce IntOp.ori x (constantI Cert.ReferenceIdeal.S_ 1 0#1)
      Cert.ReferenceIdeal.Gen.reducesTo_S8192x8192_S8192_d1 Cert.ReferenceIdeal.Gen.h_S_ i
        = (Finset.univ : Finset (Fin 8192)).fold IntOp.ori 0#1 (fun k => x (h.lift i k)) :=
    Host.reduce_eq_fold_single IntOp.ori x _ Cert.ReferenceIdeal.Gen.reducesTo_S8192x8192_S8192_d1 h
      Cert.ReferenceIdeal.Gen.h_S_ i
  rw [hf]
  refine (fold_ori_eq_one (Finset.univ : Finset (Fin 8192)) (fun k => x (h.lift i k))).trans ?_
  constructor
  · rintro ⟨k, _, hk⟩
    exact ⟨k, by rw [← lift_refRow h i k]; exact hk⟩
  · rintro ⟨k, hk⟩
    exact ⟨k, Finset.mem_univ k, by rw [lift_refRow h i k]; exact hk⟩

/-- The two or-reductions of the reference, in its own spelling. -/
theorem val_main_v25_eq_one (x0 : (⟨Cert.ReferenceIdeal.S8192x8192, .f32⟩ : BufTy).Contents (Elt Ideal))
    (x1 : (⟨Cert.ReferenceIdeal.S8192, .i32⟩ : BufTy).Contents (Elt Ideal)) (i : Cert.ReferenceIdeal.S8192.Idx) :
    Cert.ReferenceIdeal.Read.val_main_v25 (F := Ideal) x0 x1 i = 1#1
      ↔ ∃ k : Fin 8192, Cert.ReferenceIdeal.Read.val_main_v18 (F := Ideal) x0 x1 (Cert.ReferenceIdeal.Read.idx_main_v34 i k) = 1#1 :=
  hostReduce_ori_row _ i

theorem val_main_v26_eq_one (x0 : (⟨Cert.ReferenceIdeal.S8192x8192, .f32⟩ : BufTy).Contents (Elt Ideal))
    (x1 : (⟨Cert.ReferenceIdeal.S8192, .i32⟩ : BufTy).Contents (Elt Ideal)) (i : Cert.ReferenceIdeal.S8192.Idx) :
    Cert.ReferenceIdeal.Read.val_main_v26 (F := Ideal) x0 x1 i = 1#1
      ↔ ∃ k : Fin 8192, Cert.ReferenceIdeal.Read.val_main_v24 (F := Ideal) x0 x1 (Cert.ReferenceIdeal.Read.idx_main_v34 i k) = 1#1 :=
  hostReduce_ori_row _ i

/-- A one-bit word written from a proposition equals the bit 1 exactly when the proposition holds. -/
theorem ite_bit_eq_one (P : Prop) [Decidable P] : (if P then 1#1 else 0#1 : BitVec 1) = 1#1 ↔ P := by
  by_cases hP : P
  · rw [if_pos hP]; exact ⟨fun _ => hP, fun _ => rfl⟩
  · rw [if_neg hP]; exact ⟨fun h => absurd h (by decide), fun h => absurd h hP⟩

/-- Two one-bit words that are 1 under the same condition are equal. -/
theorem bit_ext {a b : BitVec 1} (h : a = 1#1 ↔ b = 1#1) : a = b := by
  rcases BitVec.eq_zero_or_eq_one a with ha | ha <;> rcases BitVec.eq_zero_or_eq_one b with hb | hb
  · rw [ha, hb]
  · exact absurd (h.2 hb) (by rw [ha]; decide)
  · exact absurd (h.1 ha) (by rw [hb]; decide)
  · rw [ha, hb]

/-! ## Eight blocks of 1024 columns are the 8192 columns -/

/-- A column of the whole row is a column block and a column in it: column `1024 · cb + k`. -/
def colOf (cb : Fin 8) (k : Fin 1024) : Fin 8192 := ⟨1024 * cb.val + k.val, by have := cb.isLt; have := k.isLt; omega⟩

theorem colOf_val (cb : Fin 8) (k : Fin 1024) : (colOf cb k).val = 1024 * cb.val + k.val := rfl

/-- Something holds at a column of some block exactly when it holds at some column of the row. -/
theorem exists_block_col (P : Fin 8192 → Prop) : (∃ cb : Fin 8, ∃ k : Fin 1024, P (colOf cb k)) ↔ ∃ j : Fin 8192, P j := by
  constructor
  · rintro ⟨cb, k, h⟩; exact ⟨_, h⟩
  · rintro ⟨j, h⟩
    refine ⟨⟨j.val / 1024, by have := j.isLt; omega⟩, ⟨j.val % 1024, Nat.mod_lt _ (by decide)⟩, ?_⟩
    have : colOf ⟨j.val / 1024, by have := j.isLt; omega⟩ ⟨j.val % 1024, Nat.mod_lt _ (by decide)⟩ = j :=
      Fin.ext (by show 1024 * (j.val / 1024) + j.val % 1024 = j.val; exact Nat.div_add_mod j.val 1024)
    rw [this]; exact h

/-! ## The start of a row block, and any number of blocks -/

/-- The positive flag a row block starts from is 0 in every row. -/
theorem k1_pay5_apply (j : S512x1.Idx) : (k1_pay5 (F := Ideal) j : EReal) = 0 := by
  unfold k1_pay5
  rw [shapeCast_self]
  exact ofBits_zero_f32

/-- The negative flag a row block starts from is 0 in every row. -/
theorem k1_pay6_apply (j : S512x1.Idx) : (k1_pay6 (F := Ideal) j : EReal) = 0 := by
  unfold k1_pay6
  rw [shapeCast_self]
  exact ofBits_zero_f32

/-- ANY NUMBER OF BLOCKS: a sequence of flags that starts at 0 and at each step takes the larger of itself and the
    supremum of that step's cast bits says, after `n` steps, whether some bit of some earlier step was set. -/
theorem flag_iter {ι : Type} [Nonempty ι] (g : ℕ → ι → BitVec 1) (f : ℕ → EReal) (h0 : f 0 = 0)
    (hstep : ∀ n, f (n + 1) = max (f n) (⨆ k, bitE (g n k))) (n : ℕ) :
    f n = indE (∃ m, m < n ∧ ∃ k, g m k = 1#1) := by
  induction n with
  | zero =>
    rw [h0, indE_false]
    rintro ⟨m, hm, _⟩; exact absurd hm (Nat.not_lt_zero m)
  | succ n ih =>
    rw [hstep, ih, flag_step]
    refine indE_congr ⟨?_, ?_⟩
    · rintro (⟨m, hm, h⟩ | h)
      · exact ⟨m, Nat.lt_succ_of_lt hm, h⟩
      · exact ⟨n, Nat.lt_succ_self n, h⟩
    · rintro ⟨m, hm, h⟩
      rcases Nat.lt_succ_iff_lt_or_eq.1 hm with hlt | rfl
      · exact Or.inl ⟨m, hlt, h⟩
      · exact Or.inr h

end Cert.KernelIdeal.Pairs

end
-- ==== Proof.RowState.lean ====
/-
  A row of the second call after its first n column blocks. The four running accumulators of a row block start at zero
  and every column block adds, to the two sums, the contributions of its 1024 pairs of the row and raises the two flags to
  one when one of those pairs is selected. So after n blocks the sums of row r are the sums of the contributions over the
  first n column blocks and the flags say whether one of those blocks holds a selected pair of the row; by induction on
  the column block this describes the accumulators after every point of the grid.
-/
import proofs.«174246_j52381421142559_1_alg».proof.Proof.BlockStep
import proofs.«174246_j52381421142559_1_alg».proof.Proof.BlockRead
import proofs.«174246_j52381421142559_1_alg».proof.Proof.Flags
import Idealize.ShloMosaic.Lib.ValueIdx
import Idealize.ShloMosaic.Lib.Pipeline.Value
import Idealize.ShloMosaic.PureOps.Ideal.Laws

set_option maxRecDepth 16384

noncomputable section

namespace Cert.KernelIdeal.Pairs

open Cert.KernelIdeal Cert.KernelIdeal.Gen
open Idealize.ShloMosaic Idealize.ShloMosaic.TcCoe
open Idealize.ShloMosaic.ValueIdx
open Idealize.SL Idealize.SL.Sem
open Idealize.ShloMosaic.Pipeline (Dat Cfg Window)
open Cert.ReferenceIdeal.Read (val_main_v0 val_main_v1 val_main_v15 val_main_v21)

/-! ## Sums and disjunctions over the first n of eight blocks -/

/-- The sum over the first n + 1 blocks is the sum over the first n plus block n. -/
theorem sum_lt_succ (B : Fin 8 → EReal) (n : ℕ) (hn : n < 8) :
    (∑ cb : Fin 8, if cb.val < n + 1 then B cb else 0) = (∑ cb : Fin 8, if cb.val < n then B cb else 0) + B ⟨n, hn⟩ := by
  have hsplit : ∀ cb : Fin 8, (if cb.val < n + 1 then B cb else 0)
      = (if cb.val < n then B cb else 0) + (if cb = ⟨n, hn⟩ then B cb else 0) := by
    intro cb
    by_cases h1 : cb.val < n
    · have h2 : cb ≠ ⟨n, hn⟩ := fun e => by rw [e] at h1; exact lt_irrefl _ h1
      rw [if_pos (Nat.lt_succ_of_lt h1), if_pos h1, if_neg h2, add_zero]
    · by_cases h2 : cb = ⟨n, hn⟩
      · subst h2
        rw [if_pos (Nat.lt_succ_self _), if_neg (lt_irrefl _), if_pos rfl, zero_add]
      · have h3 : ¬cb.val < n + 1 := fun h => h2 (Fin.ext (by show cb.val = n; omega))
        rw [if_neg h3, if_neg h1, if_neg h2, add_zero]
  rw [Finset.sum_congr rfl fun cb _ => hsplit cb, Finset.sum_add_distrib, Finset.sum_ite_eq' Finset.univ (⟨n, hn⟩ : Fin 8) B,
    if_pos (Finset.mem_univ _)]

/-- The sum over no block is zero. -/
theorem sum_lt_zero (B : Fin 8 → EReal) : (∑ cb : Fin 8, if cb.val < 0 then B cb else 0) = 0 :=
  Finset.sum_eq_zero fun cb _ => if_neg (Nat.not_lt_zero _)

/-- The sum over the first eight blocks is the sum over all of them. -/
theorem sum_lt_eight (B : Fin 8 → EReal) : (∑ cb : Fin 8, if cb.val < 8 then B cb else 0) = ∑ cb : Fin 8, B cb :=
  Finset.sum_congr rfl fun cb _ => if_pos cb.isLt

/-- Something holds in one of the first n + 1 blocks when it holds in one of the first n or in block n. -/
theorem exists_lt_succ (Q : Fin 8 → Prop) (n : ℕ) (hn : n < 8) :
    ((∃ cb : Fin 8, cb.val < n ∧ Q cb) ∨ Q ⟨n, hn⟩) ↔ ∃ cb : Fin 8, cb.val < n + 1 ∧ Q cb := by
  constructor
  · rintro (⟨cb, h, hq⟩ | hq)
    · exact ⟨cb, Nat.lt_succ_of_lt h, hq⟩
    · exact ⟨⟨n, hn⟩, Nat.lt_succ_self n, hq⟩
  · rintro ⟨cb, h, hq⟩
    by_cases h1 : cb.val < n
    · exact Or.inl ⟨cb, h1, hq⟩
    · have e : cb = ⟨n, hn⟩ := Fin.ext (by show cb.val = n; omega)
      exact Or.inr (e ▸ hq)

/-- The 8192 columns are the eight blocks of 1024 lanes: a sum over the columns is the sum over the blocks of the sums
    over the lanes. -/
theorem sum_columns (f : Fin 8192 → EReal) : (∑ k : Fin 8192, f k) = ∑ cb : Fin 8, ∑ l : Fin 1024, f (laneCol cb l) := by
  let e : Fin 8 × Fin 1024 ≃ Fin 8192 :=
    { toFun := fun x => laneCol x.1 x.2
      invFun := fun k => (⟨k.val / 1024, by have := k.isLt; omega⟩, ⟨k.val % 1024, Nat.mod_lt _ (by decide)⟩)
      left_inv := fun x => by
        obtain ⟨cb, l⟩ := x
        have h1 := cb.isLt
        have h2 := l.isLt
        refine Prod.ext (Fin.ext ?_) (Fin.ext ?_)
        · show (1024 * cb.val + l.val) / 1024 = cb.val; omega
        · show (1024 * cb.val + l.val) % 1024 = l.val; omega
      right_inv := fun k => Fin.ext (by show 1024 * (k.val / 1024) + k.val % 1024 = k.val; omega) }
  rw [← Fintype.sum_prod_type' (f := fun cb l => f (laneCol cb l))]
  exact (Fintype.sum_equiv e _ _ fun x => rfl).symm

/-- Something holds at a column when it holds at a lane of a block. -/
theorem exists_columns (Q : Fin 8192 → Prop) : (∃ cb : Fin 8, cb.val < 8 ∧ ∃ l : Fin 1024, Q (laneCol cb l)) ↔ ∃ k : Fin 8192, Q k := by
  constructor
  · rintro ⟨cb, -, l, h⟩; exact ⟨_, h⟩
  · rintro ⟨k, h⟩
    refine ⟨⟨k.val / 1024, by have := k.isLt; omega⟩, by have := k.isLt; show k.val / 1024 < 8; omega, ⟨k.val % 1024, Nat.mod_lt _ (by decide)⟩, ?_⟩
    have e : laneCol ⟨k.val / 1024, by have := k.isLt; omega⟩ ⟨k.val % 1024, Nat.mod_lt _ (by decide)⟩ = k :=
      Fin.ext (by show 1024 * (k.val / 1024) + k.val % 1024 = k.val; omega)
    rw [e]; exact h

/-! ## The two flags after a block, at a row -/

/-- The positive flag after a block, at a row: the larger of the flag before it and whether a pair of the row is a selected
    positive pair. -/
theorem upd1_flagPos_apply (x0 : Vec Ideal S512x1024 .f32) (x1 : Vec Ideal S512x1 .i32) (x2 : Vec Ideal S1x1024 .i32)
    (x3 x4 : Vec Ideal S512x1 .f32)
    (s : Vec Ideal S512x1 .f32 × Vec Ideal S512x1 .f32 × Vec Ideal S512x1 .f32 × Vec Ideal S512x1 .f32) (p : Fin 512) :
    ((upd1 (F := Ideal) x0 x1 x2 x3 x4 s).2.2.1 (ix2 p (0 : Fin 1)) : EReal)
      = max (s.2.2.1 (ix2 p (0 : Fin 1)) : EReal) (⨆ l : Fin 1024, bitE
          (selPos (x0 (ix2 p l)) (x1 (ix2 p (0 : Fin 1))) (x2 (ix2 (0 : Fin 1) l)) (x4 (ix2 p (0 : Fin 1))))) := by
  unfold upd1
  exact (k1_pay13_apply _ _ p).trans
    (congrArg (max (s.2.2.1 (ix2 p (0 : Fin 1)) : EReal)) (iSup_congr fun l => congrArg bitE (k1_pay9_apply x0 x1 x2 x4 p l)))

/-- The negative flag after a block, at a row, likewise. -/
theorem upd1_flagNeg_apply (x0 : Vec Ideal S512x1024 .f32) (x1 : Vec Ideal S512x1 .i32) (x2 : Vec Ideal S1x1024 .i32)
    (x3 x4 : Vec Ideal S512x1 .f32)
    (s : Vec Ideal S512x1 .f32 × Vec Ideal S512x1 .f32 × Vec Ideal S512x1 .f32 × Vec Ideal S512x1 .f32) (p : Fin 512) :
    ((upd1 (F := Ideal) x0 x1 x2 x3 x4 s).2.2.2 (ix2 p (0 : Fin 1)) : EReal)
      = max (s.2.2.2 (ix2 p (0 : Fin 1)) : EReal) (⨆ l : Fin 1024, bitE
          (selNeg (x0 (ix2 p l)) (x1 (ix2 p (0 : Fin 1))) (x2 (ix2 (0 : Fin 1) l)) (x3 (ix2 p (0 : Fin 1))))) := by
  unfold upd1
  rw [k1_pay1_eq]
  exact (k1_pay14_apply _ _ p).trans
    (congrArg (max (s.2.2.2 (ix2 p (0 : Fin 1)) : EReal)) (iSup_congr fun l => congrArg bitE (k1_pay8_apply x0 x1 x2 x3 p l)))

/-! ## The pairs of a row of the whole matrix -/

section Row

variable (sim : (⟨S8192x8192, .f32⟩ : BufTy).Contents (Elt Ideal)) (lab : (⟨S8192, .i32⟩ : BufTy).Contents (Elt Ideal))

/-- Whether (r, k) is a selected positive pair, the row's largest negative similarity read off the reference's column. -/
def pairPos (r k : Fin 8192) : BitVec 1 :=
  selPos (sim (ix2 r k)) (lab (ix1 r)) (lab (ix1 k)) (val_main_v21 (F := Ideal) sim lab (ix2 r (0 : Fin 1)))

/-- Whether (r, k) is a selected negative pair, the row's smallest positive similarity read off the reference's column. -/
def pairNeg (r k : Fin 8192) : BitVec 1 :=
  selNeg (sim (ix2 r k)) (lab (ix1 r)) (lab (ix1 k)) (val_main_v15 (F := Ideal) sim lab (ix2 r (0 : Fin 1)))

/-- What column block cb adds to row r's positive sum. -/
def blockPos (r : Fin 8192) (cb : Fin 8) : EReal :=
  ∑ l : Fin 1024, posTerm (sim (ix2 r (laneCol cb l))) (pairPos sim lab r (laneCol cb l))

/-- What column block cb adds to row r's negative sum. -/
def blockNeg (r : Fin 8192) (cb : Fin 8) : EReal :=
  ∑ l : Fin 1024, negTerm (sim (ix2 r (laneCol cb l))) (pairNeg sim lab r (laneCol cb l))

/-- Row p of a row block's accumulators holds what the first n column blocks leave for array row r. -/
def RowAfter (r : Fin 8192) (n : ℕ)
    (s : Vec Ideal S512x1 .f32 × Vec Ideal S512x1 .f32 × Vec Ideal S512x1 .f32 × Vec Ideal S512x1 .f32) (p : Fin 512) : Prop :=
  (s.1 (ix2 p (0 : Fin 1)) : EReal) = (∑ cb : Fin 8, if cb.val < n then blockPos sim lab r cb else 0)
    ∧ (s.2.1 (ix2 p (0 : Fin 1)) : EReal) = (∑ cb : Fin 8, if cb.val < n then blockNeg sim lab r cb else 0)
    ∧ (s.2.2.1 (ix2 p (0 : Fin 1)) : EReal) = indE (∃ cb : Fin 8, cb.val < n ∧ ∃ l : Fin 1024, pairPos sim lab r (laneCol cb l) = 1#1)
    ∧ (s.2.2.2 (ix2 p (0 : Fin 1)) : EReal) = indE (∃ cb : Fin 8, cb.val < n ∧ ∃ l : Fin 1024, pairNeg sim lab r (laneCol cb l) = 1#1)

/-- The zeroed accumulators hold what no block leaves. -/
theorem rowAfter_init (r : Fin 8192) (p : Fin 512) : RowAfter sim lab r 0 (init1 (F := Ideal)) p := by
  obtain ⟨h1, h2, h3, h4⟩ := init1_apply p
  refine ⟨h1.trans (sum_lt_zero _).symm, h2.trans (sum_lt_zero _).symm, h3.trans ?_, h4.trans ?_⟩
  · exact (indE_false fun ⟨cb, h, _⟩ => Nat.not_lt_zero _ h).symm
  · exact (indE_false fun ⟨cb, h, _⟩ => Nat.not_lt_zero _ h).symm

variable (V : (c : Dev nD) → (b : Ref sig .tc) → Buf (Elt Ideal) ((c : Thread nD τ).loc b))

section Step

variable (c : Dev nD)
  (hsim : V c main_arg0 = sim)
  (hrow : V c main_v0 = val_main_v0 (F := Ideal) lab)
  (hcol : V c main_v1 = val_main_v1 (F := Ideal) lab)
  (hmin : V c main_v2_0 = val_main_v15 (F := Ideal) sim lab)
  (hmax : V c main_v2_1 = val_main_v21 (F := Ideal) sim lab)

include hsim hrow hcol hmin hmax in
/-- ONE POINT: the accumulators that hold what the first n column blocks leave, updated by the blocks of the point of
    row block ri and column block n, hold what the first n + 1 leave. -/
theorem rowAfter_step (ri : Fin 16) (n : ℕ) (hn : n < 8) (t : Fin cfg1.N) (hr : t.val / 8 = ri.val) (hc : t.val % 8 = n)
    (s : Vec Ideal S512x1 .f32 × Vec Ideal S512x1 .f32 × Vec Ideal S512x1 .f32 × Vec Ideal S512x1 .f32) (p : Fin 512)
    (h : RowAfter sim lab (blockRow ri p) n s p) :
    RowAfter sim lab (blockRow ri p) (n + 1)
      (upd1 (F := Ideal) (simBlk V c t) (rowLabBlk V c t) (colLabBlk V c t) (minBlk V c t) (maxBlk V c t) s) p := by
  obtain ⟨h1, h2, h3, h4⟩ := h
  have eS : ∀ l : Fin 1024, simBlk V c t (ix2 p l) = sim (ix2 (blockRow ri p) (laneCol ⟨n, hn⟩ l)) := fun l =>
    (simBlk_apply V c t ri ⟨n, hn⟩ hr hc p l).trans (congrFun hsim _)
  have eR : rowLabBlk V c t (ix2 p (0 : Fin 1)) = lab (ix1 (blockRow ri p)) :=
    (rowLabBlk_apply V c t ri hr p).trans ((congrFun hrow _).trans (labelCol_apply lab _))
  have eC : ∀ l : Fin 1024, colLabBlk V c t (ix2 (0 : Fin 1) l) = lab (ix1 (laneCol ⟨n, hn⟩ l)) := fun l =>
    (colLabBlk_apply V c t ⟨n, hn⟩ hc l).trans ((congrFun hcol _).trans (labelRow_apply lab _))
  have eMn : minBlk V c t (ix2 p (0 : Fin 1)) = val_main_v15 (F := Ideal) sim lab (ix2 (blockRow ri p) (0 : Fin 1)) :=
    (minBlk_apply V c t ri hr p).trans (congrFun hmin _)
  have eMx : maxBlk V c t (ix2 p (0 : Fin 1)) = val_main_v21 (F := Ideal) sim lab (ix2 (blockRow ri p) (0 : Fin 1)) :=
    (maxBlk_apply V c t ri hr p).trans (congrFun hmax _)
  have ePos : ∀ l : Fin 1024, selPos (simBlk V c t (ix2 p l)) (rowLabBlk V c t (ix2 p (0 : Fin 1)))
      (colLabBlk V c t (ix2 (0 : Fin 1) l)) (maxBlk V c t (ix2 p (0 : Fin 1))) = pairPos sim lab (blockRow ri p) (laneCol ⟨n, hn⟩ l) := fun l => by
    unfold pairPos; rw [eS l, eR, eC l, eMx]
  have eNeg : ∀ l : Fin 1024, selNeg (simBlk V c t (ix2 p l)) (rowLabBlk V c t (ix2 p (0 : Fin 1)))
      (colLabBlk V c t (ix2 (0 : Fin 1) l)) (minBlk V c t (ix2 p (0 : Fin 1))) = pairNeg sim lab (blockRow ri p) (laneCol ⟨n, hn⟩ l) := fun l => by
    unfold pairNeg; rw [eS l, eR, eC l, eMn]
  refine ⟨?_, ?_, ?_, ?_⟩
  · rw [upd1_pos_apply (simBlk V c t) (rowLabBlk V c t) (colLabBlk V c t) (minBlk V c t) (maxBlk V c t) s p, h1,
      sum_lt_succ _ n hn]
    refine congrArg (_ + ·) (Finset.sum_congr rfl fun l _ => ?_)
    rw [ePos l, eS l]
  · rw [upd1_neg_apply (simBlk V c t) (rowLabBlk V c t) (colLabBlk V c t) (minBlk V c t) (maxBlk V c t) s p, h2,
      sum_lt_succ _ n hn]
    refine congrArg (_ + ·) (Finset.sum_congr rfl fun l _ => ?_)
    rw [eNeg l, eS l]
  · rw [upd1_flagPos_apply (simBlk V c t) (rowLabBlk V c t) (colLabBlk V c t) (minBlk V c t) (maxBlk V c t) s p, h3,
      iSup_congr fun l => congrArg bitE (ePos l), flag_step]
    exact indE_congr (exists_lt_succ (fun cb => ∃ l : Fin 1024, pairPos sim lab (blockRow ri p) (laneCol cb l) = 1#1) n hn)
  · rw [upd1_flagNeg_apply (simBlk V c t) (rowLabBlk V c t) (colLabBlk V c t) (minBlk V c t) (maxBlk V c t) s p, h4,
      iSup_congr fun l => congrArg bitE (eNeg l), flag_step]
    exact indE_congr (exists_lt_succ (fun cb => ∃ l : Fin 1024, pairNeg sim lab (blockRow ri p) (laneCol cb l) = 1#1) n hn)

/-- Point 8 ri + ci is a point of the grid. -/
theorem point_lt (ri : Fin 16) (ci : ℕ) (hci : ci < 8) : 8 * ri.val + ci < cfg1.N := by
  rw [show cfg1.N = 128 from N_1]; have := ri.isLt; omega

include hsim hrow hcol hmin hmax in
/-- EVERY POINT: after the point of row block ri and column block ci the accumulators hold, in each row, what the first
    ci + 1 column blocks leave. -/
theorem acc_rowAfter (ri : Fin 16) : ∀ (ci : ℕ) (hci : ci < 8) (p : Fin 512),
    RowAfter sim lab (blockRow ri p) (ci + 1) (accAt1 V c (8 * ri.val + ci) (point_lt ri ci hci)) p
  | 0, hci, p => by
    have e : accAt1 V c (8 * ri.val + 0) (point_lt ri 0 hci)
        = upd1 (F := Ideal) (simBlk V c ⟨8 * ri.val + 0, point_lt ri 0 hci⟩) (rowLabBlk V c ⟨8 * ri.val + 0, point_lt ri 0 hci⟩)
            (colLabBlk V c ⟨8 * ri.val + 0, point_lt ri 0 hci⟩) (minBlk V c ⟨8 * ri.val + 0, point_lt ri 0 hci⟩)
            (maxBlk V c ⟨8 * ri.val + 0, point_lt ri 0 hci⟩) init1 :=
      accAt1_first V c ⟨8 * ri.val + 0, point_lt ri 0 hci⟩ (by show (8 * ri.val + 0) % 8 = 0; omega)
    rw [e]
    exact rowAfter_step sim lab V c hsim hrow hcol hmin hmax ri 0 hci ⟨8 * ri.val + 0, point_lt ri 0 hci⟩
      (by show (8 * ri.val + 0) / 8 = ri.val; omega) (by show (8 * ri.val + 0) % 8 = 0; omega) init1 p (rowAfter_init sim lab _ p)
  | ci + 1, hci, p => by
    have e : accAt1 V c (8 * ri.val + (ci + 1)) (point_lt ri (ci + 1) hci)
        = upd1 (F := Ideal) (simBlk V c ⟨8 * ri.val + (ci + 1), point_lt ri (ci + 1) hci⟩) (rowLabBlk V c ⟨8 * ri.val + (ci + 1), point_lt ri (ci + 1) hci⟩)
            (colLabBlk V c ⟨8 * ri.val + (ci + 1), point_lt ri (ci + 1) hci⟩) (minBlk V c ⟨8 * ri.val + (ci + 1), point_lt ri (ci + 1) hci⟩)
            (maxBlk V c ⟨8 * ri.val + (ci + 1), point_lt ri (ci + 1) hci⟩)
            (accAt1 V c (8 * ri.val + ci) (point_lt ri ci (Nat.lt_of_succ_lt hci))) :=
      accAt1_next V c ⟨8 * ri.val + (ci + 1), point_lt ri (ci + 1) hci⟩ (by show ¬(8 * ri.val + (ci + 1)) % 8 = 0; omega)
    rw [e]
    exact rowAfter_step sim lab V c hsim hrow hcol hmin hmax ri (ci + 1) hci ⟨8 * ri.val + (ci + 1), point_lt ri (ci + 1) hci⟩
      (by show (8 * ri.val + (ci + 1)) / 8 = ri.val; omega) (by show (8 * ri.val + (ci + 1)) % 8 = ci + 1; omega) _ p
      (acc_rowAfter ri ci (Nat.lt_of_succ_lt hci) p)

end Step

end Row

end Cert.KernelIdeal.Pairs

end
-- ==== Proof.RefTerms.lean ====
/-
  The reference's stages read one pair at a time. At row r and column k its positive-pair mask, negative-pair mask and the
  two masked exponentials are the selected-positive bit, the selected-negative bit and the two contributions of the pair
  (r, k), with the row's largest negative and smallest positive similarity read off its two row reductions; its two row
  sums are zero plus the sums of the contributions over all 8192 columns; and its masked result at row r is the row's loss
  from those sums and the conjunction of its two any-reductions.
-/
import proofs.«174246_j52381421142559_1_alg».proof.Proof.Gen.ReferenceIdeal.Read
import proofs.«174246_j52381421142559_1_alg».proof.Proof.PairTerms
import Idealize.ShloMosaic.Lib.ValueIdx
import Idealize.ShloMosaic.Lib.Pipeline.Value
import Idealize.ShloMosaic.PureOps.Ideal.Laws

set_option maxRecDepth 16384

noncomputable section

namespace Cert.KernelIdeal.Pairs

open Idealize.ShloMosaic Idealize.ShloMosaic.TcCoe
open Idealize.ShloMosaic.ValueIdx
open Cert.ReferenceIdeal.Read

variable (sim : (⟨Cert.ReferenceIdeal.S8192x8192, .f32⟩ : BufTy).Contents (Elt Ideal))
  (lab : (⟨Cert.ReferenceIdeal.S8192, .i32⟩ : BufTy).Contents (Elt Ideal))

/-- The label-equality mask at (r, k): row r's label against column k's. -/
theorem ref_same (r k : Fin 8192) :
    val_main_v4 (F := Ideal) lab (ix2 r k) = IntOp.cmpi .eq (lab (ix1 r)) (lab (ix1 k)) := by
  rw [val_main_v4_apply, val_main_v2_apply, val_main_v3_apply, val_main_v0_apply, val_main_v1_apply]
  refine congrArg₂ (IntOp.cmpi .eq) (congrArg lab ?_) (congrArg lab ?_)
  · funext a; match a with | ⟨0, _⟩ => rfl
  · funext a; match a with | ⟨0, _⟩ => rfl

/-- The selected-positive mask at (r, k). -/
theorem ref_selPos (r k : Fin 8192) :
    val_main_v24 (F := Ideal) sim lab (ix2 r k)
      = selPos (sim (ix2 r k)) (lab (ix1 r)) (lab (ix1 k)) (val_main_v21 (F := Ideal) sim lab (ix2 r (0 : Fin 1))) := by
  rw [val_main_v24_apply, val_main_v7_apply, val_main_v23_apply, val_main_v6_apply, val_main_v20_apply, val_main_v22_apply,
    val_main_v5_apply, val_main_v19_apply, ref_same]
  unfold selPos
  refine congrArg₂ IntOp.andi rfl (congrArg₂ (FloatOps.cmpf .olt) rfl (congrArg (val_main_v21 (F := Ideal) sim lab) ?_))
  funext a; match a with | ⟨0, _⟩ => rfl | ⟨1, _⟩ => rfl

/-- The selected-negative mask at (r, k). -/
theorem ref_selNeg (r k : Fin 8192) :
    val_main_v18 (F := Ideal) sim lab (ix2 r k)
      = selNeg (sim (ix2 r k)) (lab (ix1 r)) (lab (ix1 k)) (val_main_v15 (F := Ideal) sim lab (ix2 r (0 : Fin 1))) := by
  rw [val_main_v18_apply, val_main_v8_apply, val_main_v17_apply, val_main_v14_apply, val_main_v16_apply,
    val_main_v13_apply, ref_same, not_eq_xor_one]
  unfold selNeg
  refine congrArg₂ IntOp.andi rfl (congrArg₂ (FloatOps.cmpf .ogt) rfl (congrArg (val_main_v15 (F := Ideal) sim lab) ?_))
  funext a; match a with | ⟨0, _⟩ => rfl | ⟨1, _⟩ => rfl

/-- What the pair (r, k) adds to the positive sum. -/
theorem ref_posTerm (r k : Fin 8192) :
    val_main_v33 (F := Ideal) sim lab (ix2 r k)
      = posTerm (sim (ix2 r k))
          (selPos (sim (ix2 r k)) (lab (ix1 r)) (lab (ix1 k)) (val_main_v21 (F := Ideal) sim lab (ix2 r (0 : Fin 1)))) := by
  rw [val_main_v33_apply, ref_selPos, val_main_v32_apply, val_main_v31_apply, val_main_v29_apply, val_main_v30_apply,
    val_main_v28_apply, val_main_call2_v1_apply]
  rfl

/-- What the pair (r, k) adds to the negative sum. -/
theorem ref_negTerm (r k : Fin 8192) :
    val_main_v40 (F := Ideal) sim lab (ix2 r k)
      = negTerm (sim (ix2 r k))
          (selNeg (sim (ix2 r k)) (lab (ix1 r)) (lab (ix1 k)) (val_main_v15 (F := Ideal) sim lab (ix2 r (0 : Fin 1)))) := by
  rw [val_main_v40_apply, ref_selNeg, val_main_v39_apply, val_main_v38_apply, val_main_v36_apply, val_main_v37_apply,
    val_main_v35_apply, val_main_call3_v1_apply]
  rfl

/-- Row r's positive sum: the sum over all columns of what each pair adds. -/
theorem ref_posSum (r : Fin 8192) :
    val_main_v34 (F := Ideal) sim lab (ix1 r)
      = ∑ k : Fin 8192, posTerm (sim (ix2 r k))
          (selPos (sim (ix2 r k)) (lab (ix1 r)) (lab (ix1 k)) (val_main_v21 (F := Ideal) sim lab (ix2 r (0 : Fin 1)))) := by
  rw [val_main_v34_apply, val_main_cst_10_apply, Ideal.ofBits_def, Ideal.ofBits_zero_f32, zero_add]
  refine Finset.sum_congr rfl fun k _ => ?_
  refine (congrArg (val_main_v33 (F := Ideal) sim lab) ?_).trans (ref_posTerm sim lab r k)
  funext a; match a with | ⟨0, _⟩ => rfl | ⟨1, _⟩ => rfl

/-- Row r's negative sum likewise. -/
theorem ref_negSum (r : Fin 8192) :
    val_main_v41 (F := Ideal) sim lab (ix1 r)
      = ∑ k : Fin 8192, negTerm (sim (ix2 r k))
          (selNeg (sim (ix2 r k)) (lab (ix1 r)) (lab (ix1 k)) (val_main_v15 (F := Ideal) sim lab (ix2 r (0 : Fin 1)))) := by
  rw [val_main_v41_apply, val_main_cst_14_apply, Ideal.ofBits_def, Ideal.ofBits_zero_f32, zero_add]
  refine Finset.sum_congr rfl fun k _ => ?_
  refine (congrArg (val_main_v40 (F := Ideal) sim lab) ?_).trans (ref_negTerm sim lab r k)
  funext a; match a with | ⟨0, _⟩ => rfl | ⟨1, _⟩ => rfl

/-- The reference's masked result at row r: the row's loss from its two sums, counted when both any-reductions are set. -/
theorem ref_loss (r : Fin 8192) :
    val_main_v49 (F := Ideal) sim lab (ix1 r)
      = rowLoss (val_main_v34 (F := Ideal) sim lab (ix1 r)) (val_main_v41 (F := Ideal) sim lab (ix1 r))
          (IntOp.andi (val_main_v25 (F := Ideal) sim lab (ix1 r)) (val_main_v26 (F := Ideal) sim lab (ix1 r))) := by
  rw [val_main_v49_apply, val_main_v27_apply, val_main_v48_apply, val_main_v44_apply, val_main_v47_apply,
    val_main_v42_apply, val_main_v45_apply, val_main_v43_apply, val_main_v46_apply, val_main_call4_v1_apply]
  rfl

end Cert.KernelIdeal.Pairs

end
-- ==== Proof.Cover1.lean ====
/-
  From the blocks the second call writes back to its result array. The result column has 8192 rows; the call writes
  it back in sixteen blocks of 512 rows, one per row block, each at the last of the row block's eight column blocks
  (the points 8·r + 7). What such a point writes is the row losses computed from the accumulators it leaves. So if, row
  by row, those losses are the entries of a column `G` at the block's rows, the array ends holding `G`: every row of the
  array lies in exactly the block its row block's last point writes.
-/
import proofs.«174246_j52381421142559_1_alg».proof.Proof.KernelIdeal.Data1
import Idealize.ShloMosaic.Lib.ValueIdx
import Idealize.ShloMosaic.Lib.Pipeline.Value

set_option maxRecDepth 16384

noncomputable section

namespace Cert.KernelIdeal.Pairs

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx

variable {F : FTy → Type} [FloatOps F]

/-- Row `p` of row block `ri`, as a row of the whole result column. -/
def rowOf (ri : Fin 16) (p : Fin 512) : Fin 8192 := ⟨512 * ri.val + p.val, by have := ri.isLt; have := p.isLt; omega⟩

theorem rowOf_val (ri : Fin 16) (p : Fin 512) : (rowOf ri p).val = 512 * ri.val + p.val := rfl

/-- The result window's index map over the grid: point `t` writes row block `t / 8`, column block 0. -/
theorem idx_facts1_5 : ∀ t : Fin cfg1.N, win1_5.index t (0 : Fin 2) = t.val / 8 ∧ win1_5.index t (1 : Fin 2) = 0 :=
  (by decide +kernel : ∀ t : Fin grid1.N, _)

variable (V : (c : Dev nD) → (b : Ref sig .tc) → Buf (Elt F) ((c : Thread nD τ).loc b))

/-- What a last column block writes back to the result array is its block of `G`, once the row losses it leaves are
    `G`'s entries at the block's rows. -/
theorem flushed5_eq (c : Dev nD) (G : S8192x1.Idx → Elt F .f32)
    (h : ∀ (ri : Fin 16) (p : Fin 512) (hn : 8 * ri.val + 7 < cfg1.N),
      loss1 (accAt1 V c (8 * ri.val + 7) hn) (ix2 p (0 : Fin 1)) = G (ix2 (rowOf ri p) (0 : Fin 1)))
    (t : Fin cfg1.N) (h7 : t.val % 8 = 7) :
    (dat1 V c).flushed 5 t = ((cfg1.win 5).blk t).view.read (Elt F) G := by
  have hN : t.val < 128 := lt_of_lt_of_eq t.isLt N_1
  obtain ⟨e0, e1⟩ := idx_facts1_5 t
  obtain ⟨ri, hri⟩ : ∃ ri : Fin 16, ri.val = t.val / 8 := ⟨⟨t.val / 8, by omega⟩, rfl⟩
  have ht : t.val = 8 * ri.val + 7 := by omega
  show (cfg1.win 5).cut (grid1.coords t) ((dat1 V c).after 5 t) = _
  rw [after1_5]
  funext y
  obtain ⟨p, u, rfl⟩ : ∃ (p : Fin 512) (u : Fin 1), y = ix2 p u := ⟨y 0, y 1, eq_ix2 y⟩
  obtain rfl : u = 0 := Subsingleton.elim _ _
  rw [View.read_apply]
  have hx : (cfg1.win 5).xinj (grid1.coords t) (ix2 p (0 : Fin 1)) = ix2 p (0 : Fin 1) :=
    funext fun a => Fin.ext (by match a with | ⟨0, _⟩ => rfl | ⟨1, _⟩ => rfl)
  have he : ((cfg1.win 5).blk t).view.emb (ix2 p (0 : Fin 1)) = ix2 (rowOf ri p) (0 : Fin 1) := funext fun a => Fin.ext (by
    match a with
    | ⟨0, _⟩ => show win1_5.index t (0 : Fin 2) * 512 + 1 * p.val = 512 * ri.val + p.val; rw [e0]; omega
    | ⟨1, _⟩ => show win1_5.index t (1 : Fin 2) * 1 + 1 * 0 = 0; rw [e1])
  rw [he]
  have key : ∀ (n : ℕ) (hn : n < cfg1.N), n = 8 * ri.val + 7 →
      loss1 (accAt1 V c n hn) (ix2 p (0 : Fin 1)) = G (ix2 (rowOf ri p) (0 : Fin 1)) := by
    intro n hn e; subst e; exact h ri p hn
  refine Eq.trans (congrArg (loss1 (accAt1 V c t.val t.isLt)) hx) (Eq.trans ?_ (cast_eq _ _).symm)
  exact key t.val t.isLt ht

/-- Every row of the result array lies in the block its row block's last column block writes back. -/
theorem cover5 (i : S8192x1.Idx) : ∃ t : Fin cfg1.N, (cfg1.win 5).flush t = true ∧ i ∈ ((cfg1.win 5).blk t).view.set := by
  have hi0 : (i 0).val < 8192 := idx2_lt0 i
  have hi1 : (i 1).val < 1 := idx2_lt1 i
  have hN : cfg1.N = 128 := N_1
  obtain ⟨t, tv⟩ : ∃ t : Fin cfg1.N, t.val = 8 * ((i 0).val / 512) + 7 := ⟨⟨8 * ((i 0).val / 512) + 7, by rw [hN]; omega⟩, rfl⟩
  obtain ⟨e0, e1⟩ := idx_facts1_5 t
  refine ⟨t, (flush1_5 t).mpr (by rw [tv]; omega), ?_⟩
  show i ∈ ((View.whole main_v3).slice (win1_5.rect t)).set
  rw [View.set_slice_whole, Rect.mem_set_unit]
  intro a
  match a with
  | ⟨0, _⟩ =>
    show win1_5.index t (0 : Fin 2) * 512 ≤ (i 0).val ∧ (i 0).val < win1_5.index t (0 : Fin 2) * 512 + 512
    rw [e0, tv]; omega
  | ⟨1, _⟩ =>
    show win1_5.index t (1 : Fin 2) * 1 ≤ (i 1).val ∧ (i 1).val < win1_5.index t (1 : Fin 2) * 1 + 1
    rw [e1]; omega

/-- THE RESULT ARRAY AFTER THE SECOND CALL, FROM ITS ROWS: if at the last column block of every row block the row losses
    computed from the accumulators are `G`'s entries at the row block's rows, the array ends holding `G`. -/
theorem arrAt5_of_rows (c : Dev nD) (G : S8192x1.Idx → Elt F .f32)
    (h : ∀ (ri : Fin 16) (p : Fin 512) (hn : 8 * ri.val + 7 < cfg1.N),
      loss1 (accAt1 V c (8 * ri.val + 7) hn) (ix2 p (0 : Fin 1)) = G (ix2 (rowOf ri p) (0 : Fin 1))) :
    (dat1 V c).arrAt 5 cfg1.N = G :=
  Dat.arrAt_eq_of_cover (dat1 V c) 5 G (fun t hf => flushed5_eq V c G h t ((flush1_5 t).mp hf)) cover5

end Cert.KernelIdeal.Pairs

end
-- ==== Proof.Value1.lean ====
/-
  What the second call leaves in its result array: per row, the loss of that row as a column. The grid walks a row
  block's eight column blocks in turn; the running sums after the last of them are the sums over all 8192 columns of the
  selected pairs' exponentials, the running flags say whether any pair was selected, and the row loss computed from them
  is the reference's masked sum of the two logarithms.
-/
import proofs.«174246_j52381421142559_1_alg».proof.Proof.KernelIdeal.Data1
import proofs.«174246_j52381421142559_1_alg».proof.Proof.Gen.ReferenceIdeal.Read
import proofs.«174246_j52381421142559_1_alg».proof.Proof.LibExtremum
import proofs.«174246_j52381421142559_1_alg».proof.Proof.LibKeepdims
import proofs.«174246_j52381421142559_1_alg».proof.Proof.LibColumnVector
import proofs.«174246_j52381421142559_1_alg».proof.Proof.LibBroadcastInDim
import proofs.«174246_j52381421142559_1_alg».proof.Proof.RowState
import proofs.«174246_j52381421142559_1_alg».proof.Proof.RefTerms
import proofs.«174246_j52381421142559_1_alg».proof.Proof.Cover1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pairs

open Cert.KernelIdeal Cert.KernelIdeal.Gen
open Idealize.ShloMosaic Idealize.ShloMosaic.TcCoe
open Idealize.SL Idealize.SL.Sem
open Idealize.ShloMosaic.Pipeline (Dat Cfg Window)

/-- The reference's per-row loss (zero for a row with no selected positive or no selected negative pair), as a column. -/
def rowLossCol (sim : (⟨S8192x8192, .f32⟩ : BufTy).Contents (Elt Ideal)) (lab : (⟨S8192, .i32⟩ : BufTy).Contents (Elt Ideal)) :
    (⟨S8192x1, .f32⟩ : BufTy).Contents (Elt Ideal) :=
  fun i => Cert.ReferenceIdeal.Read.val_main_v49 (F := Ideal) sim lab (Cert.ReferenceIdeal.Read.idx_main_v15 i)

/-- The row losses of a row block at a row: the row's loss from its two sums, counted when both flags are above one half. -/
theorem loss1_apply (s : Vec Ideal S512x1 .f32 × Vec Ideal S512x1 .f32 × Vec Ideal S512x1 .f32 × Vec Ideal S512x1 .f32)
    (p : Fin 512) :
    loss1 (F := Ideal) s (ValueIdx.ix2 p (0 : Fin 1))
      = rowLoss (s.1 (ValueIdx.ix2 p (0 : Fin 1))) (s.2.1 (ValueIdx.ix2 p (0 : Fin 1)))
          (IntOp.andi (Ideal.cmp .ogt (s.2.2.1 (ValueIdx.ix2 p (0 : Fin 1))) (Ideal.ofBits .f32 0x3F000000#32))
            (Ideal.cmp .ogt (s.2.2.2 (ValueIdx.ix2 p (0 : Fin 1))) (Ideal.ofBits .f32 0x3F000000#32))) := by
  unfold loss1 k1_pay2 rowLoss
  rfl

section Row

variable (sim : (⟨S8192x8192, .f32⟩ : BufTy).Contents (Elt Ideal)) (lab : (⟨S8192, .i32⟩ : BufTy).Contents (Elt Ideal))

/-- The sums of a row over the eight column blocks are its sums over all columns. -/
theorem blockPos_sum (r : Fin 8192) :
    (∑ cb : Fin 8, blockPos sim lab r cb) = Cert.ReferenceIdeal.Read.val_main_v34 (F := Ideal) sim lab (ValueIdx.ix1 r) := by
  rw [ref_posSum]
  exact (sum_columns fun k => posTerm (sim (ValueIdx.ix2 r k)) (pairPos sim lab r k)).symm

theorem blockNeg_sum (r : Fin 8192) :
    (∑ cb : Fin 8, blockNeg sim lab r cb) = Cert.ReferenceIdeal.Read.val_main_v41 (F := Ideal) sim lab (ValueIdx.ix1 r) := by
  rw [ref_negSum]
  exact (sum_columns fun k => negTerm (sim (ValueIdx.ix2 r k)) (pairNeg sim lab r k)).symm

/-- The positive flag's test after the eight blocks is the reference's "some selected positive pair in the row". -/
theorem anyPos_bit (r : Fin 8192) :
    Ideal.cmp .ogt (indE (∃ cb : Fin 8, cb.val < 8 ∧ ∃ l : Fin 1024, pairPos sim lab r (laneCol cb l) = 1#1))
        (Ideal.ofBits .f32 0x3F000000#32)
      = Cert.ReferenceIdeal.Read.val_main_v26 (F := Ideal) sim lab (ValueIdx.ix1 r) := by
  refine bit_ext ?_
  rw [val_main_v26_eq_one]
  refine (cmp_ogt_half_indE_eq_one _).trans ((exists_columns fun k => pairPos sim lab r k = 1#1).trans (exists_congr fun k => ?_))
  have e : Cert.ReferenceIdeal.Read.idx_main_v34 (ValueIdx.ix1 r) k = ValueIdx.ix2 r k := by
    funext a; match a with | ⟨0, _⟩ => rfl | ⟨1, _⟩ => rfl
  rw [e, ref_selPos]
  exact Iff.rfl

/-- The negative flag's test after the eight blocks is the reference's "some selected negative pair in the row". -/
theorem anyNeg_bit (r : Fin 8192) :
    Ideal.cmp .ogt (indE (∃ cb : Fin 8, cb.val < 8 ∧ ∃ l : Fin 1024, pairNeg sim lab r (laneCol cb l) = 1#1))
        (Ideal.ofBits .f32 0x3F000000#32)
      = Cert.ReferenceIdeal.Read.val_main_v25 (F := Ideal) sim lab (ValueIdx.ix1 r) := by
  refine bit_ext ?_
  rw [val_main_v25_eq_one]
  refine (cmp_ogt_half_indE_eq_one _).trans ((exists_columns fun k => pairNeg sim lab r k = 1#1).trans (exists_congr fun k => ?_))
  have e : Cert.ReferenceIdeal.Read.idx_main_v34 (ValueIdx.ix1 r) k = ValueIdx.ix2 r k := by
    funext a; match a with | ⟨0, _⟩ => rfl | ⟨1, _⟩ => rfl
  rw [e, ref_selNeg]
  exact Iff.rfl

end Row

variable (V : (c : Dev nD) → (b : Ref sig .tc) → Buf (Elt Ideal) ((c : Thread nD τ).loc b))

/-- A row of the output block after the last column block of its row block: the reference's loss of that row. -/
theorem rowLoss_row (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab)
    (hmin : V c main_v2_0 = Cert.ReferenceIdeal.Read.val_main_v15 (F := Ideal) sim lab)
    (hmax : V c main_v2_1 = Cert.ReferenceIdeal.Read.val_main_v21 (F := Ideal) sim lab)
    (ri : Fin 16) (p : Fin 512) (hn : 8 * ri.val + 7 < cfg1.N) :
    loss1 (accAt1 V c (8 * ri.val + 7) hn) (ValueIdx.ix2 p (0 : Fin 1))
      = rowLossCol sim lab (ValueIdx.ix2 (blockRow ri p) (0 : Fin 1)) := by
  obtain ⟨h1, h2, h3, h4⟩ := acc_rowAfter sim lab V c hsim hrow hcol hmin hmax ri 7 (by decide) p
  have e : Cert.ReferenceIdeal.Read.idx_main_v15 (ValueIdx.ix2 (blockRow ri p) (0 : Fin 1)) = ValueIdx.ix1 (blockRow ri p) := by
    funext a; match a with | ⟨0, _⟩ => rfl
  unfold rowLossCol
  rw [e, ref_loss, loss1_apply, h1, h2, h3, h4, sum_lt_eight, sum_lt_eight, blockPos_sum, blockNeg_sum, anyPos_bit, anyNeg_bit,
    andi_comm1]

/-- The result array after the second call: the per-row loss, as a column. -/
theorem rowLoss_col (c : Dev nD) (sim : (⟨S8192x8192, .f32⟩ : BufTy).Contents (Elt Ideal)) (lab : (⟨S8192, .i32⟩ : BufTy).Contents (Elt Ideal))
    (hsim : V c main_arg0 = sim)
    (hrow : V c main_v0 = Cert.ReferenceIdeal.Read.val_main_v0 (F := Ideal) lab)
    (hcol : V c main_v1 = Cert.ReferenceIdeal.Read.val_main_v1 (F := Ideal) lab)
    (hmin : V c main_v2_0 = Cert.ReferenceIdeal.Read.val_main_v15 (F := Ideal) sim lab)
    (hmax : V c main_v2_1 = Cert.ReferenceIdeal.Read.val_main_v21 (F := Ideal) sim lab) :
    (dat1 (F := Ideal) V c).arrAt 5 cfg1.N = rowLossCol sim lab :=
  arrAt5_of_rows (F := Ideal) V c (rowLossCol sim lab) fun ri p hn => rowLoss_row V c sim lab hsim hrow hcol hmin hmax ri p hn

end Cert.KernelIdeal.Pairs

end
-- ==== Proof.KernelValue.lean ====
/-
  The idealized kernel's result is the reference's. What the first call finds are the similarity matrix and the labels as
  a column and as a row; it leaves the per-row minimum over positive pairs and maximum over negative pairs. The second call
  finds those and leaves the per-row loss as a column. The closing operations sum that column and divide by the constant;
  the reference sums the same entries as a vector and divides by the same constant.
-/
import proofs.«174246_j52381421142559_1_alg».proof.Proof.KernelIdeal.Frame
import proofs.«174246_j52381421142559_1_alg».proof.Proof.Value0
import proofs.«174246_j52381421142559_1_alg».proof.Proof.Value1

set_option maxRecDepth 16384

noncomputable section

namespace Cert.KernelIdeal.Pairs

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- The labels reshaped to a column are the reference's column of labels. -/
theorem labels_col (c : Dev nD) :
    V1 m c main_v0 = Cert.ReferenceIdeal.Read.val_main_v0 (F := Ideal) (m ((c : Thread nD τ).loc main_arg1)) := by
  refine funext fun (i : S8192x1.Idx) => ?_
  refine (congrFun (V1_main_v0 m c) i).trans ?_
  rw [Cert.ReferenceIdeal.Read.val_main_v0_apply]
  refine shapeCast_apply (s := S8192) (t := S8192x1) _ _ i (Cert.ReferenceIdeal.Read.idx_main_v0 i) ?_
  have h1 : (i 1).val < 1 := (i 1).isLt
  rw [Shape.rowMajor_val_one, Shape.rowMajor_val_two]
  show (i 0).val = (i 0).val * 1 + (i 1).val
  omega

/-- The labels reshaped to a row are the reference's row of labels. -/
theorem labels_row (c : Dev nD) :
    V1 m c main_v1 = Cert.ReferenceIdeal.Read.val_main_v1 (F := Ideal) (m ((c : Thread nD τ).loc main_arg1)) := by
  refine funext fun (i : S1x8192.Idx) => ?_
  refine (congrFun (V1_main_v1 m c) i).trans ?_
  rw [Cert.ReferenceIdeal.Read.val_main_v1_apply]
  refine shapeCast_apply (s := S8192) (t := S1x8192) _ _ i (Cert.ReferenceIdeal.Read.idx_main_v1 i) ?_
  have h0 : (i 0).val < 1 := (i 0).isLt
  rw [Shape.rowMajor_val_one, Shape.rowMajor_val_two]
  show (i 1).val = (i 0).val * 8192 + (i 1).val
  omega

/-- The second call's result array after the run: the per-row loss of the launch arrays, as a column. -/
theorem rowLoss_after (c : Dev nD) :
    W3 m c (Proc.devRef .tc main_v3)
      = rowLossCol (m ((c : Thread nD τ).loc main_arg0)) (m ((c : Thread nD τ).loc main_arg1)) := by
  rw [W3_main_v3]
  refine rowLoss_col (V2 m) c _ _ (V2_main_arg0 m c) ((V2_main_v0 m c).trans (labels_col m c)) ((V2_main_v1 m c).trans (labels_row m c)) ?_ ?_
  · exact (V2_main_v2_0 m c).trans (minPos_col (V1 m) c _ _ (V1_main_arg0 m c) (labels_col m c) (labels_row m c))
  · exact (V2_main_v2_1 m c).trans (maxNeg_col (V1 m) c _ _ (V1_main_arg0 m c) (labels_col m c) (labels_row m c))

/-- A column index and its row. -/
def colRow : S8192x1.Idx ≃ Cert.ReferenceIdeal.S8192.Idx where
  toFun i := Cert.ReferenceIdeal.Read.idx_main_v15 i
  invFun r := ValueIdx.ix2 (⟨(r 0).val, (r 0).isLt⟩ : Fin 8192) (0 : Fin 1)
  left_inv i := by
    funext a
    match a with
    | ⟨0, _⟩ => rfl
    | ⟨1, _⟩ => exact Fin.ext (by have h1 : (i 1).val < 1 := (i 1).isLt; show 0 = (i 1).val; omega)
  right_inv r := by
    funext a
    match a with
    | ⟨0, _⟩ => rfl

/-- The host's sum of a column over both its axes, from zero, is zero plus the sum of its entries. -/
theorem sum_col (x : S8192x1.Idx → EReal) (i : S_.Idx) :
    Host.reduceAdd (F := Ideal) x (constant (F := Ideal) S_ .f32 0x00000000#32) reducesTo_S8192x1_S_d0_1 h_S_ i
      = (constant (F := Ideal) S_ .f32 0x00000000#32) (Shape.Idx.first h_S_) + ∑ j : S8192x1.Idx, x j := by
  simp only [Host.reduceAdd, Ideal.hostReduceAdd_def]
  exact Ideal.hostReduceAdd_total reducesTo_S8192x1_S_d0_1 (fun b => b.elim0) x _ i

/-- The mean of the per-row losses, computed over the column, is the reference's result. -/
theorem result_eq (c : Dev nD) :
    (W4 m c (Proc.devRef .tc main_v5) : S_.Idx → EReal)
      = Cert.ReferenceIdeal.Read.val_main_v51 (F := Ideal) (m ((c : Thread nD τ).loc main_arg0)) (m ((c : Thread nD τ).loc main_arg1)) := by
  rw [W4_main_v5, rowLoss_after]
  funext i
  rw [Cert.ReferenceIdeal.Read.val_main_v51_apply, Cert.ReferenceIdeal.Read.val_main_v50_apply]
  show FloatOps.hostDivf (Host.reduceAdd (F := Ideal) _ _ reducesTo_S8192x1_S_d0_1 h_S_ i) _ = _
  rw [sum_col]
  refine congrArg₂ FloatOps.hostDivf (congrArg₂ (· + ·) rfl ?_) rfl
  exact Fintype.sum_equiv colRow _ _ (fun j => rfl)

end Cert.KernelIdeal.Pairs

end
-- ==== Proof.lean ====
/-
  The pair-mining loss kernel against its reference. The kernel makes two passes over the 8192 × 8192 similarity matrix
  in 512 × 1024 blocks: the first keeps, per row, the smallest similarity over the row's positive pairs (same label,
  similarity below the cut-off) and the largest over its negative pairs; the second sums, per row, the exponentials of
  the positive pairs closer than the hardest negative and of the negative pairs closer than the hardest positive, and
  turns the two sums into the row's loss when both kinds of pair were found; the host averages the rows. The reference
  computes the same row quantities by whole-row reductions. Over the extended reals a minimum, a maximum or a sum taken
  block by block is the one taken over the whole row, so the two results are equal; no rewriting of the program was
  needed to idealize it. Each program's frame is its run with the result forgotten.
-/
import proofs.«174246_j52381421142559_1_alg».proof.Defs
import proofs.«174246_j52381421142559_1_alg».proof.Proof.Gen.Kernel
import proofs.«174246_j52381421142559_1_alg».proof.Proof.Gen.KernelIdeal
import proofs.«174246_j52381421142559_1_alg».proof.Proof.Gen.ReferenceIdeal
import proofs.«174246_j52381421142559_1_alg».proof.Proof.Gen.Pre_finite_inputs
import proofs.«174246_j52381421142559_1_alg».proof.Proof.Gen.ReferenceIdeal.Run
import proofs.«174246_j52381421142559_1_alg».proof.Proof.Gen.ReferenceIdeal.Read
import proofs.«174246_j52381421142559_1_alg».proof.Proof.Kernel.Frame
import proofs.«174246_j52381421142559_1_alg».proof.Proof.KernelIdeal.Frame
import proofs.«174246_j52381421142559_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Pairs.frame (F := Bits) m ρ

theorem frame_kernelIdeal : Cert.frame_KernelIdeal := fun m ρ _ => Cert.KernelIdeal.Pairs.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the mean of the per-row losses of the same matrix and labels. -/
theorem algebraic : Cert.algebraic_KernelIdeal_ReferenceIdeal := by
  intro m ρ m' ρ' _ hagree
  refine ⟨fun c => Cert.KernelIdeal.Pairs.W4 m c (Proc.devRef .tc Cert.KernelIdeal.main_v5),
    Cert.KernelIdeal.Pairs.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2]
  exact (Cert.KernelIdeal.Pairs.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
